-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_arg1 : IVec S8192x2 32) (main_arg5 : FVec F S8x4096x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_c_8 : IVec S_ 32 := constantI S_ 32 0#32
  let main_v24 : IVec S8192x2 32 := broadcastInDim S8192x2 ![] bcast_S_S8192x2 main_c_8
  let main_v25 : IVec S8192x2 1 := cmpi .sge main_arg1 main_v24
  let main_c_9 : IVec S_ 1 := constantI S_ 1 1#1
  let main_v26 : IVec S_ 1 := (fun x v => Host.reduce IntOp.andi x v reducesTo_S8192x2_S_d0_1 h_S_) main_v25 main_c_9
  let main_v27 : IVec S_ 1 := andi main_v23 main_v26
  main_v27

def fn {F : FTy → Type} [FloatOps F] (main_arg0 : FVec F S8192x1024 .f32) (main_arg1 : IVec S8192x2 32) (main_arg2 : FVec F S8192x2 .f32) (main_arg3 : FVec F S8x1024x4096 .f32) (main_arg4 : FVec F S8x1024x4096 .f32) (main_arg5 : FVec F S8x4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x1024x4096 .f32 := Host.absf main_arg4
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg1 main_arg5 main_v13 main_v16
-- ==== Kernel.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S16384 : Shape := ⟨1, ![16384]⟩
abbrev S8192 : Shape := ⟨1, ![8192]⟩
abbrev S_ : Shape := ⟨0, ![]⟩
abbrev S16384x1 : Shape := ⟨2, ![16384, 1]⟩
abbrev S8 : Shape := ⟨1, ![8]⟩
abbrev S1 : Shape := ⟨1, ![1]⟩
abbrev S7 : Shape := ⟨1, ![7]⟩
abbrev S8x4224x1024 : Shape := ⟨3, ![8, 4224, 1024]⟩
abbrev S16384x1024 : Shape := ⟨2, ![16384, 1024]⟩
abbrev S16384x2 : Shape := ⟨2, ![16384, 2]⟩
abbrev S1x128x1024 : Shape := ⟨3, ![1, 128, 1024]⟩
abbrev S1x1024x4096 : Shape := ⟨3, ![1, 1024, 4096]⟩
abbrev S1x4096x1024 : Shape := ⟨3, ![1, 4096, 1024]⟩
abbrev S128x1024 : Shape := ⟨2, ![128, 1024]⟩
abbrev S1024x4096 : Shape := ⟨2, ![1024, 4096]⟩
abbrev S128x4096 : Shape := ⟨2, ![128, 4096]⟩
abbrev S4096x1024 : Shape := ⟨2, ![4096, 1024]⟩

abbrev nBuf : Space → Nat
  | .hbm => 152
  | .vmem => 7
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x1024x4096, .f32⟩
  | 5 => ⟨S8x4096x1024, .f32⟩
  | 6 => ⟨S16384, .i32⟩
  | 7 => ⟨S16384, .f32⟩
  | 8 => ⟨S8192, .i32⟩
  | 9 => ⟨S8192x2, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384, .f32⟩
  | 41 => ⟨S_, .i32⟩
  | 42 => ⟨S8, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S_, .i32⟩
  | 56 => ⟨S16384, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S_, .bf16⟩
  | 83 => ⟨S8x4224x1024, .bf16⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x1024, .f32⟩
  | 93 => ⟨S16384x1024, .bf16⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x1, .i32⟩
  | 110 => ⟨S16384x2, .i32⟩
  | 111 => ⟨S8x4224x1024, .bf16⟩
  | 112 => ⟨S8x1024x4096, .bf16⟩
  | 113 => ⟨S8x1024x4096, .bf16⟩
  | 114 => ⟨S8x4096x1024, .bf16⟩
  | 115 => ⟨S8x4224x1024, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S8192x1024, .f32⟩

abbrev hbmTy0_1 (i : Nat) : BufTy := match i % 128 with
  | 0 => ⟨S16384, .i32⟩
  | 1 => ⟨S16384, .i32⟩
  | 2 => ⟨S16384x1, .i32⟩
  | 3 => ⟨S16384x1, .i32⟩
  | 4 => ⟨S16384x2, .i32⟩
  | 5 => ⟨S16384x1024, .f32⟩
  | 6 => ⟨S_, .f32⟩
  | 7 => ⟨S_, .f32⟩
  | 8 => ⟨S16384, .f32⟩
  | 9 => ⟨S16384, .f32⟩
  | 10 => ⟨S16384x1, .f32⟩
  | 11 => ⟨S16384x1024, .f32⟩
  | 12 => ⟨S16384x1024, .f32⟩
  | 13 => ⟨S_, .f32⟩
  | 14 => ⟨S8192x1024, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x4096x1024, .bf16⟩
  | .local _ .vmem, ⟨5, _⟩ => ⟨S1x128x1024, .f32⟩
  | .local _ .vmem, ⟨6, _⟩ => ⟨S1x128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_cst : Ref sig .tc := ⟨.hbm, 82, rfl⟩
abbrev main_v54 : Ref sig .tc := ⟨.hbm, 83, rfl⟩
abbrev main_c_15 : Ref sig .tc := ⟨.hbm, 84, rfl⟩
abbrev main_v55 : Ref sig .tc := ⟨.hbm, 85, rfl⟩
abbrev main_v56 : Ref sig .tc := ⟨.hbm, 86, rfl⟩
abbrev main_c_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_c_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_19 : Ref sig .tc := ⟨.hbm, 101, rfl⟩
abbrev main_v68 : Ref sig .tc := ⟨.hbm, 102, rfl⟩
abbrev main_v69 : Ref sig .tc := ⟨.hbm, 103, rfl⟩
abbrev main_c_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_21 : Ref sig .tc := ⟨.hbm, 116, rfl⟩
abbrev main_v81 : Ref sig .tc := ⟨.hbm, 117, rfl⟩
abbrev main_v82 : Ref sig .tc := ⟨.hbm, 118, rfl⟩
abbrev main_c_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_c_24 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_25 : Ref sig .tc := ⟨.hbm, 134, rfl⟩
abbrev main_call3_v0 : Ref sig .tc := ⟨.hbm, 135, rfl⟩
abbrev main_call3_v1 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_26 : Ref sig .tc := ⟨.hbm, 141, rfl⟩
abbrev main_v99 : Ref sig .tc := ⟨.hbm, 142, rfl⟩
abbrev main_c_27 : Ref sig .tc := ⟨.hbm, 143, rfl⟩
abbrev main_v100 : Ref sig .tc := ⟨.hbm, 144, rfl⟩
abbrev main_v101 : Ref sig .tc := ⟨.hbm, 145, rfl⟩
abbrev main_c_28 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x4224x1024 : S_.BroadcastsInDim S8x4224x1024 (![] : Fin 0 → Fin S8x4224x1024.rank)
  bitsLt_bf16_f32 : FTy.bits .bf16 < FTy.bits .f32
  concatenates_S16384x1_S16384x1_S16384x2_d1 : Shape.Concatenates [S16384x1, S16384x1] S16384x2 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S128x1024_S1x128x1024 : S128x1024.ShapeCasts S1x128x1024
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S8x4224x1024_S16384x2_S16384x1024_1_01_01_1_wf : ScatterDims.WF S8x4224x1024 S16384x2 S16384x1024 [1] [0, 1] [0, 1] 1
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  gather_S8x4224x1024_S16384x2_S16384x1024_1_01_n_n_01_1_111024_wf : GatherDims.WF S8x4224x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x4224x1024.size a
  hwx0_0 : ∀ i : grid0.Coords, EltTy.bits .bf16 = 32 ∨ (Rect.block (s := S8x4224x1024) S1x128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S8x1024x4096.size a
  hwx0_2 : ∀ i : grid0.Coords, EltTy.bits .bf16 = 32 ∨ (Rect.block (s := S8x1024x4096) S1x1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S8x4224x1024.size a
  hwx0_4 : ∀ i : grid0.Coords, EltTy.bits .f32 = 32 ∨ (Rect.block (s := S8x4224x1024) S1x128x1024.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S8x4224x1024_S16384x2_S16384x1024_1_01_01_1 : ScatterDims S8x4224x1024 S16384x2 S16384x1024 where
  updateWindowDims := [1]
  insertedWindowDims := [0, 1]
  scatterDimsToOperandDims := [0, 1]
  indexVectorDim := 1
  wf := scatter_S8x4224x1024_S16384x2_S16384x1024_1_01_01_1_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def gather_S8x4224x1024_S16384x2_S16384x1024_1_01_n_n_01_1_111024 : GatherDims S8x4224x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x4224x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

abbrev win0_0 : Pipeline.Window sig grid0 :=
  Pipeline.Window.ofSpec (Memref.whole main_v76) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S1x4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v80) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S16384 : Shape := ⟨1, ![16384]⟩
abbrev S8192 : Shape := ⟨1, ![8192]⟩
abbrev S_ : Shape := ⟨0, ![]⟩
abbrev S16384x1 : Shape := ⟨2, ![16384, 1]⟩
abbrev S8 : Shape := ⟨1, ![8]⟩
abbrev S1 : Shape := ⟨1, ![1]⟩
abbrev S7 : Shape := ⟨1, ![7]⟩
abbrev S8x4097x1024 : Shape := ⟨3, ![8, 4097, 1024]⟩
abbrev S16384x1024 : Shape := ⟨2, ![16384, 1024]⟩
abbrev S16384x2 : Shape := ⟨2, ![16384, 2]⟩
abbrev S8x4097x4096 : Shape := ⟨3, ![8, 4097, 4096]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x1024x4096, .f32⟩
  | 5 => ⟨S8x4096x1024, .f32⟩
  | 6 => ⟨S16384, .i32⟩
  | 7 => ⟨S16384, .f32⟩
  | 8 => ⟨S8192, .i32⟩
  | 9 => ⟨S8192x2, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384, .f32⟩
  | 41 => ⟨S_, .i32⟩
  | 42 => ⟨S8, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S_, .i32⟩
  | 56 => ⟨S16384, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S_, .f32⟩
  | 83 => ⟨S8x4097x1024, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x1024, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x1, .i32⟩
  | 109 => ⟨S16384x2, .i32⟩
  | 110 => ⟨S8x4097x1024, .f32⟩
  | 111 => ⟨S8x4097x4096, .f32⟩
  | 112 => ⟨S8x4097x4096, .f32⟩
  | 113 => ⟨S8x4097x4096, .f32⟩
  | 114 => ⟨S_, .f32⟩
  | 115 => ⟨S8x4097x4096, .f32⟩
  | 116 => ⟨S8x4097x4096, .f32⟩
  | 117 => ⟨S_, .f32⟩
  | 118 => ⟨S8x4097x4096, .f32⟩
  | 119 => ⟨S8x4097x4096, .f32⟩
  | 120 => ⟨S8x4097x4096, .f32⟩
  | 121 => ⟨S8x4097x4096, .f32⟩
  | 122 => ⟨S8x4097x4096, .f32⟩
  | 123 => ⟨S8x4097x1024, .f32⟩
  | 124 => ⟨S_, .i32⟩
  | 125 => ⟨S16384, .i32⟩
  | 126 => ⟨S16384, .i1⟩
  | 127 => ⟨S_, .i32⟩
  | _ => ⟨S8192x1024, .f32⟩

abbrev hbmTy0_1 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x1, .i32⟩
  | 12 => ⟨S16384x2, .i32⟩
  | 13 => ⟨S16384x1024, .f32⟩
  | 14 => ⟨S_, .f32⟩
  | 15 => ⟨S_, .f32⟩
  | 16 => ⟨S16384, .f32⟩
  | 17 => ⟨S16384, .f32⟩
  | 18 => ⟨S16384x1, .f32⟩
  | 19 => ⟨S16384x1024, .f32⟩
  | 20 => ⟨S16384x1024, .f32⟩
  | 21 => ⟨S_, .f32⟩
  | 22 => ⟨S8192x1024, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_cst : Ref sig .tc := ⟨.hbm, 82, rfl⟩
abbrev main_v54 : Ref sig .tc := ⟨.hbm, 83, rfl⟩
abbrev main_c_15 : Ref sig .tc := ⟨.hbm, 84, rfl⟩
abbrev main_v55 : Ref sig .tc := ⟨.hbm, 85, rfl⟩
abbrev main_v56 : Ref sig .tc := ⟨.hbm, 86, rfl⟩
abbrev main_c_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_19 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_21 : Ref sig .tc := ⟨.hbm, 124, rfl⟩
abbrev main_v81 : Ref sig .tc := ⟨.hbm, 125, rfl⟩
abbrev main_v82 : Ref sig .tc := ⟨.hbm, 126, rfl⟩
abbrev main_c_22 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_23 : Ref sig .tc := ⟨.hbm, 131, rfl⟩
abbrev main_v86 : Ref sig .tc := ⟨.hbm, 132, rfl⟩
abbrev main_v87 : Ref sig .tc := ⟨.hbm, 133, rfl⟩
abbrev main_c_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_26 : Ref sig .tc := ⟨.hbm, 149, rfl⟩
abbrev main_v99 : Ref sig .tc := ⟨.hbm, 150, rfl⟩
abbrev main_c_27 : Ref sig .tc := ⟨.hbm, 151, rfl⟩
abbrev main_v100 : Ref sig .tc := ⟨.hbm, 152, rfl⟩
abbrev main_v101 : Ref sig .tc := ⟨.hbm, 153, rfl⟩
abbrev main_c_28 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩

abbrev nD : Nat := 1
abbrev τ : Topo := Topo.v7x

variable {F : FTy → Type} [FloatOps F]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x4097x1024 : S_.BroadcastsInDim S8x4097x1024 (![] : Fin 0 → Fin S8x4097x1024.rank)
  concatenates_S16384x1_S16384x1_S16384x2_d1 : Shape.Concatenates [S16384x1, S16384x1] S16384x2 1
  bcast_S_S8x4097x4096 : S_.BroadcastsInDim S8x4097x4096 (![] : Fin 0 → Fin S8x4097x4096.rank)
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S8x4097x1024_S16384x2_S16384x1024_1_01_01_1_wf : ScatterDims.WF S8x4097x1024 S16384x2 S16384x1024 [1] [0, 1] [0, 1] 1
  dot_S8x4097x1024_S8x1024x4096_S8x4097x4096_2_1_1_2_0_0_wf : DotDims.WF S8x4097x1024 S8x1024x4096 S8x4097x4096 [2] [1] [1] [2] [0] [0]
  dot_S8x4097x4096_S8x4096x1024_S8x4097x1024_2_1_1_2_0_0_wf : DotDims.WF S8x4097x4096 S8x4096x1024 S8x4097x1024 [2] [1] [1] [2] [0] [0]
  gather_S8x4097x1024_S16384x2_S16384x1024_1_01_n_n_01_1_111024_wf : GatherDims.WF S8x4097x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S8x4097x1024_S16384x2_S16384x1024_1_01_01_1 : ScatterDims S8x4097x1024 S16384x2 S16384x1024 where
  updateWindowDims := [1]
  insertedWindowDims := [0, 1]
  scatterDimsToOperandDims := [0, 1]
  indexVectorDim := 1
  wf := scatter_S8x4097x1024_S16384x2_S16384x1024_1_01_01_1_wf
def dot_S8x4097x1024_S8x1024x4096_S8x4097x4096_2_1_1_2_0_0 : DotDims S8x4097x1024 S8x1024x4096 S8x4097x4096 where
  lhsContracting := [2]
  rhsContracting := [1]
  lhsNonContracting := [1]
  rhsNonContracting := [2]
  lhsBatch := [0]
  rhsBatch := [0]
  wf := dot_S8x4097x1024_S8x1024x4096_S8x4097x4096_2_1_1_2_0_0_wf
def dot_S8x4097x4096_S8x4096x1024_S8x4097x1024_2_1_1_2_0_0 : DotDims S8x4097x4096 S8x4096x1024 S8x4097x1024 where
  lhsContracting := [2]
  rhsContracting := [1]
  lhsNonContracting := [1]
  rhsNonContracting := [2]
  lhsBatch := [0]
  rhsBatch := [0]
  wf := dot_S8x4097x4096_S8x4096x1024_S8x4097x1024_2_1_1_2_0_0_wf
def gather_S8x4097x1024_S16384x2_S16384x1024_1_01_n_n_01_1_111024 : GatherDims S8x4097x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x4097x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

class Facts : Prop extends Facts₀ where

variable [Facts]
-- ==== Proof.Spec.lean ====
/-
  The host computation both programs share, as pure functions of the argument arrays.

  Tokens `t < 8192` each choose two experts; assignment `2t + c` carries expert id `ids[t, c]` and weight
  `w[t, c]`. A stable argsort of the 16384 ids groups the assignments by expert: `order` is the sorting
  permutation, `stok` / `seid` / `swts` the token, expert and weight of the assignment at each sorted position.
  `counts[e]` is the number of assignments of expert `e`, `segStarts[e]` the number of assignments of smaller
  experts (an exclusive cumulative sum), so `positions[i] = i - segStarts[seid i]` is the slot of sorted position
  `i` inside its expert's segment; `valid` says the slot is below the capacity 4096 and `posC` clamps it to 4096
  (the overflow row). `idx2 R e p` is the table of (expert, row) pairs, each column passed through the
  negative-index wrap of its axis (extent 8, extent `R`); `xg` gathers the tokens' feature rows in sorted order;
  `tail` multiplies the gathered expert outputs by the weights of the valid assignments and adds every
  assignment's row into its token's output row.
-/
import Idealize.ShloMosaic.PureOps
import Idealize.ShloMosaic.PureOps.Ideal
import Idealize.ShloMosaic.Lib.ValueIdx

noncomputable section

namespace Cert.Spec

open Idealize.ShloMosaic

abbrev S8192x1024 : Shape := ⟨2, ![8192, 1024]⟩
abbrev S8192x2 : Shape := ⟨2, ![8192, 2]⟩
abbrev S16384 : Shape := ⟨1, ![16384]⟩
abbrev S8192 : Shape := ⟨1, ![8192]⟩
abbrev S_ : Shape := ⟨0, ![]⟩
abbrev S16384x1 : Shape := ⟨2, ![16384, 1]⟩
abbrev S8 : Shape := ⟨1, ![8]⟩
abbrev S1 : Shape := ⟨1, ![1]⟩
abbrev S7 : Shape := ⟨1, ![7]⟩
abbrev S16384x1024 : Shape := ⟨2, ![16384, 1024]⟩
abbrev S16384x2 : Shape := ⟨2, ![16384, 2]⟩

/-! ## The shape relations the operations take -/

theorem sc_flat : S8192x2.ShapeCasts S16384 := by decide
theorem bc_tok : S8192.BroadcastsInDim S8192x2 (![0] : Fin 1 → Fin S8192x2.rank) := by decide
theorem bc_S_16384 : S_.BroadcastsInDim S16384 (![] : Fin 0 → Fin S16384.rank) := by decide
theorem bc_col : S16384.BroadcastsInDim S16384x1 (![0] : Fin 1 → Fin S16384x1.rank) := by decide
theorem bc_S_8 : S_.BroadcastsInDim S8 (![] : Fin 0 → Fin S8.rank) := by decide
theorem bc_S_1 : S_.BroadcastsInDim S1 (![] : Fin 0 → Fin S1.rank) := by decide
theorem bc_S_S : S_.BroadcastsInDim S_ (![] : Fin 0 → Fin S_.rank) := by decide
theorem rw8 : S8.ReduceWindows (![8] : Fin 1 → Nat) ![1] ![7] ![0] S8 := by decide
theorem hS_ : 0 < S_.numel := by decide
theorem sl87 : S8.Slices ![0] S7 := by decide
theorem cat178 : Shape.Concatenates [S1, S7] S8 0 := by decide
theorem catcols : Shape.Concatenates [S16384x1, S16384x1] S16384x2 1 := by decide
theorem bc_col_wide : S16384x1.BroadcastsInDim S16384x1024 (![0, 1] : Fin 2 → Fin S16384x1024.rank) := by decide
theorem bc_S_out : S_.BroadcastsInDim S8192x1024 (![] : Fin 0 → Fin S8192x1024.rank) := by decide

/-! ## The dimension-number records -/

/-- `x[idx]` on a vector of 16384. -/
def gd1 : GatherDims S16384 S16384x1 S16384 where
  offsetDims := []
  collapsedSliceDims := [0]
  operandBatchingDims := []
  startIndicesBatchingDims := []
  startIndexMap := [0]
  indexVectorDim := 1
  sliceSizes := ![1]
  wf := by decide

/-- `x[idx]` on a vector of 8. -/
def gd8 : GatherDims S8 S16384x1 S16384 where
  offsetDims := []
  collapsedSliceDims := [0]
  operandBatchingDims := []
  startIndicesBatchingDims := []
  startIndexMap := [0]
  indexVectorDim := 1
  sliceSizes := ![1]
  wf := by decide

/-- `zeros(8).at[idx].add(1)`. -/
def sd8 : ScatterDims S8 S16384x1 S16384 where
  updateWindowDims := []
  insertedWindowDims := [0]
  scatterDimsToOperandDims := [0]
  indexVectorDim := 1
  wf := by decide

/-- Whole rows `x[idx]` of the token features. -/
def gdx : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := by decide

/-- `zeros(8192, 1024).at[idx].add(rows)`. -/
def sdo : ScatterDims S8192x1024 S16384x1 S16384x1024 where
  updateWindowDims := [1]
  insertedWindowDims := [0]
  scatterDimsToOperandDims := [0]
  indexVectorDim := 1
  wf := by decide

/-! ## The sorted assignments -/

/-- The expert ids, assignment `2t + c` holding `ids[t, c]`. -/
def flatE (a1 : IVec S8192x2 32) : IVec S16384 32 := shapeCast S16384 a1 sc_flat

/-- The weights laid out the same way. -/
def flatW {F : FTy → Type} [FloatOps F] (a2 : FVec F S8192x2 .f32) : FVec F S16384 .f32 := shapeCast S16384 a2 sc_flat

/-- The token of each assignment: `t` at `2t` and `2t + 1`. -/
def tokIdx : IVec S16384 32 :=
  shapeCast S16384 (broadcastInDim S8192x2 ![0] bc_tok (iotaInDim S8192 32 0)) sc_flat

/-- The stable argsort of the expert ids. -/
def order (a1 : IVec S8192x2 32) : IVec S16384 32 :=
  (Host.sort2 S16384 0 (fun l r : BitVec 32 × BitVec 32 => IntOp.cmpi .slt l.1 r.1) (flatE a1) (iotaInDim S16384 32 0)).2

/-- The negative-index wrap of an index vector for an axis of extent `n`: a negative index counts from the end. -/
def wrapV (n : BitVec 32) (v : IVec S16384 32) : IVec S16384 32 :=
  select (cmpi .slt v (broadcastInDim S16384 ![] bc_S_16384 (constantI S_ 32 0#32)))
    (addi v (broadcastInDim S16384 ![] bc_S_16384 (constantI S_ 32 n))) v

/-- A vector of 16384 as a column. -/
def col {α : Type} (v : S16384.Idx → α) : S16384x1.Idx → α := broadcastInDim S16384x1 ![0] bc_col v

/-- The token at each sorted position. -/
def stok (a1 : IVec S8192x2 32) : IVec S16384 32 := Host.gather gd1 tokIdx (col (wrapV 16384#32 (order a1)))

/-- The expert at each sorted position. -/
def seid (a1 : IVec S8192x2 32) : IVec S16384 32 := Host.gather gd1 (flatE a1) (col (wrapV 16384#32 (order a1)))

/-- The weight at each sorted position. -/
def swts {F : FTy → Type} [FloatOps F] (a1 : IVec S8192x2 32) (a2 : FVec F S8192x2 .f32) : FVec F S16384 .f32 :=
  Host.gather gd1 (flatW a2) (col (wrapV 16384#32 (order a1)))

/-! ## The slot of each sorted position inside its expert's segment -/

/-- The ids with the negative ones raised to zero (the bincount's clip). -/
def clipped (a1 : IVec S8192x2 32) : IVec S16384 32 :=
  maxsi (broadcastInDim S16384 ![] bc_S_16384 (constantI S_ 32 0#32)) (flatE a1)

/-- The number of assignments of each expert. -/
def counts (a1 : IVec S8192x2 32) : IVec S8 32 :=
  Host.scatter sd8 IntOp.addi (broadcastInDim S8 ![] bc_S_8 (constantI S_ 32 0#32)) (col (wrapV 8#32 (clipped a1)))
    (broadcastInDim S16384 ![] bc_S_16384 (constantI S_ 32 1#32))

/-- Their inclusive cumulative sums. -/
def cums (a1 : IVec S8192x2 32) : IVec S8 32 :=
  Host.reduceWindow IntOp.addi ![8] ![1] ![7] ![0] (counts a1) (broadcastInDim S_ ![] bc_S_S (constantI S_ 32 0#32)) rw8 hS_

/-- The exclusive cumulative sums: where each expert's segment starts among the sorted positions. -/
def segStarts (a1 : IVec S8192x2 32) : IVec S8 32 :=
  concatenate S8 0 [⟨S1, broadcastInDim S1 ![] bc_S_1 (constantI S_ 32 0#32)⟩, ⟨S7, extractStridedSlice S7 ![0] (cums a1) sl87⟩] cat178

/-- The slot of each sorted position inside its expert's segment. -/
def positions (a1 : IVec S8192x2 32) : IVec S16384 32 :=
  subi (iotaInDim S16384 32 0) (Host.gather gd8 (segStarts a1) (col (wrapV 8#32 (seid a1))))

/-- The slot is below the capacity. -/
def valid (a1 : IVec S8192x2 32) : IVec S16384 1 :=
  cmpi .slt (positions a1) (broadcastInDim S16384 ![] bc_S_16384 (constantI S_ 32 4096#32))

/-- The slot, an overflowing one sent to the row after the capacity. -/
def posC (a1 : IVec S8192x2 32) : IVec S16384 32 :=
  minsi (positions a1) (broadcastInDim S16384 ![] bc_S_16384 (constantI S_ 32 4096#32))

/-! ## Dispatch and combine -/

/-- The table of (expert, row) pairs, each column through its axis's negative-index wrap; `R` is the number of rows. -/
def idx2 (R : BitVec 32) (e p : IVec S16384 32) : IVec S16384x2 32 :=
  concatenate S16384x2 1 [⟨S16384x1, col (wrapV 8#32 e)⟩, ⟨S16384x1, col (wrapV R p)⟩] catcols

/-- The tokens' feature rows in sorted order. -/
def xg {F : FTy → Type} [FloatOps F] (a0 : FVec F S8192x1024 .f32) (t : IVec S16384 32) : FVec F S16384x1024 .f32 :=
  Host.gather gdx a0 (col (wrapV 8192#32 t))

/-- The weight of a valid assignment, zero for an overflowing one. -/
def wsel {F : FTy → Type} [FloatOps F] (v : IVec S16384 1) (w : FVec F S16384 .f32) : FVec F S16384 .f32 :=
  select v w (broadcastInDim S16384 ![] bc_S_16384 (constant S_ .f32 0x00000000#32))

/-- The combine: every assignment's gathered row times its weight, added into its token's row. -/
def tail {F : FTy → Type} [FloatOps F] (t : IVec S16384 32) (ws : FVec F S16384 .f32) (G : FVec F S16384x1024 .f32) :
    FVec F S8192x1024 .f32 :=
  Host.scatterAdd sdo (broadcastInDim S8192x1024 ![] bc_S_out (constant S_ .f32 0x00000000#32)) (col (wrapV 8192#32 t))
    (mulf G (broadcastInDim S16384x1024 ![0, 1] bc_col_wide (broadcastInDim S16384x1 ![0] bc_col ws)))

end Cert.Spec

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.Rank3.lean ====
/-
  The rank-3 buffer of per-expert padded rows, written by an overwriting scatter of whole feature rows at a table of
  (expert, row) index pairs and read back by a gather at such a table, READ AT AN INDEX. Two facts: the gather reads
  the operand at the two words' signed values, each clamped into its axis, feature by feature; and the scatter's
  value at an (expert, row, feature) index does not depend on the buffer's number of rows, as long as the row is a row
  of both buffers.
-/
import Idealize.ShloMosaic.PureOps
import Idealize.ShloMosaic.Lib.ValueIdx
import proofs.«110229_j18451179504175_1_alg».proof.Proof.LibGatherScatter

set_option maxRecDepth 16384

noncomputable section

namespace Cert.Rank3

open Idealize.ShloMosaic Idealize.ShloMosaic.ValueIdx
open scoped BigOperators
open Cert.LibGatherScatter

/-! ## The gather of feature rows at (expert, row) pairs, read at an index -/

/-- (A) the gather of whole feature rows of a rank-3 operand at a table [E, 2] of (expert, row) start indices: both leading axes collapsed and start-indexed, the last the one offset axis. -/
theorem gather3_apply {α : Type} {A R C E : Nat} (hA : 0 < A) (hR : 0 < R)
    (d : GatherDims ⟨3, ![A, R, C]⟩ ⟨2, ![E, 2]⟩ ⟨2, ![E, C]⟩)
    (hoff : d.offsetDims = [1]) (hcoll : d.collapsedSliceDims = [0, 1]) (hob : d.operandBatchingDims = [])
    (hsim : d.startIndexMap = [0, 1]) (hivd : d.indexVectorDim = 1)
    (x : (⟨3, ![A, R, C]⟩ : Shape).Idx → α) (idx : IVec ⟨2, ![E, 2]⟩ 32) (e : Fin E) (f : Fin C) :
    Host.gather d x idx (ix2 e f)
      = x (ix3 (clampIdx A hA (idx (ix2 e 0))) (clampIdx R hR (idx (ix2 e 1))) f) := by
  -- the slice is one expert wide and one row high, so the clamps' upper ends are A - 1 and R - 1
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sim, iv, ss, wf⟩ := d
  simp only at hoff hcoll hob hsim hivd hsl0 hsl1
  subst hoff hcoll hob hsim hivd
  unfold Host.gather
  congr 1
  funext a
  apply Fin.ext
  match a with
  | ⟨0, _⟩ =>
    -- the expert: the first word's clamped value, no batching or offset coordinate
    show GatherDims.start _ _ idx 0 + GatherDims.batchCoord _ _ 0 + GatherDims.offCoord _ _ 0
      = min (idx (ix2 e 0)).toInt.toNat (A - 1)
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos List.mem_cons_self]
    show min (idx _).toInt.toNat (A - ss 0) = _
    rw [hsl0]
    congr 3
    congr 1
    funext b
    apply Fin.ext
    match b with
    | ⟨0, _⟩ => rfl
    | ⟨1, _⟩ => rfl
  | ⟨1, _⟩ =>
    -- the row: the second word's clamped value, no batching or offset coordinate
    have hm : (1 : Fin (⟨3, ![A, R, C]⟩ : Shape).rank) ∈ [(0 : Fin (⟨3, ![A, R, C]⟩ : Shape).rank), 1] :=
      List.mem_cons_of_mem _ (List.mem_singleton.mpr rfl)
    show GatherDims.start _ _ idx 1 + GatherDims.batchCoord _ _ 1 + GatherDims.offCoord _ _ 1
      = min (idx (ix2 e 1)).toInt.toNat (R - 1)
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    show min (idx _).toInt.toNat (R - ss 1) = _
    rw [hsl1]
    congr 3
    congr 1
    funext b
    apply Fin.ext
    match b with
    | ⟨0, _⟩ => rfl
    | ⟨1, _⟩ => rfl
  | ⟨2, _⟩ =>
    -- the feature: start 0 (the axis is not start-indexed), the offset coordinate the result's
    show GatherDims.start _ _ idx 2 + GatherDims.batchCoord _ _ 2 + GatherDims.offCoord _ _ 2 = f.val
    have h2 : (2 : Fin (⟨3, ![A, R, C]⟩ : Shape).rank) ∉ [(0 : Fin (⟨3, ![A, R, C]⟩ : Shape).rank), 1] :=
      (by decide : (2 : Fin 3) ∉ [(0 : Fin 3), 1])
    rw [GatherDims.batchCoord_eq_zero _ _ _ List.not_mem_nil]
    unfold GatherDims.start GatherDims.offCoord
    rw [dif_neg h2, dif_pos ((GatherDims.mem_sKept _ _).mpr ⟨h2, List.not_mem_nil⟩)]
    simp only [Nat.zero_add, Nat.add_zero]
    rfl

/-! ## The overwriting scatter of feature rows at (expert, row) pairs -/

section Scatter3
variable {A R C E : Nat} (d : ScatterDims ⟨3, ![A, R, C]⟩ ⟨2, ![E, 2]⟩ ⟨2, ![E, C]⟩)
  (huw : d.updateWindowDims = [1]) (hiw : d.insertedWindowDims = [0, 1])
  (hsd : d.scatterDimsToOperandDims = [0, 1]) (hivd : d.indexVectorDim = 1)
include huw hiw hsd hivd

/-- Update `j`'s start on the expert axis is the signed value of the first word of index pair `j 0`. -/
theorem start3_expert {w : Nat} (idx : IVec ⟨2, ![E, 2]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos List.mem_cons_self]
  congr 2
  funext b
  apply Fin.ext
  match b with
  | ⟨0, _⟩ => rfl
  | ⟨1, _⟩ => rfl

/-- Update `j`'s start on the row axis is the signed value of the second word of index pair `j 0`. -/
theorem start3_row {w : Nat} (idx : IVec ⟨2, ![E, 2]⟩ w) (j : (⟨2, ![E, C]⟩ : Shape).Idx) :
    d.start j idx 1 = (idx (ix2 (j 0) 1)).toInt := by
  obtain ⟨uw, iw, sd, iv, wf⟩ := d
  simp only at huw hiw hsd hivd
  subst huw hiw hsd hivd
  unfold ScatterDims.start
  rw [dif_pos (List.mem_cons_of_mem _ (List.mem_singleton.mpr rfl))]
  congr 2
  funext b
  apply Fin.ext
  match b with
  | ⟨0, _⟩ => rfl
  | ⟨1, _⟩ => rfl

/-- The feature axis is not scatter-indexed: its start is `0`. -/
theorem start3_feat {w : Nat} (idx : IVec ⟨2, ![E, 2]⟩ w) (j : (⟨2, ![E, C]⟩ : Shape).Idx) :
    d.start j idx 2 = 0 := by
  obtain ⟨uw, iw, sd, iv, wf⟩ := d
  simp only at huw hiw hsd hivd
  subst huw hiw hsd hivd
  unfold ScatterDims.start
  rw [dif_neg (by decide : (2 : Fin 3) ∉ [(0 : Fin 3), 1])]

/-- The expert axis is an inserted one: no window coordinate on it. -/
theorem window3_expert (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The row axis is an inserted one: no window coordinate on it. -/
theorem window3_row (j : (⟨2, ![E, C]⟩ : Shape).Idx) : d.window j 1 = 0 := by
  obtain ⟨uw, iw, sd, iv, wf⟩ := d
  simp only at huw hiw hsd hivd
  subst huw hiw hsd hivd
  unfold ScatterDims.window
  rw [dif_neg (by simp [ScatterDims.sKept, Shape.kept])]

/-- The feature axis carries the update's window coordinate: its column. -/
theorem window3_feat (j : (⟨2, ![E, C]⟩ : Shape).Idx) : d.window j 2 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `(a, p, k)` exactly when the two words of index pair `j 0`, read signed, are `a` and
    `p`, and `j`'s column is `k`: a condition on the coordinates' VALUES, in which the buffer's extents do not occur. -/
theorem resultIdx3_eq_some_iff {w : Nat} (idx : IVec ⟨2, ![E, 2]⟩ w) (j : (⟨2, ![E, C]⟩ : Shape).Idx)
    (a : Fin A) (p : Fin R) (k : Fin C) :
    d.resultIdx? j idx = some (ix3 a p k)
      ↔ (idx (ix2 (j 0) 0)).toInt = (a.val : ℤ) ∧ (idx (ix2 (j 0) 1)).toInt = (p.val : ℤ) ∧ (j 1).val = k.val := by
  rw [resultIdx?_eq_some_iff]
  constructor
  · intro h
    have h0 : d.start j idx 0 + (d.window j 0 : ℤ) = (a.val : ℤ) := h 0
    have h1 : d.start j idx 1 + (d.window j 1 : ℤ) = (p.val : ℤ) := h 1
    have h2 : d.start j idx 2 + (d.window j 2 : ℤ) = (k.val : ℤ) := h 2
    rw [start3_expert d huw hiw hsd hivd, window3_expert d huw hiw hsd hivd] at h0
    rw [start3_row d huw hiw hsd hivd, window3_row d huw hiw hsd hivd] at h1
    rw [start3_feat d huw hiw hsd hivd, window3_feat d huw hiw hsd hivd] at h2
    refine ⟨by simpa using h0, by simpa using h1, ?_⟩
    have h2' : ((j 1).val : ℤ) = (k.val : ℤ) := by simpa using h2
    exact_mod_cast h2'
  · rintro ⟨h0, h1, h2⟩ b
    match b with
    | ⟨0, _⟩ =>
      show d.start j idx 0 + (d.window j 0 : ℤ) = (a.val : ℤ)
      rw [start3_expert d huw hiw hsd hivd, window3_expert d huw hiw hsd hivd]
      simpa using h0
    | ⟨1, _⟩ =>
      show d.start j idx 1 + (d.window j 1 : ℤ) = (p.val : ℤ)
      rw [start3_row d huw hiw hsd hivd, window3_row d huw hiw hsd hivd]
      simpa using h1
    | ⟨2, _⟩ =>
      show d.start j idx 2 + (d.window j 2 : ℤ) = (k.val : ℤ)
      rw [start3_feat d huw hiw hsd hivd, window3_feat d huw hiw hsd hivd, h2]
      simp

end Scatter3

/-- A relation between two accumulators that every step of two folds over the same list preserves holds between the
    folds' results. -/
theorem foldl_rel {β X X' : Type} (Rel : X → X' → Prop) (step : X → β → X) (step' : X' → β → X')
    (hstep : ∀ r r' n, Rel r r' → Rel (step r n) (step' r' n)) (L : List β) (r : X) (r' : X') (h : Rel r r') :
    Rel (L.foldl step r) (L.foldl step' r') := by
  induction L generalizing r r' with
  | nil => exact h
  | cons n L ih => exact ih _ _ (hstep r r' n h)

/-- (B) the overwriting scatter of feature rows into a constant buffer, read at corresponding indices of two buffers that differ only in their number of rows: the same value. (No hypothesis on idx: an update lands at an index exactly when its start plus its window coordinate is that index's coordinate on every axis, which does not mention the operand's extents.) -/
theorem scatterSet3_corr {α : Type} {A R R' C E : Nat}
    (d : ScatterDims ⟨3, ![A, R, C]⟩ ⟨2, ![E, 2]⟩ ⟨2, ![E, C]⟩) (d' : ScatterDims ⟨3, ![A, R', C]⟩ ⟨2, ![E, 2]⟩ ⟨2, ![E, C]⟩)
    (huw : d.updateWindowDims = [1]) (hiw : d.insertedWindowDims = [0, 1])
    (hsd : d.scatterDimsToOperandDims = [0, 1]) (hivd : d.indexVectorDim = 1)
    (huw' : d'.updateWindowDims = [1]) (hiw' : d'.insertedWindowDims = [0, 1])
    (hsd' : d'.scatterDimsToOperandDims = [0, 1]) (hivd' : d'.indexVectorDim = 1)
    (z : α) (idx : IVec ⟨2, ![E, 2]⟩ 32) (upd : (⟨2, ![E, C]⟩ : Shape).Idx → α)
    (a : Fin A) (p : Fin R) (p' : Fin R') (hp : p.val = p'.val) (k : Fin C) :
    Host.scatter d (fun _ b => b) (fun _ => z) idx upd (ix3 a p k)
      = Host.scatter d' (fun _ b => b) (fun _ => z) idx upd (ix3 a p' k) := by
  -- an update lands at (a, p, k) of the one buffer exactly when it lands at (a, p', k) of the other
  have hkey : ∀ (j : (⟨2, ![E, C]⟩ : Shape).Idx) (a : Fin A) (p : Fin R) (p' : Fin R') (hp : p.val = p'.val) (k : Fin C),
      d.resultIdx? j idx = some (ix3 a p k) ↔ d'.resultIdx? j idx = some (ix3 a p' k) := by
    intro j a p p' hp k
    rw [resultIdx3_eq_some_iff d huw hiw hsd hivd, resultIdx3_eq_some_iff d' huw' hiw' hsd' hivd', hp]
  -- the invariant of the two folds: the accumulators agree at ALL corresponding indices
  unfold Host.scatter
  refine foldl_rel
    (fun (r : (⟨3, ![A, R, C]⟩ : Shape).Idx → α) (r' : (⟨3, ![A, R', C]⟩ : Shape).Idx → α) =>
      ∀ (a : Fin A) (p : Fin R) (p' : Fin R') (hp : p.val = p'.val) (k : Fin C), r (ix3 a p k) = r' (ix3 a p' k))
    _ _ ?_ _ _ _ (fun _ _ _ _ _ => rfl) a p p' hp k
  intro r r' n hr a p p' hp k
  have hk := hkey ((⟨2, ![E, C]⟩ : Shape).rowMajor.symm n) a p p' hp k
  generalize d.resultIdx? ((⟨2, ![E, C]⟩ : Shape).rowMajor.symm n) idx = o at hk ⊢
  generalize d'.resultIdx? ((⟨2, ![E, C]⟩ : Shape).rowMajor.symm n) idx = o' at hk ⊢
  by_cases h : o = some (ix3 a p k)
  · -- the update lands at both: both read it
    have h' := hk.mp h
    subst h h'
    simp only [↓reduceIte]
  · -- it lands at neither: both keep the accumulator's value
    have h' : ¬ o' = some (ix3 a p' k) := fun e => h (hk.mpr e)
    refine Eq.trans (b := r (ix3 a p k)) ?_ (Eq.trans (hr a p p' hp k) ?_)
    · cases o with
      | none => rfl
      | some i =>
        have hne : ¬ ix3 a p k = i := fun e => h (by rw [e])
        simp only [if_neg hne]
    · cases o' with
      | none => rfl
      | some i =>
        have hne : ¬ ix3 a p' k = i := fun e => h' (by rw [e])
        simp only [if_neg hne]

end Cert.Rank3

end
-- ==== Proof.Bridge.lean ====
/-
  The two programs' gathered expert outputs are one array.

  Both gather, for every sorted position `i`, row `p i` of expert `e i` of an array of per-expert outputs; the
  arrays have 4224 and 4097 rows per expert, and each program passes the row index through the negative-index wrap
  of ITS extent and the gather clamps it into ITS extent. When every slot `p i` lies in `[0, 4096]` neither the
  wrap nor the clamp changes it, in either program, so the two gathers read corresponding rows; the expert index
  goes through the same wrap and clamp (extent 8) in both. If the two arrays agree at corresponding rows, the
  gathered arrays are equal.
-/
import Idealize.ShloMosaic.PureOps
import Idealize.ShloMosaic.PureOps.Ideal
import Idealize.ShloMosaic.Lib.ValueIdx
import Idealize.ShloMosaic.Lib.Pipeline.Value
import proofs.«110229_j18451179504175_1_alg».proof.Proof.Spec
import proofs.«110229_j18451179504175_1_alg».proof.Proof.LibGatherScatter
import proofs.«110229_j18451179504175_1_alg».proof.Proof.Rank3

noncomputable section

namespace Cert.Bridge

open Idealize.ShloMosaic Idealize.ShloMosaic.ValueIdx Idealize.ShloMosaic.Pipeline
open Cert.Spec Cert.LibGatherScatter Cert.Rank3

/-- The wrap of an index vector, read at a position: the wrap of the word there. -/
theorem wrapV_apply (n : BitVec 32) (v : IVec S16384 32) (i : S16384.Idx) : wrapV n v i = wrapW n (v i) := by
  unfold wrapV
  exact wrap_apply bc_S_16384 bc_S_16384 n v i

/-- A vector as a column, read at `(i, 0)`. -/
theorem col_apply {α : Type} (v : S16384.Idx → α) (i : Fin 16384) (z : Fin 1) : col v (ix2 i z) = v (ix1 i) := by
  unfold col
  exact bcast_col_apply bc_col v i z

/-- The first column of the table of (expert, row) pairs: the wrapped expert index. -/
theorem idx2_expert (R : BitVec 32) (e p : IVec S16384 32) (i : Fin 16384) :
    idx2 R e p (ix2 i 0) = wrapW 8#32 (e (ix1 i)) := by
  unfold idx2
  rw [concatenate_pair_apply_left (1 : Fin S16384x2.rank) _ _ catcols (ix2 i 0) rfl (ix2 i 0)
    (by intro b; match b with | ⟨0, _⟩ => rfl | ⟨1, _⟩ => rfl)]
  rw [col_apply, wrapV_apply]

/-- The second column: the wrapped row index. -/
theorem idx2_row (R : BitVec 32) (e p : IVec S16384 32) (i : Fin 16384) :
    idx2 R e p (ix2 i 1) = wrapW R (p (ix1 i)) := by
  unfold idx2
  rw [concatenate_pair_apply_right (1 : Fin S16384x2.rank) _ _ catcols (ix2 i 1) rfl rfl (ix2 i 0)
    (by intro b hb; match b, hb with | ⟨0, _⟩, _ => rfl | ⟨1, _⟩, hb => exact absurd rfl hb)
    rfl]
  rw [col_apply, wrapV_apply]

/-- With every slot non-negative, the row-axis wrap changes nothing, whatever the extent: the two programs' index
    tables are one table. -/
theorem idx2_congr (R R' : BitVec 32) (e p : IVec S16384 32) (hp0 : ∀ i : Fin 16384, 0 ≤ (p (ix1 i)).toInt) :
    idx2 R e p = idx2 R' e p := by
  funext j
  obtain ⟨i, z, rfl⟩ : ∃ (i : Fin 16384) (z : Fin 2), j = ix2 i z := ⟨j 0, j 1, eq_ix2 j⟩
  match z with
  | ⟨0, _⟩ => exact (idx2_expert R e p i).trans (idx2_expert R' e p i).symm
  | ⟨1, _⟩ =>
    show idx2 R e p (ix2 i 1) = idx2 R' e p (ix2 i 1)
    rw [idx2_row, idx2_row, wrapW_of_nonneg (hp0 i), wrapW_of_nonneg (hp0 i)]

/-- With every slot in `[0, 4096]`, the gather from a 4224-row array and the gather from a 4097-row array through
    their own index tables read corresponding rows. -/
theorem gathered_eq
    (gdK : GatherDims ⟨3, ![8, 4224, 1024]⟩ S16384x2 S16384x1024)
    (gdR : GatherDims ⟨3, ![8, 4097, 1024]⟩ S16384x2 S16384x1024)
    (hK : gdK.offsetDims = [1] ∧ gdK.collapsedSliceDims = [0, 1] ∧ gdK.operandBatchingDims = []
      ∧ gdK.startIndexMap = [0, 1] ∧ gdK.indexVectorDim = 1)
    (hR : gdR.offsetDims = [1] ∧ gdR.collapsedSliceDims = [0, 1] ∧ gdR.operandBatchingDims = []
      ∧ gdR.startIndexMap = [0, 1] ∧ gdR.indexVectorDim = 1)
    (EK : (⟨3, ![8, 4224, 1024]⟩ : Shape).Idx → EReal) (ER : (⟨3, ![8, 4097, 1024]⟩ : Shape).Idx → EReal)
    (e p : IVec S16384 32)
    (hp0 : ∀ i : Fin 16384, 0 ≤ (p (ix1 i)).toInt) (hp1 : ∀ i : Fin 16384, (p (ix1 i)).toInt ≤ 4096)
    (hE : ∀ (a : Fin 8) (r : Fin 4224) (r' : Fin 4097), r.val = r'.val → ∀ d : Fin 1024,
      EK (ix3 a r d) = ER (ix3 a r' d)) :
    Host.gather gdK EK (idx2 4224#32 e p) = Host.gather gdR ER (idx2 4097#32 e p) := by
  funext j
  obtain ⟨i, d, rfl⟩ : ∃ (i : Fin 16384) (d : Fin 1024), j = ix2 i d := ⟨j 0, j 1, eq_ix2 j⟩
  rw [gather3_apply (by decide) (by decide) gdK hK.1 hK.2.1 hK.2.2.1 hK.2.2.2.1 hK.2.2.2.2,
    gather3_apply (by decide) (by decide) gdR hR.1 hR.2.1 hR.2.2.1 hR.2.2.2.1 hR.2.2.2.2]
  rw [idx2_expert, idx2_row, idx2_expert, idx2_row, wrapW_of_nonneg (hp0 i), wrapW_of_nonneg (hp0 i)]
  have h1 := hp1 i
  refine hE _ _ _ ?_ d
  rw [clampIdx_of_inRange _ (hp0 i) (by omega), clampIdx_of_inRange _ (hp0 i) (by omega)]

end Cert.Bridge

end
-- ==== Proof.SortRank.lean ====
/-
  Two facts about a stable argsort of 32-bit keys compared as signed integers. The sort lists the positions so
  that a position whose key is smaller comes first and positions of equal keys keep their order. (A) At sorted
  position i, the keys strictly below the key found there number at most i. (B) The second output of the
  two-operand sort of a table and the table of its own coordinates, read at position i, is the word of the
  source position the sort placed at i.
-/
import Idealize.ShloMosaic.PureOps
import Idealize.ShloMosaic.Lib.SortFacts
import Idealize.ShloMosaic.Lib.ValueIdx
import Mathlib.Data.Finset.Card
import Mathlib.Data.Fintype.Card
import Mathlib.Order.Interval.Finset.Basic
import Mathlib.Order.Interval.Finset.Fin

noncomputable section

open Idealize.ShloMosaic Idealize.ShloMosaic.ValueIdx
open scoped BigOperators

namespace Cert.SortRank

/-- Position k sorts before k' when its key is less, signed. -/
def before {n : Nat} (key : Fin n → BitVec 32) (k k' : Fin n) : Bool := IntOp.cmpi .slt (key k) (key k') == 1#1

/-- "Sorts before" is the strict order of the signed values. -/
theorem before_eq_true_iff {n : Nat} (key : Fin n → BitVec 32) (k k' : Fin n) :
    before key k k' = true ↔ (key k).toInt < (key k').toInt := by
  unfold before IntOp.cmpi
  by_cases h : (key k).toInt < (key k').toInt
  · simp [BitVec.slt, h]
  · simp [BitVec.slt, h]

/-- "Does not sort before" is the reversed weak order of the signed values. -/
theorem before_eq_false_iff {n : Nat} (key : Fin n → BitVec 32) (k k' : Fin n) :
    before key k k' = false ↔ (key k').toInt ≤ (key k).toInt := by
  rw [← Bool.not_eq_true, before_eq_true_iff, not_lt]

/-- The sorted keys are weakly increasing: an earlier sorted position holds a key no larger than a later one's. -/
theorem sorted_mono {n : Nat} (key : Fin n → BitVec 32) (i j : Fin n) (hij : i < j) :
    (key (sortedFrom (before key) i)).toInt ≤ (key (sortedFrom (before key) j)).toInt := by
  have h := sortedFrom_noInversion (before key) (before key)
    (fun a b hab => by
      rw [before_eq_true_iff] at hab
      rw [before_eq_false_iff]
      exact le_of_lt hab)
    (fun _ _ hab => hab)
    (fun a b c hab hbc => by
      rw [before_eq_false_iff] at hab hbc ⊢
      exact le_trans hbc hab)
    i j hij
  rwa [before_eq_false_iff] at h

/-- (A) -/
theorem card_lt_le {n : Nat} (key : Fin n → BitVec 32) (i : Fin n) :
    (Finset.univ.filter (fun j : Fin n => (key j).toInt < (key (sortedFrom (before key) i)).toInt)).card ≤ i.val := by
  -- every position with a smaller key is the source of a sorted position earlier than i
  have hsub : Finset.univ.filter (fun j : Fin n => (key j).toInt < (key (sortedFrom (before key) i)).toInt)
      ⊆ (Finset.univ.filter (fun i' : Fin n => i' < i)).image (sortedFrom (before key)) := by
    intro j hj
    rw [Finset.mem_filter] at hj
    obtain ⟨i', rfl⟩ := sortedFrom_surjective (before key) j
    rw [Finset.mem_image]
    refine ⟨i', ?_, rfl⟩
    rw [Finset.mem_filter]
    refine ⟨Finset.mem_univ _, ?_⟩
    by_contra hge
    rcases lt_or_eq_of_le (not_lt.mp hge) with hlt | heq
    · exact absurd hj.2 (not_lt.mpr (sorted_mono key i i' hlt))
    · subst heq
      exact lt_irrefl _ hj.2
  calc (Finset.univ.filter (fun j : Fin n => (key j).toInt < (key (sortedFrom (before key) i)).toInt)).card
      ≤ ((Finset.univ.filter (fun i' : Fin n => i' < i)).image (sortedFrom (before key))).card :=
        Finset.card_le_card hsub
    _ ≤ (Finset.univ.filter (fun i' : Fin n => i' < i)).card := Finset.card_image_le
    _ = i.val := by rw [Finset.filter_gt_eq_Iio, Fin.card_Iio]

/-- The rank-1 index at a coordinate, in its two spellings. -/
theorem ofFin_eq_ix1 {n : Nat} (k : Fin n) : (Shape.Idx.ofFin k : (⟨1, ![n]⟩ : Shape).Idx) = ix1 k := by
  funext a
  obtain rfl : a = 0 := Subsingleton.elim _ _
  exact Fin.ext rfl

/-- On a rank-1 shape the fiber through any index along the one axis, at coordinate k, is the index at k. -/
theorem along_eq_ix1 {n : Nat} (j : (⟨1, ![n]⟩ : Shape).Idx) (h : 0 < (⟨1, ![n]⟩ : Shape).rank)
    (k : Fin ((⟨1, ![n]⟩ : Shape).size ⟨0, h⟩)) : j.along ⟨0, h⟩ k = @ix1 n k :=
  (Shape.Idx.along_rank1 j k).trans (ofFin_eq_ix1 k)

/-- (B) -/
theorem argsort_apply {n : Nat} (x : IVec ⟨1, ![n]⟩ 32) (i : Fin n) :
    (Host.sort2 ⟨1, ![n]⟩ 0 (fun l r : BitVec 32 × BitVec 32 => IntOp.cmpi .slt l.1 r.1) x (iotaInDim ⟨1, ![n]⟩ 32 0)).2 (ix1 i)
      = BitVec.ofNat 32 (sortedFrom (before (fun k => x (ix1 k))) i).val := by
  unfold Host.sort2
  rw [dif_pos (show 0 < (⟨1, ![n]⟩ : Shape).rank from Nat.zero_lt_one)]
  simp only [along_eq_ix1, iotaInDim]
  rfl

end Cert.SortRank
-- ==== Proof.IntReads.lean ====
/-
  Three integer index computations the token dispatch is made of, each READ AT AN INDEX, sums in the ring of
  32-bit words: the count of the tokens of each expert (an accumulating scatter of ones along a rank-1 operand),
  the inclusive cumulative sum of the eight counts (a reduction over a window of 8 after 7 zeros of padding in front),
  and the exclusive prefix (a zero in front of the first seven cumulative sums).
-/
import Idealize.ShloMosaic.PureOps
import Idealize.ShloMosaic.Lib.ValueIdx
import Idealize.ShloMosaic.Lib.ValueIdxRank1
import proofs.«110229_j18451179504175_1_alg».proof.Proof.LibGatherScatter
import Mathlib.Algebra.BigOperators.Group.Finset.Basic
import Mathlib.Algebra.BigOperators.Fin
import Mathlib.Data.BitVec

noncomputable section

namespace Cert.IntReads

open Idealize.ShloMosaic Idealize.ShloMosaic.ValueIdx
open scoped BigOperators

/-! ## The integer accumulating scatter, read at an index -/

/-- The fold of the accumulating step over ANY list of update positions, read at `i`: the start's word at `i` plus
    the words of the updates in the list that land at `i` (an update that lands elsewhere, or nowhere, leaves `i`
    alone; addition of words is associative). -/
theorem foldl_scatterAdd_apply {s si u : Shape} {w : Nat} (d : ScatterDims s si u) (idx : IVec si w)
    (upd : u.Idx → BitVec 32) (i : s.Idx) (L : List (Fin u.numel)) (r : s.Idx → BitVec 32) :
    (L.foldl (fun r n =>
        match d.resultIdx? (u.rowMajor.symm n) idx with
        | some i => fun i' => if i' = i then IntOp.addi (r i) (upd (u.rowMajor.symm n)) else r i'
        | none => r) r) i
      = r i + (L.map fun n => if d.resultIdx? (u.rowMajor.symm n) idx = some i then upd (u.rowMajor.symm n) else 0).sum := by
  induction L generalizing r with
  | nil => simp
  | cons n L ih =>
    rw [List.foldl_cons, ih, List.map_cons, List.sum_cons, ← add_assoc]
    congr 1
    cases hres : d.resultIdx? (u.rowMajor.symm n) idx with
    | none => simp
    | some i0 =>
      by_cases hi : i = i0
      · subst hi
        simp [IntOp.addi]
      · have hne : ¬ (some i0 = some i) := fun h => hi (Option.some.inj h).symm
        simp [hi, hne]

/-- (A) the integer accumulating scatter along a rank-1 operand, read at b: the operand's word plus the sum of the
    updates whose scatter index, read signed, is b. -/
theorem scatterAddI1_apply {N E : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (x : IVec ⟨1, ![N]⟩ 32) (idx : IVec ⟨2, ![E, 1]⟩ 32) (upd : IVec ⟨1, ![E]⟩ 32) (b : Fin N) :
    Host.scatter d IntOp.addi x idx upd (ix1 b)
      = x (ix1 b) + ∑ e ∈ Finset.univ.filter (fun e : Fin E => (idx (ix2 e 0)).toInt = (b.val : ℤ)), upd (ix1 e) := by
  refine (foldl_scatterAdd_apply d idx upd (ix1 b) _ x).trans ?_
  congr 1
  -- the list sum over all positions is the sum over the update indices, then over their one coordinate
  rw [← Fin.sum_univ_def,
    Equiv.sum_comp (⟨1, ![E]⟩ : Shape).rowMajor.symm
      (fun j => if d.resultIdx? j idx = some (ix1 b) then upd j else 0),
    ← Equiv.sum_comp (idxEquiv1 (n := E)).symm, Finset.sum_filter]
  refine Finset.sum_congr rfl fun e _ => ?_
  have hiff := LibGatherScatter.resultIdx1_eq_some_iff d huw hiw hsd hivd idx (ix1 e) (ix1 b)
  show (if d.resultIdx? (ix1 e) idx = some (ix1 b) then upd (ix1 e) else 0) = _
  by_cases hc : (idx (ix2 e 0)).toInt = (b.val : ℤ)
  · rw [if_pos (hiff.mpr hc), if_pos hc]
  · rw [if_neg (fun h => hc (hiff.mp h)), if_neg hc]

/-! ## The inclusive cumulative sum of eight words, read at an index -/

/-- The fold of the word sum from `v` over a list is `v` plus the list's sum (addition of words is associative). -/
theorem foldl_addi_eq {ι : Type} (g : ι → BitVec 32) (L : List ι) (v : BitVec 32) :
    L.foldl (fun r n => IntOp.addi r (g n)) v = v + (L.map g).sum := by
  induction L generalizing v with
  | nil => simp
  | cons n L ih =>
    rw [List.foldl_cons, ih, List.map_cons, List.sum_cons, ← add_assoc]
    rfl

/-- (B) the inclusive cumulative sum of 8 words. -/
theorem cumsum8_apply (x : IVec ⟨1, ![8]⟩ 32)
    (h : (⟨1, ![8]⟩ : Shape).ReduceWindows ![8] ![1] ![7] ![0] ⟨1, ![8]⟩) (hu : 0 < (⟨0, ![]⟩ : Shape).numel) (k : Fin 8) :
    Host.reduceWindow (s := ⟨1, ![8]⟩) (t := ⟨1, ![8]⟩) (u := ⟨0, ![]⟩) IntOp.addi ![8] ![1] ![7] ![0] x (fun _ => 0#32) h hu (ix1 k)
      = ∑ j ∈ Finset.univ.filter (fun j : Fin 8 => j.val ≤ k.val), x (ix1 j) := by
  -- window position m of output k is padded position k + m: operand position k + m - 7 when 7 ≤ k + m, the padding
  -- (which holds zero) before that
  let g : (⟨1, ![8]⟩ : Shape).Idx → BitVec 32 := fun q =>
    if 7 ≤ k.val + (q 0).val then x (ix1 ⟨(k.val + (q 0).val - 7) % 8, Nat.mod_lt _ (by decide)⟩) else 0
  have hfold : Host.reduceWindow (s := ⟨1, ![8]⟩) (t := ⟨1, ![8]⟩) (u := ⟨0, ![]⟩) IntOp.addi ![8] ![1] ![7] ![0] x
        (fun _ => 0#32) h hu (ix1 k)
      = 0#32 + ((List.finRange (⟨1, ![8]⟩ : Shape).numel).map
          fun n => g ((⟨1, ![8]⟩ : Shape).rowMajor.symm n)).sum := by
    refine Eq.trans ?_ (foldl_addi_eq _ _ _)
    unfold Host.reduceWindow
    show List.foldl _ _ _ = List.foldl _ _ _
    congr 1
    funext r n
    show IntOp.addi r (dite _ _ _) = IntOp.addi r (g _)
    congr 1
    have hk := k.isLt
    have hq : ((⟨1, ![8]⟩ : Shape).rowMajor.symm n 0).val < 8 := ((⟨1, ![8]⟩ : Shape).rowMajor.symm n 0).isLt
    split
    · rename_i hin
      have hc : 7 ≤ k.val * 1 + ((⟨1, ![8]⟩ : Shape).rowMajor.symm n 0).val := (hin 0).1
      have hc' : 7 ≤ k.val + ((⟨1, ![8]⟩ : Shape).rowMajor.symm n 0).val := by omega
      show _ = if 7 ≤ k.val + ((⟨1, ![8]⟩ : Shape).rowMajor.symm n 0).val then _ else _
      rw [if_pos hc']
      congr 1
      funext a
      obtain rfl : a = 0 := Subsingleton.elim _ _
      apply Fin.ext
      show k.val * 1 + ((⟨1, ![8]⟩ : Shape).rowMajor.symm n 0).val - 7
        = (k.val + ((⟨1, ![8]⟩ : Shape).rowMajor.symm n 0).val - 7) % 8
      omega
    · rename_i hnin
      have hc' : ¬ 7 ≤ k.val + ((⟨1, ![8]⟩ : Shape).rowMajor.symm n 0).val := fun hc => hnin (fun a => by
        obtain rfl : a = 0 := Subsingleton.elim _ _
        constructor
        · show 7 ≤ k.val * 1 + ((⟨1, ![8]⟩ : Shape).rowMajor.symm n 0).val
          omega
        · show k.val * 1 + ((⟨1, ![8]⟩ : Shape).rowMajor.symm n 0).val - 7 < 8
          omega)
      exact (if_neg hc').symm
  -- the list sum over the window's positions is the sum over its one coordinate
  rw [hfold, BitVec.zero_add, ← Fin.sum_univ_def, Equiv.sum_comp (⟨1, ![8]⟩ : Shape).rowMajor.symm g,
    ← Equiv.sum_comp (idxEquiv1 (n := 8)).symm]
  show (∑ m : Fin 8, if 7 ≤ k.val + m.val then x (ix1 ⟨(k.val + m.val - 7) % 8, Nat.mod_lt _ (by decide)⟩) else 0) = _
  rw [← Finset.sum_filter]
  -- operand position j ≤ k is read at window position j + 7 - k
  have hk := k.isLt
  refine Finset.sum_nbij' (fun m => ⟨(k.val + m.val - 7) % 8, Nat.mod_lt _ (by decide)⟩)
    (fun j => ⟨(j.val + 7 - k.val) % 8, Nat.mod_lt _ (by decide)⟩) ?_ ?_ ?_ ?_ ?_
  · intro m hm
    have h1 := (Finset.mem_filter.mp hm).2
    have h2 := m.isLt
    refine Finset.mem_filter.mpr ⟨Finset.mem_univ _, ?_⟩
    show (k.val + m.val - 7) % 8 ≤ k.val
    omega
  · intro j hj
    have h1 : j.val ≤ k.val := (Finset.mem_filter.mp hj).2
    have h2 := j.isLt
    refine Finset.mem_filter.mpr ⟨Finset.mem_univ _, ?_⟩
    show 7 ≤ k.val + (j.val + 7 - k.val) % 8
    omega
  · intro m hm
    have h1 := (Finset.mem_filter.mp hm).2
    have h2 := m.isLt
    apply Fin.ext
    show ((k.val + m.val - 7) % 8 + 7 - k.val) % 8 = m.val
    omega
  · intro j hj
    have h1 : j.val ≤ k.val := (Finset.mem_filter.mp hj).2
    have h2 := j.isLt
    apply Fin.ext
    show (k.val + (j.val + 7 - k.val) % 8 - 7) % 8 = j.val
    omega
  · intro m _
    rfl

/-! ## The exclusive prefix: a zero in front of the first seven -/

/-- (C) a zero in front of the first seven: position 0 reads the one-element piece, position k > 0 reads the sliced
    piece at k - 1, which is the source at k - 1 (the slice starts at 0). -/
theorem shift8_apply (c : IVec ⟨1, ![8]⟩ 32) (z : IVec ⟨1, ![1]⟩ 32)
    (hs : (⟨1, ![8]⟩ : Shape).Slices ![0] ⟨1, ![7]⟩)
    (hc : Shape.Concatenates [⟨1, ![1]⟩, ⟨1, ![7]⟩] ⟨1, ![8]⟩ 0) (k : Fin 8) :
    concatenate ⟨1, ![8]⟩ 0 [⟨⟨1, ![1]⟩, z⟩, ⟨⟨1, ![7]⟩, extractStridedSlice ⟨1, ![7]⟩ ![0] c hs⟩] hc (ix1 k)
      = if h0 : k.val = 0 then z (ix1 0) else c (ix1 ⟨k.val - 1, by omega⟩) := by
  fin_cases k
  · refine congrArg z (funext fun (b : Fin 1) => ?_)
    obtain rfl : b = 0 := Subsingleton.elim _ _
    rfl
  all_goals
    refine congrArg c (funext fun (b : Fin 1) => ?_)
    obtain rfl : b = 0 := Subsingleton.elim _ _
    rfl

end Cert.IntReads

end
-- ==== Proof.PosNonneg.lean ====
/-
  Under the precondition that every expert id is non-negative, the clamped slot of every sorted position is
  non-negative; and it is at most 4096 whatever the ids are.

  Assignment k carries the key "its expert id", a word whose signed value is non-negative (it may be 8 or more).
  The stable argsort places assignment π i at sorted position i, so the expert at sorted position i is the key of
  π i. The count of expert b < 8 is the number of assignments with key b; the start of expert e's segment is the sum
  of the counts of the experts below e, which is at most the number of assignments whose key is below e (the fibres
  of distinct experts are disjoint). The segment start read at sorted position i is that of the key found there
  CLAMPED into [0, 7], which does not exceed the key; so the keys below the clamped key are among the keys strictly
  below the key found there, which number at most i. Hence the slot "i minus that segment start" is the word of a
  natural number below 16384, whose signed value is non-negative. The signed minimum of a non-negative word and 4096 is non-negative and at most 4096. All sums of
  counts are kept as natural numbers under the cast into 32-bit words; they are below 2^31, where the signed value
  of the word of a natural number is that number.
-/
import proofs.«110229_j18451179504175_1_alg».proof.Proof.Spec
import proofs.«110229_j18451179504175_1_alg».proof.Proof.SortRank
import proofs.«110229_j18451179504175_1_alg».proof.Proof.IntReads
import proofs.«110229_j18451179504175_1_alg».proof.Proof.LibGatherScatter
import Idealize.ShloMosaic.Lib.ValueIdx
import Mathlib.Algebra.BigOperators.Group.Finset.Basic
import Mathlib.Data.BitVec
import Mathlib.Data.Finset.Card
import Mathlib.Data.Fintype.Card

noncomputable section

namespace Cert.PosNonneg

open Idealize.ShloMosaic Idealize.ShloMosaic.ValueIdx
open Cert.Spec Cert.LibGatherScatter
open scoped BigOperators

/-- A natural number below 2^31, as a 32-bit word, has itself as signed value. -/
theorem toInt_ofNat_small {m : Nat} (hm : m < 2 ^ 31) : (BitVec.ofNat 32 m).toInt = (m : ℤ) := by
  have h1 : (BitVec.ofNat 32 m).toNat = m := by
    rw [BitVec.toNat_ofNat]
    exact Nat.mod_eq_of_lt (by omega)
  rw [BitVec.toInt_eq_toNat_of_lt (by rw [h1]; omega), h1]

/-- The key of assignment k: its expert id. -/
abbrev key (a1 : IVec S8192x2 32) (k : Fin 16384) : BitVec 32 := flatE a1 (ix1 k)

/-- The sorting permutation of the keys: the assignment placed at each sorted position. -/
abbrev perm (a1 : IVec S8192x2 32) : Fin 16384 → Fin 16384 := sortedFrom (Cert.SortRank.before (key a1))

/-- Every key is an entry of the table of ids, so it is non-negative when they all are. -/
theorem key_nonneg (a1 : IVec S8192x2 32) (h : ∀ j : S8192x2.Idx, 0 ≤ (a1 j).toInt) (k : Fin 16384) :
    0 ≤ (key a1 k).toInt := h _

/-- The argsort at sorted position i is the word of the assignment placed there. -/
theorem order_apply (a1 : IVec S8192x2 32) (i : Fin 16384) :
    order a1 (ix1 i) = BitVec.ofNat 32 (perm a1 i).val :=
  Cert.SortRank.argsort_apply (flatE a1) i

/-- The negative-index wrap of a vector, read at an index. -/
theorem wrapV_apply (n : BitVec 32) (v : IVec S16384 32) (j : S16384.Idx) : wrapV n v j = wrapW n (v j) :=
  wrap_apply bc_S_16384 bc_S_16384 n v j

/-- The column of a vector, read at a row. -/
theorem col_apply {α : Type} (v : S16384.Idx → α) (e : Fin 16384) : col v (ix2 e 0) = v (ix1 e) :=
  bcast_col_apply bc_col v e 0

/-- A position below 2^31, clamped into an axis that contains it, is itself. -/
theorem clampIdx_ofNat {N : Nat} (hN : 0 < N) (hN31 : N ≤ 2 ^ 31) (k : Fin N) :
    clampIdx N hN (BitVec.ofNat 32 k.val) = k := by
  have hk : k.val < 2 ^ 31 := lt_of_lt_of_le k.isLt hN31
  apply Fin.ext
  rw [clampIdx_of_inRange hN (by rw [toInt_ofNat_small hk]; exact Int.natCast_nonneg _)
    (by rw [toInt_ofNat_small hk]; exact_mod_cast k.isLt), toInt_ofNat_small hk, Int.toNat_natCast]

/-- The expert at sorted position i is the key of the assignment placed there. -/
theorem seid_apply (a1 : IVec S8192x2 32) (i : Fin 16384) : seid a1 (ix1 i) = key a1 (perm a1 i) := by
  have hp : (perm a1 i).val < 2 ^ 31 := lt_of_lt_of_le (perm a1 i).isLt (by norm_num)
  unfold seid
  rw [gather1_apply (by norm_num) gd1 rfl rfl rfl rfl, col_apply, wrapV_apply, order_apply,
    wrapW_of_nonneg (by rw [toInt_ofNat_small hp]; exact Int.natCast_nonneg _),
    clampIdx_ofNat (by norm_num) (by norm_num)]

/-- A non-negative key is its own clip. -/
theorem clipped_apply (a1 : IVec S8192x2 32) (k : Fin 16384) (h0 : 0 ≤ (key a1 k).toInt) :
    clipped a1 (ix1 k) = key a1 k := by
  show IntOp.maxsi 0#32 (key a1 k) = key a1 k
  unfold IntOp.maxsi
  have hs : (key a1 k).slt 0#32 = false := by
    simp only [BitVec.slt, BitVec.toInt_zero, decide_eq_false_iff_not, not_lt]
    exact h0
  rw [hs]
  rfl

/-- The number of assignments whose key is j. -/
abbrev cnt (a1 : IVec S8192x2 32) (j : Fin 8) : ℕ :=
  (Finset.univ.filter (fun k : Fin 16384 => (key a1 k).toInt = (j.val : ℤ))).card

/-- The count of expert b is the word of the number of assignments whose key is b. -/
theorem counts_apply (a1 : IVec S8192x2 32) (h : ∀ k, 0 ≤ (key a1 k).toInt) (b : Fin 8) :
    counts a1 (ix1 b) = ((cnt a1 b : ℕ) : BitVec 32) := by
  have hidx : ∀ e : Fin 16384, col (wrapV 8#32 (clipped a1)) (ix2 e 0) = key a1 e := by
    intro e
    rw [col_apply, wrapV_apply, clipped_apply a1 e (h e), wrapW_of_nonneg (h e)]
  unfold counts
  rw [Cert.IntReads.scatterAddI1_apply sd8 rfl rfl rfl rfl]
  simp only [hidx]
  show (0 : BitVec 32) + ∑ e ∈ Finset.univ.filter (fun e : Fin 16384 => (key a1 e).toInt = (b.val : ℤ)), (1 : BitVec 32)
    = ((cnt a1 b : ℕ) : BitVec 32)
  rw [zero_add, Finset.sum_const, nsmul_eq_mul, mul_one]

/-- The inclusive cumulative sum at k is the word of the number of assignments whose key is at most k. -/
theorem cums_apply (a1 : IVec S8192x2 32) (h : ∀ k, 0 ≤ (key a1 k).toInt) (k : Fin 8) :
    cums a1 (ix1 k) = ((∑ j ∈ Finset.univ.filter (fun j : Fin 8 => j.val ≤ k.val), cnt a1 j : ℕ) : BitVec 32) := by
  have e := Cert.IntReads.cumsum8_apply (counts a1) rw8 hS_ k
  rw [Nat.cast_sum]
  simp only [← counts_apply a1 h]
  exact e

/-- The start of expert e's segment is the word of the number of assignments whose key is below e. -/
theorem segStarts_apply (a1 : IVec S8192x2 32) (h : ∀ k, 0 ≤ (key a1 k).toInt) (e : Fin 8) :
    segStarts a1 (ix1 e) = ((∑ j ∈ Finset.univ.filter (fun j : Fin 8 => j.val < e.val), cnt a1 j : ℕ) : BitVec 32) := by
  unfold segStarts
  rw [Cert.IntReads.shift8_apply]
  split
  · rename_i h0
    have hemp : Finset.univ.filter (fun j : Fin 8 => j.val < e.val) = ∅ := by
      apply Finset.filter_false_of_mem
      intro j _
      omega
    rw [hemp, Finset.sum_empty, Nat.cast_zero]
    rfl
  · rename_i h0
    rw [cums_apply a1 h]
    have hset : Finset.univ.filter (fun j : Fin 8 => j.val ≤ (⟨e.val - 1, by omega⟩ : Fin 8).val)
        = Finset.univ.filter (fun j : Fin 8 => j.val < e.val) := by
      apply Finset.filter_congr
      intro j _
      show j.val ≤ e.val - 1 ↔ j.val < e.val
      omega
    rw [hset]

/-- The counts of the experts below e add up to at most the number of assignments whose key is below e: the
    fibres of distinct experts are disjoint and lie inside that set. -/
theorem sum_cnt_le (a1 : IVec S8192x2 32) (e : Fin 8) :
    ∑ j ∈ Finset.univ.filter (fun j : Fin 8 => j.val < e.val), cnt a1 j
      ≤ (Finset.univ.filter (fun k : Fin 16384 => (key a1 k).toInt < (e.val : ℤ))).card := by
  rw [← Finset.card_biUnion]
  · apply Finset.card_le_card
    intro k hk
    rw [Finset.mem_biUnion] at hk
    obtain ⟨j, hj, hkj⟩ := hk
    rw [Finset.mem_filter] at hj hkj ⊢
    refine ⟨Finset.mem_univ _, ?_⟩
    rw [hkj.2]
    exact_mod_cast hj.2
  · intro j _ j' _ hne
    show Disjoint _ _
    rw [Finset.disjoint_filter]
    intro k _ h1 h2
    apply hne
    apply Fin.ext
    have h3 : (j.val : ℤ) = (j'.val : ℤ) := h1.symm.trans h2
    exact_mod_cast h3

/-- The signed value of the word 4096. -/
theorem toInt_4096 : (4096#32 : BitVec 32).toInt = 4096 := by decide

/-- The slot of sorted position i: its position minus the start of its expert's segment. -/
theorem positions_apply (a1 : IVec S8192x2 32) (h : ∀ k, 0 ≤ (key a1 k).toInt) (i : Fin 16384) :
    positions a1 (ix1 i)
      = BitVec.ofNat 32 i.val - segStarts a1 (ix1 (clampIdx 8 (by norm_num) (key a1 (perm a1 i)))) := by
  show IntOp.subi (BitVec.ofNat 32 i.val) (Host.gather gd8 (segStarts a1) (col (wrapV 8#32 (seid a1))) (ix1 i)) = _
  rw [gather1_apply (by norm_num) gd8 rfl rfl rfl rfl, col_apply, wrapV_apply, seid_apply, wrapW_of_nonneg (h _)]
  rfl

/-- The slot is the word of a natural number: the position less a number that does not exceed it. -/
theorem positions_eq (a1 : IVec S8192x2 32) (h0 : ∀ k, 0 ≤ (key a1 k).toInt) (i : Fin 16384) :
    ∃ m : ℕ, m ≤ i.val ∧ positions a1 (ix1 i) = BitVec.ofNat 32 (i.val - m) := by
  -- the clamp of a non-negative key into [0, 7] does not exceed the key
  have hv : (((clampIdx 8 (by norm_num) (key a1 (perm a1 i))).val : ℕ) : ℤ) ≤ (key a1 (perm a1 i)).toInt := by
    have hnn := Int.toNat_of_nonneg (h0 (perm a1 i))
    show ((min (key a1 (perm a1 i)).toInt.toNat (8 - 1) : ℕ) : ℤ) ≤ (key a1 (perm a1 i)).toInt
    omega
  have hm : ∑ j ∈ Finset.univ.filter (fun j : Fin 8 =>
      j.val < (clampIdx 8 (by norm_num) (key a1 (perm a1 i))).val), cnt a1 j ≤ i.val := by
    refine le_trans (sum_cnt_le a1 _) ?_
    -- the keys below the clamped key are among the keys strictly below the key at sorted position i
    refine le_trans (Finset.card_le_card ?_) (Cert.SortRank.card_lt_le (key a1) i)
    intro k hk
    rw [Finset.mem_filter] at hk ⊢
    exact ⟨hk.1, lt_of_lt_of_le hk.2 hv⟩
  refine ⟨_, hm, ?_⟩
  rw [positions_apply a1 h0, segStarts_apply a1 h0, ← BitVec.natCast_eq_ofNat, ← BitVec.natCast_eq_ofNat]
  exact (Nat.cast_sub hm).symm

open Cert.Spec in
theorem posC_nonneg (a1 : IVec S8192x2 32) (h : ∀ j : S8192x2.Idx, 0 ≤ (a1 j).toInt) (i : Fin 16384) :
    0 ≤ (posC a1 (ix1 i)).toInt := by
  obtain ⟨m, hm, hp⟩ := positions_eq a1 (key_nonneg a1 h) i
  have hlt : i.val - m < 2 ^ 31 := lt_of_le_of_lt (Nat.sub_le _ _) (lt_of_lt_of_le i.isLt (by norm_num))
  show 0 ≤ (IntOp.minsi (positions a1 (ix1 i)) 4096#32).toInt
  unfold IntOp.minsi
  split
  · rw [hp, toInt_ofNat_small hlt]
    exact Int.natCast_nonneg _
  · rw [toInt_4096]
    norm_num

open Cert.Spec in
theorem posC_le (a1 : IVec S8192x2 32) (i : Fin 16384) : (posC a1 (ix1 i)).toInt ≤ 4096 := by
  show (IntOp.minsi (positions a1 (ix1 i)) 4096#32).toInt ≤ 4096
  unfold IntOp.minsi
  split
  · rename_i hs
    have hlt : (positions a1 (ix1 i)).toInt < (4096#32 : BitVec 32).toInt := by
      simpa [BitVec.slt] using hs
    rw [toInt_4096] at hlt
    exact le_of_lt hlt
  · rw [toInt_4096]

end Cert.PosNonneg

end
-- ==== Proof.FFNSpec.lean ====
/-
  One expert's SwiGLU feed-forward applied to ONE row, over the extended reals: for a row `x` of length 1024 and an
  expert's three weight matrices, `h₁ = x·W₁`, `h₂ = x·W₂` (length 4096), the gate `h₁ · σ(h₁)` with `σ` the
  logistic function, the gated product `(h₁ · σ(h₁)) · h₂`, and the output `((h₁ · σ(h₁)) · h₂)·W₃` (length 1024).
  Both programs compute this row function: one on 128-row blocks of a padded buffer, the other on the whole buffer.
-/
import Idealize.ShloMosaic.PureOps.Ideal
import Mathlib.Algebra.BigOperators.Group.Finset.Basic

noncomputable section

namespace Cert.FFNSpec

open Idealize.ShloMosaic
open scoped BigOperators

/-- The first projection of a row: `(x·W)_f = Σ_k x_k · W_{k f}`. -/
def proj (x : Fin 1024 → EReal) (w : Fin 1024 → Fin 4096 → EReal) (f : Fin 4096) : EReal :=
  ∑ k : Fin 1024, x k * w k f

/-- The gated hidden row: `(h₁ · σ(h₁)) · h₂` with `h₁ = x·W₁`, `h₂ = x·W₂`. -/
def gated (x : Fin 1024 → EReal) (w1 w2 : Fin 1024 → Fin 4096 → EReal) (f : Fin 4096) : EReal :=
  (proj x w1 f * Ideal.logistic (proj x w1 f)) * proj x w2 f

/-- The row's output: `Σ_f gated_f · W₃_{f d}`. -/
def rowFFN (x : Fin 1024 → EReal) (w1 w2 : Fin 1024 → Fin 4096 → EReal) (w3 : Fin 4096 → Fin 1024 → EReal)
    (d : Fin 1024) : EReal :=
  ∑ f : Fin 4096, gated x w1 w2 f * w3 f d

end Cert.FFNSpec

end
-- ==== Proof.KValue.lean ====
/-
  The padded-buffer feed-forward, read at an index. The one kernel call runs on the grid (expert e in 0..8, row tile
  r in 0..33): at point (e, r) it takes the 128 rows 128 r .. 128 r + 127 of expert e's slab of the padded buffer and
  the three whole weight matrices of expert e, and leaves in the same rows of the output
  ((x W1) * logistic (x W1)) * (x W2), multiplied by W3, every sum taken over the extended reals. The 8 * 33 output
  blocks tile the output array, so after the run row p of expert e holds the row function of row p of the buffer.
-/
import proofs.«110229_j18451179504175_1_alg».proof.Proof.Gen.KernelIdeal.Frame
import proofs.«110229_j18451179504175_1_alg».proof.Proof.FFNSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx Idealize.ShloMosaic.TcCoe Idealize.SL.Sem
open Idealize.ShloMosaic.Pipeline (Dat)
open Cert.KernelIdeal Cert.KernelIdeal.Gen Cert.FFNSpec
open scoped BigOperators

variable (m : (ℓ : Loc nD τ sig) → Buf (Elt Ideal) ℓ)

/-! ## The two dot records at their operand indices

Both records contract axis 1 of the left operand with axis 0 of the right one and have no batch axis: at output
index (r, c) and contraction position k the left operand is read at (r, k) and the right one at (k, c). -/

abbrev DUp := dot_S128x1024_S1024x4096_S128x4096_1_0_0_1_n_n
abbrev DDown := dot_S128x4096_S4096x1024_S128x1024_1_0_0_1_n_n

theorem up_lhs_row (j : S128x4096.Idx) (k : DUp.contr.Idx) : (DUp.lhsIdx j k 0 : ℕ) = j 0 := by
  simp [DotDims.lhsIdx, DUp, dot_S128x1024_S1024x4096_S128x4096_1_0_0_1_n_n]; rfl
theorem up_lhs_col (j : S128x4096.Idx) (k : DUp.contr.Idx) : (DUp.lhsIdx j k 1 : ℕ) = k ⟨0, by decide⟩ := by
  simp [DotDims.lhsIdx, DUp, dot_S128x1024_S1024x4096_S128x4096_1_0_0_1_n_n]; rfl
theorem up_rhs_row (j : S128x4096.Idx) (k : DUp.contr.Idx) : (DUp.rhsIdx j k 0 : ℕ) = k ⟨0, by decide⟩ := by
  simp [DotDims.rhsIdx, DUp, dot_S128x1024_S1024x4096_S128x4096_1_0_0_1_n_n]; rfl
theorem up_rhs_col (j : S128x4096.Idx) (k : DUp.contr.Idx) : (DUp.rhsIdx j k 1 : ℕ) = j 1 := by
  simp [DotDims.rhsIdx, DUp, dot_S128x1024_S1024x4096_S128x4096_1_0_0_1_n_n]; rfl

theorem down_lhs_row (j : S128x1024.Idx) (k : DDown.contr.Idx) : (DDown.lhsIdx j k 0 : ℕ) = j 0 := by
  simp [DotDims.lhsIdx, DDown, dot_S128x4096_S4096x1024_S128x1024_1_0_0_1_n_n]; rfl
theorem down_lhs_col (j : S128x1024.Idx) (k : DDown.contr.Idx) : (DDown.lhsIdx j k 1 : ℕ) = k ⟨0, by decide⟩ := by
  simp [DotDims.lhsIdx, DDown, dot_S128x4096_S4096x1024_S128x1024_1_0_0_1_n_n]; rfl
theorem down_rhs_row (j : S128x1024.Idx) (k : DDown.contr.Idx) : (DDown.rhsIdx j k 0 : ℕ) = k ⟨0, by decide⟩ := by
  simp [DotDims.rhsIdx, DDown, dot_S128x4096_S4096x1024_S128x1024_1_0_0_1_n_n]; rfl
theorem down_rhs_col (j : S128x1024.Idx) (k : DDown.contr.Idx) : (DDown.rhsIdx j k 1 : ℕ) = j 1 := by
  simp [DotDims.rhsIdx, DDown, dot_S128x4096_S4096x1024_S128x1024_1_0_0_1_n_n]; rfl

/-- The contraction positions of the first two products are the 1024 columns of a buffer row. -/
abbrev upEquiv : DUp.contr.Idx ≃ Fin 1024 := contrEquiv1 DUp 1024 rfl rfl
/-- Those of the third are the 4096 hidden columns. -/
abbrev downEquiv : DDown.contr.Idx ≃ Fin 4096 := contrEquiv1 DDown 4096 rfl rfl

theorem up_lhs_at (r : Fin 128) (f : Fin 4096) (k : Fin 1024) : DUp.lhsIdx (ix2 r f) (upEquiv.symm k) = ix2 r k :=
  Shape.idx_ext₂ (up_lhs_row _ _) ((up_lhs_col _ _).trans (contrEquiv1_symm_val DUp 1024 rfl rfl k))
theorem up_rhs_at (r : Fin 128) (f : Fin 4096) (k : Fin 1024) : DUp.rhsIdx (ix2 r f) (upEquiv.symm k) = ix2 k f :=
  Shape.idx_ext₂ ((up_rhs_row _ _).trans (contrEquiv1_symm_val DUp 1024 rfl rfl k)) (up_rhs_col _ _)
theorem down_lhs_at (r : Fin 128) (d : Fin 1024) (f : Fin 4096) : DDown.lhsIdx (ix2 r d) (downEquiv.symm f) = ix2 r f :=
  Shape.idx_ext₂ (down_lhs_row _ _) ((down_lhs_col _ _).trans (contrEquiv1_symm_val DDown 4096 rfl rfl f))
theorem down_rhs_at (r : Fin 128) (d : Fin 1024) (f : Fin 4096) : DDown.rhsIdx (ix2 r d) (downEquiv.symm f) = ix2 f d :=
  Shape.idx_ext₂ ((down_rhs_row _ _).trans (contrEquiv1_symm_val DDown 4096 rfl rfl f)) (down_rhs_col _ _)

/-- A product into the zero accumulator, read at (r, f): the sum over the row's 1024 columns. -/
theorem up_apply (a : FVec Ideal S128x1024 .bf16) (b : FVec Ideal S1024x4096 .bf16) (r : Fin 128) (f : Fin 4096) :
    matmul DUp none a b (constant S128x4096 .f32 0x00000000#32) (ix2 r f) = ∑ k : Fin 1024, a (ix2 r k) * b (ix2 k f) := by
  refine (Ideal.matmul_constant_zero_apply DUp none a b (ix2 r f)).trans ?_
  rw [← Equiv.sum_comp upEquiv.symm]
  exact Finset.sum_congr rfl fun k _ => by rw [up_lhs_at, up_rhs_at]

/-- The third product, read at (r, d): the sum over the 4096 hidden columns. -/
theorem down_apply (a : FVec Ideal S128x4096 .bf16) (b : FVec Ideal S4096x1024 .bf16) (r : Fin 128) (d : Fin 1024) :
    matmul DDown none a b (constant S128x1024 .f32 0x00000000#32) (ix2 r d) = ∑ f : Fin 4096, a (ix2 r f) * b (ix2 f d) := by
  refine (Ideal.matmul_constant_zero_apply DDown none a b (ix2 r d)).trans ?_
  rw [← Equiv.sum_comp downEquiv.symm]
  exact Finset.sum_congr rfl fun f _ => by rw [down_lhs_at, down_rhs_at]

/-! ## The body's arithmetic at an index of its block -/

/-- Row r, column d of what the body stores: the row function of row r of the loaded buffer block over the three
    loaded weight blocks. The unit axis of every block is cast away before the products and put back after them; the
    narrowing of the gated product is the identity on extended reals. -/
theorem pay_apply (x0 : FVec Ideal S1x128x1024 .bf16) (x1 x2 : FVec Ideal S1x1024x4096 .bf16) (x3 : FVec Ideal S1x4096x1024 .bf16)
    (u : Fin 1) (r : Fin 128) (d : Fin 1024) :
    (k0_pay1 (F := Ideal) x0 x1 x2 x3 : S1x128x1024.Idx → EReal) (ix3 u r d)
      = rowFFN (fun k => x0 (ix3 (0 : Fin 1) r k)) (fun k f => x1 (ix3 (0 : Fin 1) k f)) (fun k f => x2 (ix3 (0 : Fin 1) k f))
          (fun f d' => x3 (ix3 (0 : Fin 1) f d')) d := by
  unfold k0_pay1
  refine (shapeCast_ab_1ab_apply _ _ u r d).trans ?_
  refine (down_apply _ _ r d).trans ?_
  unfold rowFFN
  refine Finset.sum_congr rfl fun f _ => ?_
  rw [shapeCast_1ab_ab_apply, truncf_apply, mulf_apply, mulf_apply]
  refine congrArg (· * x3 (ix3 (0 : Fin 1) f d)) ?_
  have h1 : ∀ w : FVec Ideal S1x1024x4096 .bf16,
      matmul DUp none (shapeCast S128x1024 x0 shapeCasts_S1x128x1024_S128x1024)
        (shapeCast S1024x4096 w shapeCasts_S1x1024x4096_S1024x4096) (constant S128x4096 .f32 0x00000000#32) (ix2 r f)
        = proj (fun k => x0 (ix3 (0 : Fin 1) r k)) (fun k f' => w (ix3 (0 : Fin 1) k f')) f := fun w => by
    refine (up_apply _ _ r f).trans ?_
    unfold proj
    exact Finset.sum_congr rfl fun k _ => by rw [shapeCast_1ab_ab_apply, shapeCast_1ab_ab_apply]
  unfold gated
  rw [← h1 x1, ← h1 x2]
  rfl

/-! ## The output array as one function of the four operand arrays -/

/-- Row p of expert e at column d: the row function of row p of expert e's slab of the buffer over expert e's three
    weight matrices. -/
def rowAt (X : S8x4224x1024.Idx → EReal) (W1 W2 : S8x1024x4096.Idx → EReal) (W3 : S8x4096x1024.Idx → EReal)
    (e : Fin 8) (p : Fin 4224) (d : Fin 1024) : EReal :=
  rowFFN (fun k => X (ix3 e p k)) (fun k f => W1 (ix3 e k f)) (fun k f => W2 (ix3 e k f)) (fun f d' => W3 (ix3 e f d')) d

/-- The whole output: index (e, p, d) holds `rowAt … e p d`. -/
def G (X : S8x4224x1024.Idx → EReal) (W1 W2 : S8x1024x4096.Idx → EReal) (W3 : S8x4096x1024.Idx → EReal) :
    S8x4224x1024.Idx → EReal := fun i => rowAt X W1 W2 W3 (i 0) (i 1) (i 2)

/-- A block's arithmetic is a tile of `G`: if row r of the buffer block is row p of expert e's slab and the weight
    blocks are expert e's matrices, the stored block at (r, d) is `rowAt … e p d`. -/
theorem block_apply (X : S8x4224x1024.Idx → EReal) (W1 W2 : S8x1024x4096.Idx → EReal) (W3 : S8x4096x1024.Idx → EReal)
    (x0 : FVec Ideal S1x128x1024 .bf16) (x1 x2 : FVec Ideal S1x1024x4096 .bf16) (x3 : FVec Ideal S1x4096x1024 .bf16)
    (e : Fin 8) (p : Fin 4224) (r : Fin 128)
    (h0 : ∀ k : Fin 1024, x0 (ix3 (0 : Fin 1) r k) = X (ix3 e p k))
    (h1 : ∀ (k : Fin 1024) (f : Fin 4096), x1 (ix3 (0 : Fin 1) k f) = W1 (ix3 e k f))
    (h2 : ∀ (k : Fin 1024) (f : Fin 4096), x2 (ix3 (0 : Fin 1) k f) = W2 (ix3 e k f))
    (h3 : ∀ (f : Fin 4096) (d : Fin 1024), x3 (ix3 (0 : Fin 1) f d) = W3 (ix3 e f d))
    (u : Fin 1) (d : Fin 1024) :
    (k0_pay1 (F := Ideal) x0 x1 x2 x3 : S1x128x1024.Idx → EReal) (ix3 u r d) = rowAt X W1 W2 W3 e p d := by
  rw [pay_apply]
  unfold rowAt
  simp only [h0, h1, h2, h3]

/-- The same over a block index y and an array index i related coordinate by coordinate: y's row is row
    128 q + (y 1) of expert e's slab. -/
theorem point_apply (X : S8x4224x1024.Idx → EReal) (W1 W2 : S8x1024x4096.Idx → EReal) (W3 : S8x4096x1024.Idx → EReal)
    (x0 : FVec Ideal S1x128x1024 .bf16) (x1 x2 : FVec Ideal S1x1024x4096 .bf16) (x3 : FVec Ideal S1x4096x1024 .bf16)
    (e q : ℕ)
    (h0 : ∀ (r : Fin 128) (k : Fin 1024) (a : Fin 8) (p : Fin 4224), a.val = e → p.val = 128 * q + r.val →
      x0 (ix3 (0 : Fin 1) r k) = X (ix3 a p k))
    (h1 : ∀ (k : Fin 1024) (f : Fin 4096) (a : Fin 8), a.val = e → x1 (ix3 (0 : Fin 1) k f) = W1 (ix3 a k f))
    (h2 : ∀ (k : Fin 1024) (f : Fin 4096) (a : Fin 8), a.val = e → x2 (ix3 (0 : Fin 1) k f) = W2 (ix3 a k f))
    (h3 : ∀ (f : Fin 4096) (d : Fin 1024) (a : Fin 8), a.val = e → x3 (ix3 (0 : Fin 1) f d) = W3 (ix3 a f d))
    (y : S1x128x1024.Idx) (i : S8x4224x1024.Idx)
    (hi0 : (i 0).val = e) (hi1 : (i 1).val = 128 * q + (y 1).val) (hi2 : (i 2).val = (y 2).val) :
    (k0_pay1 (F := Ideal) x0 x1 x2 x3 : S1x128x1024.Idx → EReal) y = G X W1 W2 W3 i := by
  obtain ⟨u, r, d, rfl⟩ : ∃ (u : Fin 1) (r : Fin 128) (d : Fin 1024), y = ix3 u r d := ⟨y 0, y 1, y 2, eq_ix3 y⟩
  obtain ⟨a, p, d', rfl⟩ : ∃ (a : Fin 8) (p : Fin 4224) (d' : Fin 1024), i = ix3 a p d' := ⟨i 0, i 1, i 2, eq_ix3 i⟩
  have hd : d' = d := Fin.ext hi2
  have ha : a.val = e := hi0
  have hp : p.val = 128 * q + r.val := hi1
  rw [hd]
  exact block_apply X W1 W2 W3 x0 x1 x2 x3 a p r (fun k => h0 r k a p ha hp) (fun k f => h1 k f a ha)
    (fun k f => h2 k f a ha) (fun f d => h3 f d a ha) u d

/-! ## The index maps over the grid

Point t of the 8 × 33 grid is (expert t / 33, row tile t % 33). The buffer and output windows sit at block
(t / 33, t % 33, 0); the three weight windows at block (t / 33, 0, 0). Decided once over the 264 points. -/

theorem idx_facts : ∀ t : Fin cfg0.N,
    win0_0.index t (0 : Fin 3) = t.val / 33 ∧ win0_0.index t (1 : Fin 3) = t.val % 33 ∧ win0_0.index t (2 : Fin 3) = 0
    ∧ win0_1.index t (0 : Fin 3) = t.val / 33 ∧ win0_1.index t (1 : Fin 3) = 0 ∧ win0_1.index t (2 : Fin 3) = 0
    ∧ win0_2.index t (0 : Fin 3) = t.val / 33 ∧ win0_2.index t (1 : Fin 3) = 0 ∧ win0_2.index t (2 : Fin 3) = 0
    ∧ win0_3.index t (0 : Fin 3) = t.val / 33 ∧ win0_3.index t (1 : Fin 3) = 0 ∧ win0_3.index t (2 : Fin 3) = 0
    ∧ win0_4.index t (0 : Fin 3) = t.val / 33 ∧ win0_4.index t (1 : Fin 3) = t.val % 33 ∧ win0_4.index t (2 : Fin 3) = 0 :=
  (by decide +kernel : ∀ t : Fin grid0.N, _)

theorem hz : (![0, 0, 0] : Fin 3 → Nat) = fun _ => 0 := funext fun a => by fin_cases a <;> rfl

/-! ## The windows' blocks read off an array

A block's element sits in its array, on each axis, at block index × block size + its coordinate in the block. The
array is any function of the array's indices: its contents play no part. -/

/-- The buffer window's block at point t, read off an array f: rows 128 (t % 33) … 128 (t % 33) + 127 of expert
    t / 33's slab. -/
theorem read_blk0 (t : Fin cfg0.N) (f : S8x4224x1024.Idx → EReal) (y : S1x128x1024.Idx) (i : S8x4224x1024.Idx)
    (h0 : (i 0).val = t.val / 33) (h1 : (i 1).val = 128 * (t.val % 33) + (y 1).val) (h2 : (i 2).val = (y 2).val) :
    (((cfg0.win 0).blk t).view.read (Elt Ideal) f : Vec Ideal S1x128x1024 .bf16) y = f i := by
  obtain ⟨e0, e1, e2, -⟩ := idx_facts t
  have hy0 : (y 0).val < 1 := (y 0).isLt
  show f (((cfg0.win 0).blk t).view.emb y) = f i
  refine congrArg f (funext fun a => Fin.ext ?_)
  match a with
  | ⟨0, _⟩ => show win0_0.index t (0 : Fin 3) * 1 + 1 * (y 0).val = (i 0).val; omega
  | ⟨1, _⟩ => show win0_0.index t (1 : Fin 3) * 128 + 1 * (y 1).val = (i 1).val; omega
  | ⟨2, _⟩ => show win0_0.index t (2 : Fin 3) * 1024 + 1 * (y 2).val = (i 2).val; omega

/-- The first weight window's block at point t: the whole matrix of expert t / 33. -/
theorem read_blk1 (t : Fin cfg0.N) (f : S8x1024x4096.Idx → EReal) (y : S1x1024x4096.Idx) (i : S8x1024x4096.Idx)
    (h0 : (i 0).val = t.val / 33) (h1 : (i 1).val = (y 1).val) (h2 : (i 2).val = (y 2).val) :
    (((cfg0.win 1).blk t).view.read (Elt Ideal) f : Vec Ideal S1x1024x4096 .bf16) y = f i := by
  obtain ⟨-, -, -, e0, e1, e2, -⟩ := idx_facts t
  have hy0 : (y 0).val < 1 := (y 0).isLt
  show f (((cfg0.win 1).blk t).view.emb y) = f i
  refine congrArg f (funext fun a => Fin.ext ?_)
  match a with
  | ⟨0, _⟩ => show win0_1.index t (0 : Fin 3) * 1 + 1 * (y 0).val = (i 0).val; omega
  | ⟨1, _⟩ => show win0_1.index t (1 : Fin 3) * 1024 + 1 * (y 1).val = (i 1).val; omega
  | ⟨2, _⟩ => show win0_1.index t (2 : Fin 3) * 4096 + 1 * (y 2).val = (i 2).val; omega

/-- The second weight window's likewise. -/
theorem read_blk2 (t : Fin cfg0.N) (f : S8x1024x4096.Idx → EReal) (y : S1x1024x4096.Idx) (i : S8x1024x4096.Idx)
    (h0 : (i 0).val = t.val / 33) (h1 : (i 1).val = (y 1).val) (h2 : (i 2).val = (y 2).val) :
    (((cfg0.win 2).blk t).view.read (Elt Ideal) f : Vec Ideal S1x1024x4096 .bf16) y = f i := by
  obtain ⟨-, -, -, -, -, -, e0, e1, e2, -⟩ := idx_facts t
  have hy0 : (y 0).val < 1 := (y 0).isLt
  show f (((cfg0.win 2).blk t).view.emb y) = f i
  refine congrArg f (funext fun a => Fin.ext ?_)
  match a with
  | ⟨0, _⟩ => show win0_2.index t (0 : Fin 3) * 1 + 1 * (y 0).val = (i 0).val; omega
  | ⟨1, _⟩ => show win0_2.index t (1 : Fin 3) * 1024 + 1 * (y 1).val = (i 1).val; omega
  | ⟨2, _⟩ => show win0_2.index t (2 : Fin 3) * 4096 + 1 * (y 2).val = (i 2).val; omega

/-- The third weight window's block: the whole third matrix of expert t / 33. -/
theorem read_blk3 (t : Fin cfg0.N) (f : S8x4096x1024.Idx → EReal) (y : S1x4096x1024.Idx) (i : S8x4096x1024.Idx)
    (h0 : (i 0).val = t.val / 33) (h1 : (i 1).val = (y 1).val) (h2 : (i 2).val = (y 2).val) :
    (((cfg0.win 3).blk t).view.read (Elt Ideal) f : Vec Ideal S1x4096x1024 .bf16) y = f i := by
  obtain ⟨-, -, -, -, -, -, -, -, -, e0, e1, e2, -⟩ := idx_facts t
  have hy0 : (y 0).val < 1 := (y 0).isLt
  show f (((cfg0.win 3).blk t).view.emb y) = f i
  refine congrArg f (funext fun a => Fin.ext ?_)
  match a with
  | ⟨0, _⟩ => show win0_3.index t (0 : Fin 3) * 1 + 1 * (y 0).val = (i 0).val; omega
  | ⟨1, _⟩ => show win0_3.index t (1 : Fin 3) * 4096 + 1 * (y 1).val = (i 1).val; omega
  | ⟨2, _⟩ => show win0_3.index t (2 : Fin 3) * 1024 + 1 * (y 2).val = (i 2).val; omega

/-- The output window's block at point t read off an array f, at a block index: f at the index's place in the array. -/
theorem read_blk4 (t : Fin cfg0.N) (f : S8x4224x1024.Idx → EReal) (j : ((cfg0.win 4).xblock (grid0.coords t)).Idx) :
    ((cfg0.win 4).blk t).view.read (Elt Ideal) f j = f (((cfg0.win 4).blk t).view.emb j) := rfl

/-- Point t writes back block t of `G` of the four arrays as the region finds them. -/
theorem flushed_eq (c : Dev nD) (t : Fin cfg0.N) :
    (dats (F := Ideal) m 0 c).flushed 4 t
      = ((cfg0.win 4).blk t).view.read (Elt Ideal)
          (G (V m c main_v76) (V m c main_v77) (V m c main_v78) (V m c main_v79)) := by
  show (cfg0.win 4).cut (grid0.coords t) ((dats m 0 c).after 4 t) = _
  rw [after0_4]
  unfold out0_4
  rw [View.canon_unit_zero hz]
  simp only [View.ld_unit_zero (S := S1x128x1024) hz, View.ld_unit_zero (S := S1x1024x4096) hz,
    View.ld_unit_zero (S := S1x4096x1024) hz]
  obtain ⟨-, -, -, -, -, -, -, -, -, -, -, -, e0, e1, e2⟩ := idx_facts t
  funext j
  have hj0 : (j 0).val < 1 := (j 0).isLt
  refine Eq.trans ?_ (read_blk4 t (G (V m c main_v76) (V m c main_v77) (V m c main_v78) (V m c main_v79)) j).symm
  refine point_apply (V m c main_v76) (V m c main_v77) (V m c main_v78) (V m c main_v79)
    (iblk m c 0 t) (iblk m c 1 t) (iblk m c 2 t) (iblk m c 3 t) (t.val / 33) (t.val % 33) ?_ ?_ ?_ ?_
    ((cfg0.win 4).xinj (grid0.coords t) j) (((cfg0.win 4).blk t).view.emb j) ?_ ?_ ?_
  · exact fun r k a p ha hp => read_blk0 t (V m c main_v76) (ix3 (0 : Fin 1) r k) (ix3 a p k) ha hp rfl
  · exact fun k f a ha => read_blk1 t (V m c main_v77) (ix3 (0 : Fin 1) k f) (ix3 a k f) ha rfl rfl
  · exact fun k f a ha => read_blk2 t (V m c main_v78) (ix3 (0 : Fin 1) k f) (ix3 a k f) ha rfl rfl
  · exact fun f d a ha => read_blk3 t (V m c main_v79) (ix3 (0 : Fin 1) f d) (ix3 a f d) ha rfl rfl
  · show win0_4.index t (0 : Fin 3) * 1 + 1 * (j 0).val = t.val / 33; omega
  · show win0_4.index t (1 : Fin 3) * 128 + 1 * (j 1).val = 128 * (t.val % 33) + (j 1).val; omega
  · show win0_4.index t (2 : Fin 3) * 1024 + 1 * (j 2).val = (j 2).val; omega

/-- An index of the output array is in point t's block iff each coordinate is in the block's range on its axis. -/
theorem mem_blk (t : Fin cfg0.N) (i : S8x4224x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v80).slice (win0_4.rect t)).set ↔ _
  rw [View.set_slice_whole, Rect.mem_set_unit]
  exact Iff.rfl

/-- Row p of expert e lies in the block of point 33 e + p / 128: the 8 × 33 blocks tile the output. -/
theorem cover (i : S8x4224x1024.Idx) :
    ∃ t : Fin cfg0.N, (cfg0.win 4).flush t = true ∧ i ∈ ((cfg0.win 4).blk t).view.set := by
  have h0 : (i 0).val < 8 := (i 0).isLt
  have h1 : (i 1).val < 4224 := (i 1).isLt
  have h2 : (i 2).val < 1024 := (i 2).isLt
  have hN : grid0.N = 264 := N_0
  obtain ⟨t, ht⟩ : ∃ t : Fin cfg0.N, t.val = 33 * (i 0).val + (i 1).val / 128 :=
    ⟨⟨33 * (i 0).val + (i 1).val / 128, by show _ < grid0.N; omega⟩, rfl⟩
  obtain ⟨-, -, -, -, -, -, -, -, -, -, -, -, e0, e1, e2⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 1024 ≤ (i 2).val ∧ (i 2).val < win0_4.index t (2 : Fin 3) * 1024 + 1024
    omega

/-- The output array after the run is `G` of the four operand arrays. -/
theorem arrAt4_eq (c : Dev nD) :
    (dats (F := Ideal) m 0 c).arrAt 4 cfg0.N = G (V m c main_v76) (V m c main_v77) (V m c main_v78) (V m c main_v79) :=
  (dats m 0 c).arrAt_eq_of_cover 4 (G (V m c main_v76) (V m c main_v77) (V m c main_v78) (V m c main_v79))
    (fun t _ => flushed_eq m c t) cover

/-- Read at (e, p, d): the row function of row p of expert e's slab over expert e's weights. -/
theorem arrAt4_apply (c : Dev nD) (e : Fin 8) (p : Fin 4224) (d : Fin 1024) :
    ((dats (F := Ideal) m 0 c).arrAt 4 cfg0.N : S8x4224x1024.Idx → EReal) (ix3 e p d)
      = rowFFN (fun k => (V m c main_v76 : S8x4224x1024.Idx → EReal) (ix3 e p k))
          (fun k f => (V m c main_v77 : S8x1024x4096.Idx → EReal) (ix3 e k f))
          (fun k f => (V m c main_v78 : S8x1024x4096.Idx → EReal) (ix3 e k f))
          (fun f d' => (V m c main_v79 : S8x4096x1024.Idx → EReal) (ix3 e f d')) d :=
  congrFun (arrAt4_eq m c) (ix3 e p d)

end Cert.KernelIdeal.KValue

end
-- ==== Proof.KHost.lean ====
import proofs.«110229_j18451179504175_1_alg».proof.Proof.Gen.KernelIdeal.Frame
import proofs.«110229_j18451179504175_1_alg».proof.Proof.Spec
import Idealize.ShloMosaic.Lib.StableHlo.Run

/-!
  What core c's buffers hold when the region is entered, as functions of the argument arrays.

  Before the region the program runs 109 host operations in seven stretches: the flattening of the expert ids
  and weights and the token of each assignment; the stable argsort of the ids; the gathers of token, expert and
  weight at each sorted position; the clip of the ids; the count of each expert's assignments; the cumulative
  sum of the counts; and last the slot of each sorted position inside its expert's segment, its validity and
  clamp, the dispatch of the tokens' feature rows into the (expert, slot) rows of a zero buffer, and the
  rounding of the three weight arrays to the narrow format. Each statement below reads one buffer after all of
  them and names its contents by the shared host functions. The reads up to the counts are taken over the whole
  run at once. The cumulative sum and the last stretch are read on their own, from any contents, and chained:
  running two lists of operations in turn is running their concatenation, and an operation changes only the
  buffer it writes.
-/

noncomputable section

namespace Cert.KernelIdeal.KHost

open Idealize.ShloMosaic Idealize.ShloMosaic.ValueIdx Idealize.ShloMosaic.TcCoe Idealize.SL.Sem
open Idealize.ShloMosaic.StableHlo
open Cert.KernelIdeal Cert.KernelIdeal.Gen
open scoped BigOperators

variable (m : (ℓ : Loc nD τ sig) → Buf (Elt Ideal) ℓ) (c : Dev nD)

abbrev A0 : FVec Ideal S8192x1024 .f32 := m ((c.tc : Thread nD τ).loc main_arg0)
abbrev A1 : IVec S8192x2 32 := m ((c.tc : Thread nD τ).loc main_arg1)
abbrev A2 : FVec Ideal S8192x2 .f32 := m ((c.tc : Thread nD τ).loc main_arg2)
abbrev A3 : FVec Ideal S8x1024x4096 .f32 := m ((c.tc : Thread nD τ).loc main_arg3)
abbrev A4 : FVec Ideal S8x1024x4096 .f32 := m ((c.tc : Thread nD τ).loc main_arg4)
abbrev A5 : FVec Ideal S8x4096x1024 .f32 := m ((c.tc : Thread nD τ).loc main_arg5)

/-- A concatenation of two parts depends on each part only through its values: equal parts give equal
    concatenations (the side condition reads the parts' shapes alone). -/
theorem concatenate_pair_congr {α : Type} {t : Shape} {a : Fin t.rank} {s₁ s₂ : Shape}
    {x x' : s₁.Idx → α} {y y' : s₂.Idx → α} {h : Shape.Concatenates [s₁, s₂] t a} (ex : x = x') (ey : y = y') :
    concatenate t a [⟨s₁, x⟩, ⟨s₂, y⟩] h = concatenate t a [⟨s₁, x'⟩, ⟨s₂, y'⟩] h := by
  subst ex; subst ey; rfl

attribute [local congr] concatenate_pair_congr

/-- Running two lists of operations in turn is running their concatenation. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-! ## Reads over the whole run -/

/-- The token at each sorted position. -/
theorem V_v12 : (V m c main_v12 : Spec.S16384.Idx → BitVec 32) = Spec.stok (A1 m c) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The expert at each sorted position. -/
theorem V_v19 : (V m c main_v19 : Spec.S16384.Idx → BitVec 32) = Spec.seid (A1 m c) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The weight at each sorted position. -/
theorem V_v26 : (V m c main_v26 : Spec.S16384.Idx → EReal) = Spec.swts (F := Ideal) (A1 m c) (A2 m c) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The three weight arrays, rounded to the narrow format. -/
theorem V_v77 : (V m c main_v77 : S8x1024x4096.Idx → EReal) = truncf .bf16 (A3 m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

theorem V_v78 : (V m c main_v78 : S8x1024x4096.Idx → EReal) = truncf .bf16 (A4 m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

theorem V_v79 : (V m c main_v79 : S8x4096x1024.Idx → EReal) = truncf .bf16 (A5 m c) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-! ## The run cut before the cumulative sum -/

/-- Core c's contents before the cumulative sum: the first five stretches run from the launch contents. -/
abbrev W5 : Valuation τ sig (Elt Ideal) :=
  after hostOps0_4 (after hostOps0_3 (after hostOps0_2 (after hostOps0_1 (after hostOps0 (fun b => m (c, b))))))

/-- The whole run is the last two stretches run from there. -/
theorem V0_cut : V0 m c = after hostOps0_6 (after hostOps0_5 (W5 m c)) := by
  dsimp only [Gen.V0, W5]
  simp only [List.flatten_cons, List.flatten_nil, List.append_nil, after_append]

/-- There the sorted tokens, the sorted experts, the counts, the zero that starts the segment starts, and the
    token features as launched. -/
theorem W5_v12 : W5 m c (Proc.devRef .tc main_v12) = Spec.stok (A1 m c) := by
  dsimp only [W5]
  simp only [Gen.hostOps0, Gen.hostOps0_1, Gen.hostOps0_2, Gen.hostOps0_3, Gen.hostOps0_4]
  after_results_simp
  rfl

theorem W5_v19 : W5 m c (Proc.devRef .tc main_v19) = Spec.seid (A1 m c) := by
  dsimp only [W5]
  simp only [Gen.hostOps0, Gen.hostOps0_1, Gen.hostOps0_2, Gen.hostOps0_3, Gen.hostOps0_4]
  after_results_simp
  rfl

theorem W5_v36 : W5 m c (Proc.devRef .tc main_v36) = Spec.counts (A1 m c) := by
  dsimp only [W5]
  simp only [Gen.hostOps0, Gen.hostOps0_1, Gen.hostOps0_2, Gen.hostOps0_3, Gen.hostOps0_4]
  after_results_simp
  rfl

theorem W5_v37 : W5 m c (Proc.devRef .tc main_v37)
    = broadcastInDim Spec.S1 ![] Spec.bc_S_1 (constantI Spec.S_ 32 0#32) := by
  dsimp only [W5]
  simp only [Gen.hostOps0, Gen.hostOps0_1, Gen.hostOps0_2, Gen.hostOps0_3, Gen.hostOps0_4]
  after_results_simp

theorem W5_arg0 : W5 m c (Proc.devRef .tc main_arg0) = A0 m c := by
  dsimp only [W5]
  simp only [Gen.hostOps0, Gen.hostOps0_1, Gen.hostOps0_2, Gen.hostOps0_3, Gen.hostOps0_4]
  after_results_simp

/-! ## The cumulative sum, read from any contents -/

attribute [local irreducible] Host.reduceWindow in
/-- Its three operations leave the windowed sum (window 8, seven zeros before) of the counts found there. -/
theorem cums_read (W : Valuation τ sig (Elt Ideal)) :
    after hostOps0_5 W (Proc.devRef .tc main_v38)
      = Host.reduceWindow IntOp.addi ![8] ![1] ![7] ![0] (W (Proc.devRef .tc main_v36))
          (broadcastInDim Spec.S_ ![] Spec.bc_S_S (constantI Spec.S_ 32 0#32)) Spec.rw8 Spec.hS_ := by
  simp only [Gen.hostOps0_5]
  after_results_simp
  rfl

/-- The cumulative sums, from the counts. -/
theorem cums_of (W : Valuation τ sig (Elt Ideal)) (a1 : IVec S8192x2 32)
    (h36 : W (Proc.devRef .tc main_v36) = Spec.counts a1) :
    after hostOps0_5 W (Proc.devRef .tc main_v38) = Spec.cums a1 := by
  rw [cums_read, h36]
  rfl

/-- The cumulative sum writes none of these four buffers. -/
theorem keep5_v37 (W : Valuation τ sig (Elt Ideal)) :
    after hostOps0_5 W (Proc.devRef .tc main_v37) = W (Proc.devRef .tc main_v37) := by
  simp only [Gen.hostOps0_5]
  after_results_simp

theorem keep5_v19 (W : Valuation τ sig (Elt Ideal)) :
    after hostOps0_5 W (Proc.devRef .tc main_v19) = W (Proc.devRef .tc main_v19) := by
  simp only [Gen.hostOps0_5]
  after_results_simp

theorem keep5_v12 (W : Valuation τ sig (Elt Ideal)) :
    after hostOps0_5 W (Proc.devRef .tc main_v12) = W (Proc.devRef .tc main_v12) := by
  simp only [Gen.hostOps0_5]
  after_results_simp

theorem keep5_arg0 (W : Valuation τ sig (Elt Ideal)) :
    after hostOps0_5 W (Proc.devRef .tc main_arg0) = W (Proc.devRef .tc main_arg0) := by
  simp only [Gen.hostOps0_5]
  after_results_simp

/-! ## The last stretch, read from any contents -/

attribute [local irreducible] Host.gather Host.scatter Host.reduceWindow Host.sort2 in
/-- From contents that hold the zero of the segment starts, the cumulative sums and the sorted expert ids: whether
    the slot of each sorted position is below the capacity. -/
theorem valid_of (W : Valuation τ sig (Elt Ideal)) (a1 : IVec S8192x2 32)
    (h37 : W (Proc.devRef .tc main_v37) = broadcastInDim Spec.S1 ![] Spec.bc_S_1 (constantI Spec.S_ 32 0#32))
    (h38 : W (Proc.devRef .tc main_v38) = Spec.cums a1)
    (h19 : W (Proc.devRef .tc main_v19) = Spec.seid a1) :
    after hostOps0_6 W (Proc.devRef .tc main_v51) = Spec.valid a1 := by
  simp only [Gen.hostOps0_6]
  after_results_simp
  rw [h37, h38, h19]
  rfl

attribute [local irreducible] Host.gather Host.scatter Host.reduceWindow Host.sort2 in
/-- Likewise the clamped slot. -/
theorem posC_of (W : Valuation τ sig (Elt Ideal)) (a1 : IVec S8192x2 32)
    (h37 : W (Proc.devRef .tc main_v37) = broadcastInDim Spec.S1 ![] Spec.bc_S_1 (constantI Spec.S_ 32 0#32))
    (h38 : W (Proc.devRef .tc main_v38) = Spec.cums a1)
    (h19 : W (Proc.devRef .tc main_v19) = Spec.seid a1) :
    after hostOps0_6 W (Proc.devRef .tc main_v53) = Spec.posC a1 := by
  simp only [Gen.hostOps0_6]
  after_results_simp
  rw [h37, h38, h19]
  rfl

attribute [local irreducible] Host.gather Host.scatter Host.reduceWindow Host.sort2 in
/-- Likewise the dispatch buffer: the sorted tokens' feature rows, rounded to the narrow format, written at their
    (expert, slot) rows of the zero buffer. -/
theorem dispatch_of (W : Valuation τ sig (Elt Ideal)) (a0 : FVec Ideal S8192x1024 .f32) (a1 : IVec S8192x2 32)
    (h37 : W (Proc.devRef .tc main_v37) = broadcastInDim Spec.S1 ![] Spec.bc_S_1 (constantI Spec.S_ 32 0#32))
    (h38 : W (Proc.devRef .tc main_v38) = Spec.cums a1)
    (h19 : W (Proc.devRef .tc main_v19) = Spec.seid a1)
    (h12 : W (Proc.devRef .tc main_v12) = Spec.stok a1)
    (h0 : W (Proc.devRef .tc main_arg0) = a0) :
    (after hostOps0_6 W (Proc.devRef .tc main_v76) : S8x4224x1024.Idx → EReal)
      = Host.scatter scatter_S8x4224x1024_S16384x2_S16384x1024_1_01_01_1 (fun _ b => b) (broadcastInDim S8x4224x1024 ![] bcast_S_S8x4224x1024 (constant (F := Ideal) S_ .bf16 0x0000#16))
          (Spec.idx2 4224#32 (Spec.seid a1) (Spec.posC a1))
          (truncf .bf16 (Spec.xg (F := Ideal) a0 (Spec.stok a1)) bitsLt_bf16_f32) := by
  simp only [Gen.hostOps0_6]
  after_results_simp
  rw [h37, h38, h19, h12, h0]
  rfl

/-! ## The three reads that pass through the cumulative sum -/

/-- What the contents after the cumulative sum hold at the four buffers the last stretch reads. -/
theorem mid_v37 : after hostOps0_5 (W5 m c) (Proc.devRef .tc main_v37)
    = broadcastInDim Spec.S1 ![] Spec.bc_S_1 (constantI Spec.S_ 32 0#32) :=
  (keep5_v37 _).trans (W5_v37 m c)

theorem mid_v38 : after hostOps0_5 (W5 m c) (Proc.devRef .tc main_v38) = Spec.cums (A1 m c) :=
  cums_of _ _ (W5_v36 m c)

theorem mid_v19 : after hostOps0_5 (W5 m c) (Proc.devRef .tc main_v19) = Spec.seid (A1 m c) :=
  (keep5_v19 _).trans (W5_v19 m c)

theorem mid_v12 : after hostOps0_5 (W5 m c) (Proc.devRef .tc main_v12) = Spec.stok (A1 m c) :=
  (keep5_v12 _).trans (W5_v12 m c)

theorem mid_arg0 : after hostOps0_5 (W5 m c) (Proc.devRef .tc main_arg0) = A0 m c :=
  (keep5_arg0 _).trans (W5_arg0 m c)

/-- The slot of each sorted position is below the capacity. -/
theorem V_v51 : (V m c main_v51 : Spec.S16384.Idx → BitVec 1) = Spec.valid (A1 m c) :=
  (congrFun (V0_cut m c) (Proc.devRef .tc main_v51)).trans
    (valid_of _ _ (mid_v37 m c) (mid_v38 m c) (mid_v19 m c))

/-- The clamped slot. -/
theorem V_v53 : (V m c main_v53 : Spec.S16384.Idx → BitVec 32) = Spec.posC (A1 m c) :=
  (congrFun (V0_cut m c) (Proc.devRef .tc main_v53)).trans
    (posC_of _ _ (mid_v37 m c) (mid_v38 m c) (mid_v19 m c))

/-- The dispatch buffer. -/
theorem V_v76 : (V m c main_v76 : S8x4224x1024.Idx → EReal) = Host.scatter scatter_S8x4224x1024_S16384x2_S16384x1024_1_01_01_1 (fun _ b => b) (broadcastInDim S8x4224x1024 ![] bcast_S_S8x4224x1024 (constant (F := Ideal) S_ .bf16 0x0000#16)) (Spec.idx2 4224#32 (Spec.seid (A1 m c)) (Spec.posC (A1 m c))) (truncf .bf16 (Spec.xg (F := Ideal) (A0 m c) (Spec.stok (A1 m c))) bitsLt_bf16_f32) :=
  (congrFun (V0_cut m c) (Proc.devRef .tc main_v76)).trans
    (dispatch_of _ _ _ (mid_v37 m c) (mid_v38 m c) (mid_v19 m c) (mid_v12 m c) (mid_arg0 m c))

end Cert.KernelIdeal.KHost

end
-- ==== Proof.KTail.lean ====
/-
  The kernel program's result after the run, as a function of what the region finds and of the region's output array:
  the lines after the region wrap the (expert, row) index pairs into their axes, gather the region's output rows at
  them, zero the weights of the overflowing assignments, scale each gathered row by its weight and add it into its
  token's row. Read off the run's final memory, this is the shared combine applied to the gathered rows.
-/
import proofs.«110229_j18451179504175_1_alg».proof.Proof.Gen.KernelIdeal.Frame
import proofs.«110229_j18451179504175_1_alg».proof.Proof.Spec
import Idealize.ShloMosaic.Lib.StableHlo.Run
import Idealize.ShloMosaic.Lib.Pipeline.FrameSuffix

set_option maxRecDepth 16384

noncomputable section

namespace Cert.KernelIdeal.KTail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The concatenation of two vectors, its shape relation stated on the two shapes alone (so that the relation does not
    mention the vectors, and each vector can be rewritten in place). -/
def cat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- A concatenation of two vectors is `cat2` of them. -/
theorem cat2_eq {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

/-- The program's result: the combine of the gathered rows of the region's output array. -/
def KOut (c : Dev nD) : FVec Ideal S8192x1024 .f32 :=
  Spec.tail (F := Ideal) (V m c main_v12 : Spec.S16384.Idx → BitVec 32)
    (Spec.wsel (F := Ideal) (V m c main_v51 : Spec.S16384.Idx → BitVec 1) (V m c main_v26 : Spec.S16384.Idx → EReal))
    (Host.gather gather_S8x4224x1024_S16384x2_S16384x1024_1_01_n_n_01_1_111024
      ((dats (F := Ideal) m 0 c).arrAt 4 cfg0.N : S8x4224x1024.Idx → EReal)
      (Spec.idx2 4224#32 (V m c main_v19 : Spec.S16384.Idx → BitVec 32) (V m c main_v53 : Spec.S16384.Idx → BitVec 32)))

/-- After the lines that follow the region, the result buffer holds `KOut`. -/
theorem tail_v106 (c : Dev nD) :
    Pipeline.afterTail₀ cfgs (dats (F := Ideal) m) 0 (V0 m) [hostOps1, hostOps1_1, hostOps1_2] c main_v106 = KOut m c := by
  unfold Pipeline.afterTail₀
  show StableHlo.after (List.flatten [hostOps1, hostOps1_1, hostOps1_2]) _ (Proc.devRef .tc main_v106) = _
  simp only [hostOps1, hostOps1_1, hostOps1_2, List.flatten_cons, List.flatten_nil, List.append_nil, List.cons_append, List.nil_append]
  -- each line's result at its own buffer is its function of its operands' contents, at any other buffer what was there
  after_results_simp
  -- the same inside the two columns of the index table
  simp (disch := decide) only [↓cat2_eq,
      StableHlo.nullary_result', StableHlo.unary_result', StableHlo.binary_result', StableHlo.ternary_result',
      StableHlo.nullary_result_ne', StableHlo.unary_result_ne', StableHlo.binary_result_ne', StableHlo.ternary_result_ne']
  -- what the lines read: the region's output array as the run leaves it, and five buffers the region does not touch
  have e80 : Pipeline.withArrays (cfgs 0).spec c (V0 m c) (fun w => (dats (F := Ideal) m 0 c).arrAt w (cfgs 0).N) (Proc.devRef .tc main_v80)
      = (dats (F := Ideal) m 0 c).arrAt 4 cfg0.N := Pipeline.withArrays_arr spec0 launch0.win.arr_inj c _ _ 4
  rw [e80,
    Pipeline.withArrays_of_ne _ c (V0 m c) _ main_v12 (by exact (by decide : ∀ w, Pipeline.arrRef spec0 w ≠ main_v12)),
    Pipeline.withArrays_of_ne _ c (V0 m c) _ main_v19 (by exact (by decide : ∀ w, Pipeline.arrRef spec0 w ≠ main_v19)),
    Pipeline.withArrays_of_ne _ c (V0 m c) _ main_v26 (by exact (by decide : ∀ w, Pipeline.arrRef spec0 w ≠ main_v26)),
    Pipeline.withArrays_of_ne _ c (V0 m c) _ main_v51 (by exact (by decide : ∀ w, Pipeline.arrRef spec0 w ≠ main_v51)),
    Pipeline.withArrays_of_ne _ c (V0 m c) _ main_v53 (by exact (by decide : ∀ w, Pipeline.arrRef spec0 w ≠ main_v53))]
  -- both sides are now the same operations of the same six vectors: as variables, the equation holds by unfolding
  unfold KOut Spec.tail Spec.wsel Spec.idx2 Spec.col Spec.wrapV cat2 V
  generalize V0 m c (Proc.devRef .tc main_v12) = v12
  generalize V0 m c (Proc.devRef .tc main_v19) = v19
  generalize V0 m c (Proc.devRef .tc main_v26) = v26
  generalize V0 m c (Proc.devRef .tc main_v51) = v51
  generalize V0 m c (Proc.devRef .tc main_v53) = v53
  generalize (dats (F := Ideal) m 0 c).arrAt 4 cfg0.N = A
  rfl

/-- Every weakly fair execution terminates with the result buffer at `KOut` and the six argument arrays as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v106) = KOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v106 (Pipeline.mem_restRefs_of main_v106 (by decide) (by decide))).trans (tail_v106 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.KTail

end
-- ==== Proof.RefOps.lean ====
/-
  The reference program's @main as lists of its 154 host operations, in order, cut into segments: each module-local
  function's body (the argsort, the clip, the cumulative sum, silu, the select) stands at its call over the call's
  buffer record. opsP0 / opsP1 / opsP2 are the three windows the program's @main is printed in.
-/
import proofs.«110229_j18451179504175_1_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Facts₀ Facts

variable {F : FTy → Type} [FloatOps F] [Facts]

/-- Segment A: 35 operations. -/
abbrev opsA : List (HloOp τ sig (Elt F)) :=
  [ StableHlo.reshape main_arg1 main_v0 rfl shapeCasts_S8192x2_S16384,
    StableHlo.reshape main_arg2 main_v1 rfl shapeCasts_S8192x2_S16384,
    StableHlo.nullary main_v2 (iotaInDim S8192 32 0),
    StableHlo.unary main_v2 main_v3 (broadcastInDim S8192x2 ![0] bcast_S8192_S8192x2_0 : (⟨S8192, .i32⟩ : BufTy).Contents (Elt F) → (⟨S8192x2, .i32⟩ : BufTy).Contents (Elt F)),
    StableHlo.reshape main_v3 main_v4 rfl shapeCasts_S8192x2_S16384,
    StableHlo.TRef.nullary main_call0.v0 (iotaInDim S16384 32 0),
    StableHlo.TRef.binary (.of main_v0) main_call0.v0 main_call0.v1_0 (fun x y => (Host.sort2 S16384 0 comparator_i32_i32_d0 x y).1),
    StableHlo.TRef.binary (.of main_v0) main_call0.v0 main_call0.v1_1 (fun x y => (Host.sort2 S16384 0 comparator_i32_i32_d0 x y).2),
    StableHlo.nullary main_c (constantI S_ 32 0#32),
    StableHlo.unary main_c main_v6 (broadcastInDim S16384 ![] bcast_S_S16384 : (⟨S_, .i32⟩ : BufTy).Contents (Elt F) → (⟨S16384, .i32⟩ : BufTy).Contents (Elt F)),
    StableHlo.binary main_v5 main_v6 main_v7 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 16384#32),
    StableHlo.unary main_c_0 main_v8 (broadcastInDim S16384 ![] bcast_S_S16384 : (⟨S_, .i32⟩ : BufTy).Contents (Elt F) → (⟨S16384, .i32⟩ : BufTy).Contents (Elt F)),
    StableHlo.binary main_v5 main_v8 main_v9 (addi : (⟨S16384, .i32⟩ : BufTy).Contents (Elt F) → (⟨S16384, .i32⟩ : BufTy).Contents (Elt F) → (⟨S16384, .i32⟩ : BufTy).Contents (Elt F)),
    StableHlo.ternary main_v7 main_v9 main_v5 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v10 main_v11 (broadcastInDim S16384x1 ![0] bcast_S16384_S16384x1_0 : (⟨S16384, .i32⟩ : BufTy).Contents (Elt F) → (⟨S16384x1, .i32⟩ : BufTy).Contents (Elt F)),
    StableHlo.binary main_v4 main_v11 main_v12 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_1 (constantI S_ 32 0#32),
    StableHlo.unary main_c_1 main_v13 (broadcastInDim S16384 ![] bcast_S_S16384 : (⟨S_, .i32⟩ : BufTy).Contents (Elt F) → (⟨S16384, .i32⟩ : BufTy).Contents (Elt F)),
    StableHlo.binary main_v5 main_v13 main_v14 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 16384#32),
    StableHlo.unary main_c_2 main_v15 (broadcastInDim S16384 ![] bcast_S_S16384 : (⟨S_, .i32⟩ : BufTy).Contents (Elt F) → (⟨S16384, .i32⟩ : BufTy).Contents (Elt F)),
    StableHlo.binary main_v5 main_v15 main_v16 (addi : (⟨S16384, .i32⟩ : BufTy).Contents (Elt F) → (⟨S16384, .i32⟩ : BufTy).Contents (Elt F) → (⟨S16384, .i32⟩ : BufTy).Contents (Elt F)),
    StableHlo.ternary main_v14 main_v16 main_v5 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v17 main_v18 (broadcastInDim S16384x1 ![0] bcast_S16384_S16384x1_0 : (⟨S16384, .i32⟩ : BufTy).Contents (Elt F) → (⟨S16384x1, .i32⟩ : BufTy).Contents (Elt F)),
    StableHlo.binary main_v0 main_v18 main_v19 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_3 (constantI S_ 32 0#32),
    StableHlo.unary main_c_3 main_v20 (broadcastInDim S16384 ![] bcast_S_S16384 : (⟨S_, .i32⟩ : BufTy).Contents (Elt F) → (⟨S16384, .i32⟩ : BufTy).Contents (Elt F)),
    StableHlo.binary main_v5 main_v20 main_v21 (cmpi .slt : (⟨S16384, .i32⟩ : BufTy).Contents (Elt F) → (⟨S16384, .i32⟩ : BufTy).Contents (Elt F) → (⟨S16384, .i1⟩ : BufTy).Contents (Elt F)),
    StableHlo.nullary main_c_4 (constantI S_ 32 16384#32),
    StableHlo.unary main_c_4 main_v22 (broadcastInDim S16384 ![] bcast_S_S16384 : (⟨S_, .i32⟩ : BufTy).Contents (Elt F) → (⟨S16384, .i32⟩ : BufTy).Contents (Elt F)),
    StableHlo.binary main_v5 main_v22 main_v23 (addi : (⟨S16384, .i32⟩ : BufTy).Contents (Elt F) → (⟨S16384, .i32⟩ : BufTy).Contents (Elt F) → (⟨S16384, .i32⟩ : BufTy).Contents (Elt F)),
    StableHlo.ternary main_v21 main_v23 main_v5 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v24 main_v25 (broadcastInDim S16384x1 ![0] bcast_S16384_S16384x1_0 : (⟨S16384, .i32⟩ : BufTy).Contents (Elt F) → (⟨S16384x1, .i32⟩ : BufTy).Contents (Elt F)),
    StableHlo.binary main_v1 main_v25 main_v26 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)) ]

/-- Segment B1: 31 operations. -/
abbrev opsB1 : List (HloOp τ sig (Elt F)) :=
  [ StableHlo.nullary main_c_5 (constantI S_ 32 0#32),
    StableHlo.unary main_c_5 main_v27 (broadcastInDim S8 ![] bcast_S_S8 : (⟨S_, .i32⟩ : BufTy).Contents (Elt F) → (⟨S8, .i32⟩ : BufTy).Contents (Elt F)),
    StableHlo.nullary main_c_6 (constantI S_ 32 0#32),
    StableHlo.TRef.unary (.of main_c_6) main_call1.v0 id,
    StableHlo.TRef.unary main_call1.v0 main_call1.v1 (broadcastInDim S16384 ![] bcast_S_S16384),
    StableHlo.TRef.binary main_call1.v1 (.of main_v0) main_call1.v2 maxsi,
    StableHlo.nullary main_c_7 (constantI S_ 32 0#32),
    StableHlo.unary main_c_7 main_v29 (broadcastInDim S16384 ![] bcast_S_S16384 : (⟨S_, .i32⟩ : BufTy).Contents (Elt F) → (⟨S16384, .i32⟩ : BufTy).Contents (Elt F)),
    StableHlo.binary main_v28 main_v29 main_v30 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 8#32),
    StableHlo.unary main_c_8 main_v31 (broadcastInDim S16384 ![] bcast_S_S16384 : (⟨S_, .i32⟩ : BufTy).Contents (Elt F) → (⟨S16384, .i32⟩ : BufTy).Contents (Elt F)),
    StableHlo.binary main_v28 main_v31 main_v32 (addi : (⟨S16384, .i32⟩ : BufTy).Contents (Elt F) → (⟨S16384, .i32⟩ : BufTy).Contents (Elt F) → (⟨S16384, .i32⟩ : BufTy).Contents (Elt F)),
    StableHlo.ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v33 main_v34 (broadcastInDim S16384x1 ![0] bcast_S16384_S16384x1_0 : (⟨S16384, .i32⟩ : BufTy).Contents (Elt F) → (⟨S16384x1, .i32⟩ : BufTy).Contents (Elt F)),
    StableHlo.nullary main_c_9 (constantI S_ 32 1#32),
    StableHlo.unary main_c_9 main_v35 (broadcastInDim S16384 ![] bcast_S_S16384 : (⟨S_, .i32⟩ : BufTy).Contents (Elt F) → (⟨S16384, .i32⟩ : BufTy).Contents (Elt F)),
    StableHlo.ternary main_v27 main_v34 main_v35 main_v36 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)),
    StableHlo.nullary main_c_10 (constantI S_ 32 0#32),
    StableHlo.unary main_c_10 main_v37 (broadcastInDim S1 ![] bcast_S_S1 : (⟨S_, .i32⟩ : BufTy).Contents (Elt F) → (⟨S1, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v36) main_call2.call0.v0 main_call2.call0.v1 (fun x v => Host.reduceWindow IntOp.addi ![8] ![1] ![7] ![0] x v reduceWindows_S8_S8_w8s1p7_0 h_S_),
    StableHlo.unary main_v38 main_v39 ((extractStridedSlice S7 ![0] · slices_S8_S7_0) : (⟨S8, .i32⟩ : BufTy).Contents (Elt F) → (⟨S7, .i32⟩ : BufTy).Contents (Elt F)),
    StableHlo.binary main_v37 main_v39 main_v40 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)),
    StableHlo.nullary main_v41 (iotaInDim S16384 32 0),
    StableHlo.nullary main_c_11 (constantI S_ 32 0#32),
    StableHlo.unary main_c_11 main_v42 (broadcastInDim S16384 ![] bcast_S_S16384 : (⟨S_, .i32⟩ : BufTy).Contents (Elt F) → (⟨S16384, .i32⟩ : BufTy).Contents (Elt F)),
    StableHlo.binary main_v19 main_v42 main_v43 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 8#32),
    StableHlo.unary main_c_12 main_v44 (broadcastInDim S16384 ![] bcast_S_S16384 : (⟨S_, .i32⟩ : BufTy).Contents (Elt F) → (⟨S16384, .i32⟩ : BufTy).Contents (Elt F)),
    StableHlo.binary main_v19 main_v44 main_v45 (addi : (⟨S16384, .i32⟩ : BufTy).Contents (Elt F) → (⟨S16384, .i32⟩ : BufTy).Contents (Elt F) → (⟨S16384, .i32⟩ : BufTy).Contents (Elt F)) ]

/-- Segment B2: 10 operations. -/
abbrev opsB2 : List (HloOp τ sig (Elt F)) :=
  [ StableHlo.ternary main_v43 main_v45 main_v19 main_v46 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v46 main_v47 (broadcastInDim S16384x1 ![0] bcast_S16384_S16384x1_0 : (⟨S16384, .i32⟩ : BufTy).Contents (Elt F) → (⟨S16384x1, .i32⟩ : BufTy).Contents (Elt F)),
    StableHlo.binary main_v40 main_v47 main_v48 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
    StableHlo.binary main_v41 main_v48 main_v49 (subi : (⟨S16384, .i32⟩ : BufTy).Contents (Elt F) → (⟨S16384, .i32⟩ : BufTy).Contents (Elt F) → (⟨S16384, .i32⟩ : BufTy).Contents (Elt F)),
    StableHlo.nullary main_c_13 (constantI S_ 32 4096#32),
    StableHlo.unary main_c_13 main_v50 (broadcastInDim S16384 ![] bcast_S_S16384 : (⟨S_, .i32⟩ : BufTy).Contents (Elt F) → (⟨S16384, .i32⟩ : BufTy).Contents (Elt F)),
    StableHlo.binary main_v49 main_v50 main_v51 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 4096#32),
    StableHlo.unary main_c_14 main_v52 (broadcastInDim S16384 ![] bcast_S_S16384 : (⟨S_, .i32⟩ : BufTy).Contents (Elt F) → (⟨S16384, .i32⟩ : BufTy).Contents (Elt F)),
    StableHlo.binary main_v49 main_v52 main_v53 (minsi : (⟨S16384, .i32⟩ : BufTy).Contents (Elt F) → (⟨S16384, .i32⟩ : BufTy).Contents (Elt F) → (⟨S16384, .i32⟩ : BufTy).Contents (Elt F)) ]

/-- Segment C: 29 operations. -/
abbrev opsC : List (HloOp τ sig (Elt F)) :=
  [ StableHlo.nullary main_cst (constant S_ .f32 0x00000000#32),
    StableHlo.unary main_cst main_v54 (broadcastInDim S8x4097x1024 ![] bcast_S_S8x4097x1024 : (⟨S_, .f32⟩ : BufTy).Contents (Elt F) → (⟨S8x4097x1024, .f32⟩ : BufTy).Contents (Elt F)),
    StableHlo.nullary main_c_15 (constantI S_ 32 0#32),
    StableHlo.unary main_c_15 main_v55 (broadcastInDim S16384 ![] bcast_S_S16384 : (⟨S_, .i32⟩ : BufTy).Contents (Elt F) → (⟨S16384, .i32⟩ : BufTy).Contents (Elt F)),
    StableHlo.binary main_v12 main_v55 main_v56 (cmpi .slt : (⟨S16384, .i32⟩ : BufTy).Contents (Elt F) → (⟨S16384, .i32⟩ : BufTy).Contents (Elt F) → (⟨S16384, .i1⟩ : BufTy).Contents (Elt F)),
    StableHlo.nullary main_c_16 (constantI S_ 32 8192#32),
    StableHlo.unary main_c_16 main_v57 (broadcastInDim S16384 ![] bcast_S_S16384 : (⟨S_, .i32⟩ : BufTy).Contents (Elt F) → (⟨S16384, .i32⟩ : BufTy).Contents (Elt F)),
    StableHlo.binary main_v12 main_v57 main_v58 (addi : (⟨S16384, .i32⟩ : BufTy).Contents (Elt F) → (⟨S16384, .i32⟩ : BufTy).Contents (Elt F) → (⟨S16384, .i32⟩ : BufTy).Contents (Elt F)),
    StableHlo.ternary main_v56 main_v58 main_v12 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v59 main_v60 (broadcastInDim S16384x1 ![0] bcast_S16384_S16384x1_0 : (⟨S16384, .i32⟩ : BufTy).Contents (Elt F) → (⟨S16384x1, .i32⟩ : BufTy).Contents (Elt F)),
    StableHlo.binary main_arg0 main_v60 main_v61 ((fun x i => Host.gather gather_S8192x1024_S16384x1_S16384x1024_1_0_n_n_0_1_11024 x i) : (⟨S8192x1024, .f32⟩ : BufTy).Contents (Elt F) → (⟨S16384x1, .i32⟩ : BufTy).Contents (Elt F) → (⟨S16384x1024, .f32⟩ : BufTy).Contents (Elt F)),
    StableHlo.nullary main_c_17 (constantI S_ 32 0#32),
    StableHlo.unary main_c_17 main_v62 (broadcastInDim S16384 ![] bcast_S_S16384 : (⟨S_, .i32⟩ : BufTy).Contents (Elt F) → (⟨S16384, .i32⟩ : BufTy).Contents (Elt F)),
    StableHlo.binary main_v19 main_v62 main_v63 (cmpi .slt : (⟨S16384, .i32⟩ : BufTy).Contents (Elt F) → (⟨S16384, .i32⟩ : BufTy).Contents (Elt F) → (⟨S16384, .i1⟩ : BufTy).Contents (Elt F)),
    StableHlo.nullary main_c_18 (constantI S_ 32 8#32),
    StableHlo.unary main_c_18 main_v64 (broadcastInDim S16384 ![] bcast_S_S16384 : (⟨S_, .i32⟩ : BufTy).Contents (Elt F) → (⟨S16384, .i32⟩ : BufTy).Contents (Elt F)),
    StableHlo.binary main_v19 main_v64 main_v65 (addi : (⟨S16384, .i32⟩ : BufTy).Contents (Elt F) → (⟨S16384, .i32⟩ : BufTy).Contents (Elt F) → (⟨S16384, .i32⟩ : BufTy).Contents (Elt F)),
    StableHlo.ternary main_v63 main_v65 main_v19 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_19 (constantI S_ 32 0#32),
    StableHlo.unary main_c_19 main_v67 (broadcastInDim S16384 ![] bcast_S_S16384 : (⟨S_, .i32⟩ : BufTy).Contents (Elt F) → (⟨S16384, .i32⟩ : BufTy).Contents (Elt F)),
    StableHlo.binary main_v53 main_v67 main_v68 (cmpi .slt : (⟨S16384, .i32⟩ : BufTy).Contents (Elt F) → (⟨S16384, .i32⟩ : BufTy).Contents (Elt F) → (⟨S16384, .i1⟩ : BufTy).Contents (Elt F)),
    StableHlo.nullary main_c_20 (constantI S_ 32 4097#32),
    StableHlo.unary main_c_20 main_v69 (broadcastInDim S16384 ![] bcast_S_S16384 : (⟨S_, .i32⟩ : BufTy).Contents (Elt F) → (⟨S16384, .i32⟩ : BufTy).Contents (Elt F)),
    StableHlo.binary main_v53 main_v69 main_v70 (addi : (⟨S16384, .i32⟩ : BufTy).Contents (Elt F) → (⟨S16384, .i32⟩ : BufTy).Contents (Elt F) → (⟨S16384, .i32⟩ : BufTy).Contents (Elt F)),
    StableHlo.ternary main_v68 main_v70 main_v53 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v66 main_v72 (broadcastInDim S16384x1 ![0] bcast_S16384_S16384x1_0 : (⟨S16384, .i32⟩ : BufTy).Contents (Elt F) → (⟨S16384x1, .i32⟩ : BufTy).Contents (Elt F)),
    StableHlo.unary main_v71 main_v73 (broadcastInDim S16384x1 ![0] bcast_S16384_S16384x1_0 : (⟨S16384, .i32⟩ : BufTy).Contents (Elt F) → (⟨S16384x1, .i32⟩ : BufTy).Contents (Elt F)),
    StableHlo.binary main_v72 main_v73 main_v74 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v54 main_v74 main_v61 main_v75 ((fun x i u => Host.scatter scatter_S8x4097x1024_S16384x2_S16384x1024_1_01_01_1 (fun _ b => b) x i u) : (⟨S8x4097x1024, .f32⟩ : BufTy).Contents (Elt F) → (⟨S16384x2, .i32⟩ : BufTy).Contents (Elt F) → (⟨S16384x1024, .f32⟩ : BufTy).Contents (Elt F) → (⟨S8x4097x1024, .f32⟩ : BufTy).Contents (Elt F)) ]

/-- Segment D: 13 operations. -/
abbrev opsD : List (HloOp τ sig (Elt F)) :=
  [ StableHlo.binary main_v75 main_arg3 main_v76 ((fun l r => Host.dotGeneral dot_S8x4097x1024_S8x1024x4096_S8x4097x4096_2_1_1_2_0_0 none l r) : (⟨S8x4097x1024, .f32⟩ : BufTy).Contents (Elt F) → (⟨S8x1024x4096, .f32⟩ : BufTy).Contents (Elt F) → (⟨S8x4097x4096, .f32⟩ : BufTy).Contents (Elt F)),
    StableHlo.TRef.unary (.of main_v76) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S8x4097x4096 ![] bcast_S_S8x4097x4096),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S8x4097x4096 ![] bcast_S_S8x4097x4096),
    StableHlo.TRef.binary main_call3.v4 main_call3.v3 main_call3.v5 Host.divf,
    StableHlo.TRef.binary (.of main_v76) main_call3.v5 main_call3.v6 mulf,
    StableHlo.binary main_v75 main_arg4 main_v78 ((fun l r => Host.dotGeneral dot_S8x4097x1024_S8x1024x4096_S8x4097x4096_2_1_1_2_0_0 none l r) : (⟨S8x4097x1024, .f32⟩ : BufTy).Contents (Elt F) → (⟨S8x1024x4096, .f32⟩ : BufTy).Contents (Elt F) → (⟨S8x4097x4096, .f32⟩ : BufTy).Contents (Elt F)),
    StableHlo.binary main_v77 main_v78 main_v79 (mulf : (⟨S8x4097x4096, .f32⟩ : BufTy).Contents (Elt F) → (⟨S8x4097x4096, .f32⟩ : BufTy).Contents (Elt F) → (⟨S8x4097x4096, .f32⟩ : BufTy).Contents (Elt F)),
    StableHlo.binary main_v79 main_arg5 main_v80 ((fun l r => Host.dotGeneral dot_S8x4097x4096_S8x4096x1024_S8x4097x1024_2_1_1_2_0_0 none l r) : (⟨S8x4097x4096, .f32⟩ : BufTy).Contents (Elt F) → (⟨S8x4096x1024, .f32⟩ : BufTy).Contents (Elt F) → (⟨S8x4097x1024, .f32⟩ : BufTy).Contents (Elt F)) ]

/-- Segment E1: 16 operations. -/
abbrev opsE1 : List (HloOp τ sig (Elt F)) :=
  [ StableHlo.nullary main_c_21 (constantI S_ 32 0#32),
    StableHlo.unary main_c_21 main_v81 (broadcastInDim S16384 ![] bcast_S_S16384 : (⟨S_, .i32⟩ : BufTy).Contents (Elt F) → (⟨S16384, .i32⟩ : BufTy).Contents (Elt F)),
    StableHlo.binary main_v19 main_v81 main_v82 (cmpi .slt : (⟨S16384, .i32⟩ : BufTy).Contents (Elt F) → (⟨S16384, .i32⟩ : BufTy).Contents (Elt F) → (⟨S16384, .i1⟩ : BufTy).Contents (Elt F)),
    StableHlo.nullary main_c_22 (constantI S_ 32 8#32),
    StableHlo.unary main_c_22 main_v83 (broadcastInDim S16384 ![] bcast_S_S16384 : (⟨S_, .i32⟩ : BufTy).Contents (Elt F) → (⟨S16384, .i32⟩ : BufTy).Contents (Elt F)),
    StableHlo.binary main_v19 main_v83 main_v84 (addi : (⟨S16384, .i32⟩ : BufTy).Contents (Elt F) → (⟨S16384, .i32⟩ : BufTy).Contents (Elt F) → (⟨S16384, .i32⟩ : BufTy).Contents (Elt F)),
    StableHlo.ternary main_v82 main_v84 main_v19 main_v85 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_23 (constantI S_ 32 0#32),
    StableHlo.unary main_c_23 main_v86 (broadcastInDim S16384 ![] bcast_S_S16384 : (⟨S_, .i32⟩ : BufTy).Contents (Elt F) → (⟨S16384, .i32⟩ : BufTy).Contents (Elt F)),
    StableHlo.binary main_v53 main_v86 main_v87 (cmpi .slt : (⟨S16384, .i32⟩ : BufTy).Contents (Elt F) → (⟨S16384, .i32⟩ : BufTy).Contents (Elt F) → (⟨S16384, .i1⟩ : BufTy).Contents (Elt F)),
    StableHlo.nullary main_c_24 (constantI S_ 32 4097#32),
    StableHlo.unary main_c_24 main_v88 (broadcastInDim S16384 ![] bcast_S_S16384 : (⟨S_, .i32⟩ : BufTy).Contents (Elt F) → (⟨S16384, .i32⟩ : BufTy).Contents (Elt F)),
    StableHlo.binary main_v53 main_v88 main_v89 (addi : (⟨S16384, .i32⟩ : BufTy).Contents (Elt F) → (⟨S16384, .i32⟩ : BufTy).Contents (Elt F) → (⟨S16384, .i32⟩ : BufTy).Contents (Elt F)),
    StableHlo.ternary main_v87 main_v89 main_v53 main_v90 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v85 main_v91 (broadcastInDim S16384x1 ![0] bcast_S16384_S16384x1_0 : (⟨S16384, .i32⟩ : BufTy).Contents (Elt F) → (⟨S16384x1, .i32⟩ : BufTy).Contents (Elt F)),
    StableHlo.unary main_v90 main_v92 (broadcastInDim S16384x1 ![0] bcast_S16384_S16384x1_0 : (⟨S16384, .i32⟩ : BufTy).Contents (Elt F) → (⟨S16384x1, .i32⟩ : BufTy).Contents (Elt F)) ]

/-- Segment E2: 2 operations. -/
abbrev opsE2 : List (HloOp τ sig (Elt F)) :=
  [ StableHlo.binary main_v91 main_v92 main_v93 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v80 main_v93 main_v94 ((fun x i => Host.gather gather_S8x4097x1024_S16384x2_S16384x1024_1_01_n_n_01_1_111024 x i) : (⟨S8x4097x1024, .f32⟩ : BufTy).Contents (Elt F) → (⟨S16384x2, .i32⟩ : BufTy).Contents (Elt F) → (⟨S16384x1024, .f32⟩ : BufTy).Contents (Elt F)) ]

/-- Segment F: 18 operations. -/
abbrev opsF : List (HloOp τ sig (Elt F)) :=
  [ StableHlo.nullary main_cst_25 (constant S_ .f32 0x00000000#32),
    StableHlo.TRef.unary (.of main_cst_25) main_call4.v0 id,
    StableHlo.TRef.unary main_call4.v0 main_call4.v1 (broadcastInDim S16384 ![] bcast_S_S16384),
    StableHlo.TRef.ternary (.of main_v51) (.of main_v26) main_call4.v1 main_call4.v2 select,
    StableHlo.unary main_v95 main_v96 (broadcastInDim S16384x1 ![0] bcast_S16384_S16384x1_0 : (⟨S16384, .f32⟩ : BufTy).Contents (Elt F) → (⟨S16384x1, .f32⟩ : BufTy).Contents (Elt F)),
    StableHlo.unary main_v96 main_v97 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v94 main_v97 main_v98 (mulf : (⟨S16384x1024, .f32⟩ : BufTy).Contents (Elt F) → (⟨S16384x1024, .f32⟩ : BufTy).Contents (Elt F) → (⟨S16384x1024, .f32⟩ : BufTy).Contents (Elt F)),
    StableHlo.nullary main_cst_26 (constant S_ .f32 0x00000000#32),
    StableHlo.unary main_cst_26 main_v99 (broadcastInDim S8192x1024 ![] bcast_S_S8192x1024 : (⟨S_, .f32⟩ : BufTy).Contents (Elt F) → (⟨S8192x1024, .f32⟩ : BufTy).Contents (Elt F)),
    StableHlo.nullary main_c_27 (constantI S_ 32 0#32),
    StableHlo.unary main_c_27 main_v100 (broadcastInDim S16384 ![] bcast_S_S16384 : (⟨S_, .i32⟩ : BufTy).Contents (Elt F) → (⟨S16384, .i32⟩ : BufTy).Contents (Elt F)),
    StableHlo.binary main_v12 main_v100 main_v101 (cmpi .slt : (⟨S16384, .i32⟩ : BufTy).Contents (Elt F) → (⟨S16384, .i32⟩ : BufTy).Contents (Elt F) → (⟨S16384, .i1⟩ : BufTy).Contents (Elt F)),
    StableHlo.nullary main_c_28 (constantI S_ 32 8192#32),
    StableHlo.unary main_c_28 main_v102 (broadcastInDim S16384 ![] bcast_S_S16384 : (⟨S_, .i32⟩ : BufTy).Contents (Elt F) → (⟨S16384, .i32⟩ : BufTy).Contents (Elt F)),
    StableHlo.binary main_v12 main_v102 main_v103 (addi : (⟨S16384, .i32⟩ : BufTy).Contents (Elt F) → (⟨S16384, .i32⟩ : BufTy).Contents (Elt F) → (⟨S16384, .i32⟩ : BufTy).Contents (Elt F)),
    StableHlo.ternary main_v101 main_v103 main_v12 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v104 main_v105 (broadcastInDim S16384x1 ![0] bcast_S16384_S16384x1_0 : (⟨S16384, .i32⟩ : BufTy).Contents (Elt F) → (⟨S16384x1, .i32⟩ : BufTy).Contents (Elt F)),
    StableHlo.ternary main_v99 main_v105 main_v98 main_v106 ((fun x i u => Host.scatterAdd scatter_S8192x1024_S16384x1_S16384x1024_1_0_0_1 x i u) : (⟨S8192x1024, .f32⟩ : BufTy).Contents (Elt F) → (⟨S16384x1, .i32⟩ : BufTy).Contents (Elt F) → (⟨S16384x1024, .f32⟩ : BufTy).Contents (Elt F) → (⟨S8192x1024, .f32⟩ : BufTy).Contents (Elt F)) ]

/-- The three windows of @main. -/
abbrev opsP0 : List (HloOp τ sig (Elt F)) := opsA ++ opsB1
abbrev opsP1 : List (HloOp τ sig (Elt F)) := opsB2 ++ opsC ++ opsD ++ opsE1
abbrev opsP2 : List (HloOp τ sig (Elt F)) := opsE2 ++ opsF

/-- All of @main. -/
abbrev ops : List (HloOp τ sig (Elt F)) := opsP0 ++ opsP1 ++ opsP2

end Cert.ReferenceIdeal.RefOps

end
-- ==== Proof.RefFFN.lean ====
/-
  The reference's feed-forward read at one index. The reference computes every expert's SwiGLU feed-forward on the
  whole padded buffer `P : [8, R, 1024]` by three batched products (batch axis 0 = the expert, the last axis of the
  left operand contracted with axis 1 of the right) and the gate `h · (1 / (1 + exp (−h)))`. At an index
  (expert `e`, row `p`, feature `d`) the result is the row function `rowFFN` of row `p` of expert `e` and that
  expert's three weight matrices.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import proofs.«110229_j18451179504175_1_alg».proof.Proof.FFNSpec
import Mathlib.Algebra.BigOperators.Group.Finset.Basic

noncomputable section

namespace Cert.RefFFN

open Idealize.ShloMosaic Idealize.ShloMosaic.ValueIdx
open scoped BigOperators
open Cert.FFNSpec

/-- silu as jax expands it on the host: h · (1 / (1 + exp (−h))), the ones broadcast from a scalar constant. -/
def refSilu {s : Shape} (hb : (⟨0, ![]⟩ : Shape).BroadcastsInDim s ![]) (h : FVec Ideal s .f32) : FVec Ideal s .f32 :=
  mulf h (Host.divf (broadcastInDim s ![] hb (constant (F := Ideal) ⟨0, ![]⟩ .f32 0x3F800000#32))
    (addf (broadcastInDim s ![] hb (constant (F := Ideal) ⟨0, ![]⟩ .f32 0x3F800000#32)) (Host.exp (Host.negf h))))

/-- At an index the expanded gate is `h · σ(h)`: the broadcast constant reads `1` everywhere, and
    `1 / (1 + exp (−x))` is the logistic function by definition. -/
theorem refSilu_apply {s : Shape} (hb : (⟨0, ![]⟩ : Shape).BroadcastsInDim s ![]) (h : FVec Ideal s .f32)
    (i : s.Idx) : refSilu hb h i = h i * Ideal.logistic (h i) := by
  have one : broadcastInDim s ![] hb (constant (F := Ideal) ⟨0, ![]⟩ .f32 0x3F800000#32) i = (1 : EReal) := by
    rw [broadcastInDim_scalar_apply]
    exact Ideal.ofBits_one_f32
  show h i * Ideal.div (broadcastInDim s ![] hb (constant (F := Ideal) ⟨0, ![]⟩ .f32 0x3F800000#32) i)
      (broadcastInDim s ![] hb (constant (F := Ideal) ⟨0, ![]⟩ .f32 0x3F800000#32) i + Ideal.exp (-(h i))) = _
  rw [one]
  rfl

/-- A batched product of stacks `[G, m, k]` and `[G, k, n]` (batch axes 0 and 0, contracting axes 2 and 1), read at
    an index, is the sum over the contracted coordinate of the products of the two members' entries. -/
theorem dotGeneral_batch_apply {G m k n : Nat}
    (dd : DotDims ⟨3, ![G, m, k]⟩ ⟨3, ![G, k, n]⟩ ⟨3, ![G, m, n]⟩)
    (h : dd.lhsContracting = [2] ∧ dd.rhsContracting = [1] ∧ dd.lhsNonContracting = [1] ∧ dd.rhsNonContracting = [2] ∧ dd.lhsBatch = [0] ∧ dd.rhsBatch = [0])
    (A : FVec Ideal ⟨3, ![G, m, k]⟩ .f32) (B : FVec Ideal ⟨3, ![G, k, n]⟩ .f32) (g : Fin G) (a : Fin m) (b : Fin n) :
    Host.dotGeneral dd none A B (ix3 g a b) = ∑ c : Fin k, A (ix3 g a c) * B (ix3 g c b) := by
  obtain ⟨lc, rc, ln, rn, lb, rb, w⟩ := dd
  obtain ⟨h1, h2, h3, h4, h5, h6⟩ := h
  simp only at h1 h2 h3 h4 h5 h6
  subst h1 h2 h3 h4 h5 h6
  exact StackMember.dotGeneral_stack_apply w none A B g a b

theorem refFFN_apply {R : Nat}
    (dd1 : DotDims ⟨3, ![8, R, 1024]⟩ ⟨3, ![8, 1024, 4096]⟩ ⟨3, ![8, R, 4096]⟩)
    (dd3 : DotDims ⟨3, ![8, R, 4096]⟩ ⟨3, ![8, 4096, 1024]⟩ ⟨3, ![8, R, 1024]⟩)
    (h1 : dd1.lhsContracting = [2] ∧ dd1.rhsContracting = [1] ∧ dd1.lhsNonContracting = [1] ∧ dd1.rhsNonContracting = [2] ∧ dd1.lhsBatch = [0] ∧ dd1.rhsBatch = [0])
    (h3 : dd3.lhsContracting = [2] ∧ dd3.rhsContracting = [1] ∧ dd3.lhsNonContracting = [1] ∧ dd3.rhsNonContracting = [2] ∧ dd3.lhsBatch = [0] ∧ dd3.rhsBatch = [0])
    (hb : (⟨0, ![]⟩ : Shape).BroadcastsInDim ⟨3, ![8, R, 4096]⟩ ![])
    (P : FVec Ideal ⟨3, ![8, R, 1024]⟩ .f32) (a3 a4 : FVec Ideal ⟨3, ![8, 1024, 4096]⟩ .f32)
    (a5 : FVec Ideal ⟨3, ![8, 4096, 1024]⟩ .f32) (e : Fin 8) (p : Fin R) (d : Fin 1024) :
    Host.dotGeneral dd3 none
        (mulf (refSilu hb (Host.dotGeneral dd1 none P a3)) (Host.dotGeneral dd1 none P a4)) a5 (ix3 e p d)
      = rowFFN (fun k => P (ix3 e p k)) (fun k f => a3 (ix3 e k f)) (fun k f => a4 (ix3 e k f))
          (fun f d' => a5 (ix3 e f d')) d := by
  rw [dotGeneral_batch_apply dd3 h3]
  unfold rowFFN
  refine Finset.sum_congr rfl fun f _ => ?_
  congr 1
  show refSilu hb (Host.dotGeneral dd1 none P a3) (ix3 e p f) * Host.dotGeneral dd1 none P a4 (ix3 e p f) = _
  rw [refSilu_apply, dotGeneral_batch_apply dd1 h1, dotGeneral_batch_apply dd1 h1]
  rfl

end Cert.RefFFN

end
-- ==== Proof.RefSegC.lean ====
/-
  Segment C of the reference's @main, read from an arbitrary valuation: the zero buffer of shape [8, 4097, 1024], the
  negative-index wrap of the sorted tokens and the gather of their feature rows, the wraps of the expert and of the
  slot of every sorted position, the two as columns side by side, and the scatter that overwrites row (expert, slot)
  of the zero buffer with the gathered row. The buffer it ends in holds that scatter of the shared index table and
  the shared gathered rows; every buffer outside the segment's write list keeps its contents.
-/
import proofs.«110229_j18451179504175_1_alg».proof.Proof.RefOps
import proofs.«110229_j18451179504175_1_alg».proof.Proof.Gen.ReferenceIdeal
import proofs.«110229_j18451179504175_1_alg».proof.Proof.Spec
import proofs.«110229_j18451179504175_1_alg».proof.Proof.RefFFN
import Idealize.ShloMosaic.Lib.StableHlo.Run

set_option maxRecDepth 16384

noncomputable section

namespace Cert.ReferenceIdeal.RSeg

open Cert.ReferenceIdeal Cert.ReferenceIdeal.Gen Cert.ReferenceIdeal.RefOps Idealize.ShloMosaic Idealize.ShloMosaic.TcCoe Idealize.SL.Sem Idealize.ShloMosaic.StableHlo

/-- Two arrays side by side along an axis, the shape relation stated on the two shapes alone, so that each array
    can be rewritten in place. -/
private def cat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

private theorem cat2_eq {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

/-- A one-buffer write set lies in the device buffers of a list that holds the buffer's reference. -/
private theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ## What the segment writes -/

/-- The references segment C's 29 operations write, in order. -/
def C_W : List (Ref sig .tc) :=
  [main_cst, main_v54, main_c_15, main_v55, main_v56, main_c_16, main_v57, main_v58,
    main_v59, main_v60, main_v61, main_c_17, main_v62, main_v63, main_c_18, main_v64,
    main_v65, main_v66, main_c_19, main_v67, main_v68, main_c_20, main_v69, main_v70,
    main_v71, main_v72, main_v73, main_v74, main_v75]

/-- Each operation writes one buffer, and its reference is in the list. -/
theorem C_writes : (RefOps.opsC (F := Ideal) : List (HloOp τ sig (Elt Ideal))).Forall fun op =>
    op.writes ⊆ (C_W.map (Proc.devRef (τ := τ) .tc)).toFinset :=
  ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide)⟩

/-- A buffer outside the write list keeps its contents through the segment. -/
theorem C_keep (W : Valuation τ sig (Elt Ideal)) (r : Ref sig .tc) (h : r ∉ C_W) :
    after (RefOps.opsC (F := Ideal)) W (Proc.devRef .tc r) = W (Proc.devRef .tc r) :=
  after_of_writes_sub _ W C_writes h

/-! ## What the segment's last buffer holds -/

attribute [local irreducible] Host.gather Host.scatter concatenate in
/-- The padded buffer: the zero array with row (expert, slot) of every sorted position overwritten by that position's
    token's feature row. Each line's result at its own buffer is its function of its operands' contents, at any other
    buffer what was there; the index table's two columns and the gathered rows are then the shared definitions'
    terms over the three buffers the segment reads. -/
theorem C_v75 (W : Valuation τ sig (Elt Ideal)) :
    after (RefOps.opsC (F := Ideal)) W (main_v75 : DevRef τ sig)
      = Host.scatter scatter_S8x4097x1024_S16384x2_S16384x1024_1_01_01_1 (fun _ b => b)
          (broadcastInDim S8x4097x1024 ![] bcast_S_S8x4097x1024 (constant (F := Ideal) S_ .f32 0x00000000#32))
          (Spec.idx2 4097#32 (W (main_v19 : DevRef τ sig)) (W (main_v53 : DevRef τ sig)))
          (Spec.xg (F := Ideal) (W (main_arg0 : DevRef τ sig)) (W (main_v12 : DevRef τ sig))) := by
  simp only [RefOps.opsC]
  after_results_simp
  simp (disch := decide) only [↓cat2_eq,
      nullary_result', unary_result', binary_result', ternary_result',
      nullary_result_ne', unary_result_ne', binary_result_ne', ternary_result_ne']
  unfold Spec.idx2 Spec.xg Spec.col Spec.wrapV cat2
  generalize W (Proc.devRef .tc main_v12) = v12
  generalize W (Proc.devRef .tc main_v19) = v19
  generalize W (Proc.devRef .tc main_v53) = v53
  generalize W (Proc.devRef .tc main_arg0) = a0
  rfl

end Cert.ReferenceIdeal.RSeg

end
-- ==== Proof.RefSegD.lean ====
/-
  One segment of the reference program's lines, read from an arbitrary valuation of the buffers: the experts'
  feed-forward on the whole padded buffer. Thirteen lines: the first batched product (buffer rows times the first
  weight matrices), the gate h · (1 / (1 + exp (−h))) in its nine elementary steps, the second batched product, the
  gated product, and the third batched product with the third weight matrices. The segment's other buffers are left
  as they were.
-/
import proofs.«110229_j18451179504175_1_alg».proof.Proof.RefOps
import proofs.«110229_j18451179504175_1_alg».proof.Proof.Gen.ReferenceIdeal
import proofs.«110229_j18451179504175_1_alg».proof.Proof.Spec
import proofs.«110229_j18451179504175_1_alg».proof.Proof.RefFFN
import Idealize.ShloMosaic.Lib.StableHlo.Run

set_option maxRecDepth 16384

noncomputable section

namespace Cert.ReferenceIdeal.RSeg

open Cert.ReferenceIdeal Cert.ReferenceIdeal.Gen Cert.ReferenceIdeal.RefOps
open Idealize.ShloMosaic Idealize.ShloMosaic.TcCoe Idealize.SL.Sem Idealize.ShloMosaic.StableHlo

/-! ## Segment D: the three batched products and the gate -/

/-- The buffers segment D's lines write, in order. -/
def D_W : List (Ref sig .tc) :=
  [main_v76, main_call3_v0, main_call3_v1, main_call3_cst, main_call3_v2, main_call3_v3, main_call3_cst_0,
    main_call3_v4, main_call3_v5, main_v77, main_v78, main_v79, main_v80]

/-- Each line of segment D writes its own result buffer only, one of `D_W`. -/
theorem D_writes : (RefOps.opsD (F := Ideal)).Forall fun op =>
    op.writes ⊆ (D_W.map (Proc.devRef (τ := τ) .tc)).toFinset := by
  simp only [RefOps.opsD, List.Forall, nullary_writes, unary_writes, binary_writes, Finset.singleton_subset_iff,
    List.mem_toFinset]
  repeat' apply And.intro
  all_goals exact List.mem_map_of_mem (by decide)

/-- A buffer segment D does not write is as it was. -/
theorem D_keep (W : Valuation τ sig (Elt Ideal)) (r : Ref sig .tc) (h : r ∉ D_W) :
    after (RefOps.opsD (F := Ideal)) W (Proc.devRef .tc r) = W (Proc.devRef .tc r) :=
  after_of_writes_sub _ W D_writes h

/-- After segment D the expert outputs' buffer holds the third batched product of the gated hidden rows. -/
theorem D_v80 (W : Valuation τ sig (Elt Ideal)) :
    after (RefOps.opsD (F := Ideal)) W (main_v80 : DevRef τ sig)
      = Host.dotGeneral (φ₁ := .f32) (φ₂ := .f32) dot_S8x4097x4096_S8x4096x1024_S8x4097x1024_2_1_1_2_0_0 none
          (mulf (Cert.RefFFN.refSilu bcast_S_S8x4097x4096 (Host.dotGeneral (φ₁ := .f32) (φ₂ := .f32) dot_S8x4097x1024_S8x1024x4096_S8x4097x4096_2_1_1_2_0_0 none (W (main_v75 : DevRef τ sig)) (W (main_arg3 : DevRef τ sig))))
            (Host.dotGeneral (φ₁ := .f32) (φ₂ := .f32) dot_S8x4097x1024_S8x1024x4096_S8x4097x4096_2_1_1_2_0_0 none (W (main_v75 : DevRef τ sig)) (W (main_arg4 : DevRef τ sig))))
          (W (main_arg5 : DevRef τ sig)) := by
  simp only [RefOps.opsD]
  -- each line's result at its own buffer is its function of its operands' contents, at any other buffer what was there
  after_results_simp
  -- the two first products and the third weight matrices as variables: what is left is the gate's nine steps
  generalize Host.dotGeneral (F := Ideal) (φ₁ := .f32) (φ₂ := .f32) dot_S8x4097x1024_S8x1024x4096_S8x4097x4096_2_1_1_2_0_0 none
    (W (Proc.devRef .tc main_v75)) (W (Proc.devRef .tc main_arg3)) = A
  generalize Host.dotGeneral (F := Ideal) (φ₁ := .f32) (φ₂ := .f32) dot_S8x4097x1024_S8x1024x4096_S8x4097x4096_2_1_1_2_0_0 none
    (W (Proc.devRef .tc main_v75)) (W (Proc.devRef .tc main_arg4)) = B
  generalize W (Proc.devRef .tc main_arg5) = a5
  refine congrArg (fun z : FVec Ideal S8x4097x4096 .f32 =>
    Host.dotGeneral (φ₁ := .f32) (φ₂ := .f32) dot_S8x4097x4096_S8x4096x1024_S8x4097x1024_2_1_1_2_0_0 none (mulf z B) a5) ?_
  unfold Cert.RefFFN.refSilu
  rfl

end Cert.ReferenceIdeal.RSeg

end
-- ==== Proof.RefSegEF.lean ====
/-
  Two segments of the reference program's lines, read from an arbitrary valuation of the buffers. The first wraps the
  (expert, row) index pairs into their axes (extents 8 and 4097), lays them out as a table of two columns and gathers
  the expert outputs' rows at it. The second zeroes the weights of the overflowing assignments, scales each gathered
  row by its weight and adds it into its token's row: the shared combine. Each segment's other buffers are left as
  they were.
-/
import proofs.«110229_j18451179504175_1_alg».proof.Proof.RefOps
import proofs.«110229_j18451179504175_1_alg».proof.Proof.Gen.ReferenceIdeal
import proofs.«110229_j18451179504175_1_alg».proof.Proof.Spec
import proofs.«110229_j18451179504175_1_alg».proof.Proof.RefFFN
import Idealize.ShloMosaic.Lib.StableHlo.Run

set_option maxRecDepth 16384

noncomputable section

namespace Cert.ReferenceIdeal.RSeg

open Cert.ReferenceIdeal Cert.ReferenceIdeal.Gen Cert.ReferenceIdeal.RefOps
open Idealize.ShloMosaic Idealize.ShloMosaic.TcCoe Idealize.SL.Sem Idealize.ShloMosaic.StableHlo

/-- The concatenation of two vectors, its shape relation stated on the two shapes alone (so that the relation does not
    mention the vectors, and each vector can be rewritten in place). -/
def cat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- A concatenation of two vectors is `cat2` of them. -/
theorem cat2_eq {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

/-! ## Segment E: the index table and the gather of the expert outputs' rows -/

/-- The buffers segment E's lines write, in order. -/
def E_W : List (Ref sig .tc) :=
  [main_c_21, main_v81, main_v82, main_c_22, main_v83, main_v84, main_v85, main_c_23, main_v86, main_v87, main_c_24,
    main_v88, main_v89, main_v90, main_v91, main_v92, main_v93, main_v94]

/-- Each line of segment E writes its own result buffer only, one of `E_W`. -/
theorem E_writes : (RefOps.opsE1 (F := Ideal) ++ RefOps.opsE2 (F := Ideal)).Forall fun op =>
    op.writes ⊆ (E_W.map (Proc.devRef (τ := τ) .tc)).toFinset := by
  simp only [RefOps.opsE1, RefOps.opsE2, List.cons_append, List.nil_append, List.Forall, nullary_writes, unary_writes,
    binary_writes, ternary_writes, Finset.singleton_subset_iff, List.mem_toFinset]
  repeat' apply And.intro
  all_goals exact List.mem_map_of_mem (by decide)

/-- A buffer segment E does not write is as it was. -/
theorem E_keep (W : Valuation τ sig (Elt Ideal)) (r : Ref sig .tc) (h : r ∉ E_W) :
    after (RefOps.opsE1 (F := Ideal) ++ RefOps.opsE2 (F := Ideal)) W (Proc.devRef .tc r) = W (Proc.devRef .tc r) :=
  after_of_writes_sub _ W E_writes h

/-- After segment E the gathered buffer holds the rows of the expert outputs at the wrapped (expert, row) table. -/
theorem E_v94 (W : Valuation τ sig (Elt Ideal)) :
    after (RefOps.opsE1 (F := Ideal) ++ RefOps.opsE2 (F := Ideal)) W (main_v94 : DevRef τ sig)
      = Host.gather gather_S8x4097x1024_S16384x2_S16384x1024_1_01_n_n_01_1_111024 (W (main_v80 : DevRef τ sig))
          (Spec.idx2 4097#32 (W (main_v19 : DevRef τ sig)) (W (main_v53 : DevRef τ sig))) := by
  simp only [RefOps.opsE1, RefOps.opsE2, List.cons_append, List.nil_append]
  -- each line's result at its own buffer is its function of its operands' contents, at any other buffer what was there
  after_results_simp
  -- the same inside the two columns of the index table
  simp (disch := decide) only [↓cat2_eq,
      nullary_result', unary_result', binary_result', ternary_result',
      nullary_result_ne', unary_result_ne', binary_result_ne', ternary_result_ne']
  -- both sides are now the same operations of the same three vectors: as variables, the equation holds by unfolding
  unfold Spec.idx2 Spec.col Spec.wrapV cat2
  generalize W (Proc.devRef .tc main_v80) = A
  generalize W (Proc.devRef .tc main_v19) = v19
  generalize W (Proc.devRef .tc main_v53) = v53
  rfl

/-! ## Segment F: the combine -/

/-- The buffers segment F's lines write, in order. -/
def F_W : List (Ref sig .tc) :=
  [main_cst_25, main_call4_v0, main_call4_v1, main_v95, main_v96, main_v97, main_v98, main_cst_26, main_v99, main_c_27,
    main_v100, main_v101, main_c_28, main_v102, main_v103, main_v104, main_v105, main_v106]

/-- Each line of segment F writes its own result buffer only, one of `F_W`. -/
theorem F_writes : (RefOps.opsF (F := Ideal)).Forall fun op =>
    op.writes ⊆ (F_W.map (Proc.devRef (τ := τ) .tc)).toFinset := by
  simp only [RefOps.opsF, List.Forall, nullary_writes, unary_writes,
    binary_writes, ternary_writes, Finset.singleton_subset_iff, List.mem_toFinset]
  repeat' apply And.intro
  all_goals exact List.mem_map_of_mem (by decide)

/-- A buffer segment F does not write is as it was. -/
theorem F_keep (W : Valuation τ sig (Elt Ideal)) (r : Ref sig .tc) (h : r ∉ F_W) :
    after (RefOps.opsF (F := Ideal)) W (Proc.devRef .tc r) = W (Proc.devRef .tc r) :=
  after_of_writes_sub _ W F_writes h

/-- After segment F the result buffer holds the combine of the gathered rows. -/
theorem F_v106 (W : Valuation τ sig (Elt Ideal)) :
    after (RefOps.opsF (F := Ideal)) W (main_v106 : DevRef τ sig)
      = Spec.tail (F := Ideal) (W (main_v12 : DevRef τ sig))
          (Spec.wsel (F := Ideal) (W (main_v51 : DevRef τ sig)) (W (main_v26 : DevRef τ sig))) (W (main_v94 : DevRef τ sig)) := by
  simp only [RefOps.opsF]
  -- each line's result at its own buffer is its function of its operands' contents, at any other buffer what was there
  after_results_simp
  -- both sides are now the same operations of the same four vectors: as variables, the equation holds by unfolding
  unfold Spec.tail Spec.wsel Spec.col Spec.wrapV
  generalize W (Proc.devRef .tc main_v12) = v12
  generalize W (Proc.devRef .tc main_v51) = v51
  generalize W (Proc.devRef .tc main_v26) = v26
  generalize W (Proc.devRef .tc main_v94) = v94
  rfl

end Cert.ReferenceIdeal.RSeg

end
-- ==== Proof.RefRunB.lean ====
/-
  What the reference's line of host operations leaves in its result buffer, as one function of the six arguments, at the
  ideal instance, and that it leaves the arguments alone.

  The line is cut into segments (the sorted assignments; the slot of each sorted position; the dispatch into the padded
  buffer; every expert's feed-forward; the gather of the expert outputs' rows; the weighted combine). From an arbitrary
  valuation each segment's result buffers are the shared host definitions applied to the buffers the segment reads, and a
  buffer the segment does not write keeps its contents. Two lines run one after the other are the second run from what
  the first leaves, so the buffers after each prefix of the line are functions of the arguments, and the last segment's
  result is `refOut` of them.
-/
import proofs.«110229_j18451179504175_1_alg».proof.Proof.RefOps
import proofs.«110229_j18451179504175_1_alg».proof.Proof.Gen.ReferenceIdeal
import proofs.«110229_j18451179504175_1_alg».proof.Proof.Spec
import proofs.«110229_j18451179504175_1_alg».proof.Proof.RefFFN
import proofs.«110229_j18451179504175_1_alg».proof.Proof.RefSegC
import proofs.«110229_j18451179504175_1_alg».proof.Proof.RefSegD
import proofs.«110229_j18451179504175_1_alg».proof.Proof.RefSegEF
import Idealize.ShloMosaic.Lib.StableHlo.Run

noncomputable section

namespace Cert.ReferenceIdeal.RRead

open Idealize.ShloMosaic Idealize.ShloMosaic.ValueIdx
open scoped BigOperators
open Cert.ReferenceIdeal Cert.ReferenceIdeal.Gen Cert.ReferenceIdeal.RefOps Idealize.ShloMosaic Idealize.ShloMosaic.TcCoe
  Idealize.SL.Sem Idealize.ShloMosaic.StableHlo
open Cert.ReferenceIdeal.RSeg

/-- The padded dispatch buffer: the sorted tokens' rows written at their (expert, slot). -/
def refP (a0 : FVec Ideal S8192x1024 .f32) (a1 : IVec S8192x2 32) : FVec Ideal S8x4097x1024 .f32 :=
  Host.scatter scatter_S8x4097x1024_S16384x2_S16384x1024_1_01_01_1 (fun _ b => b)
    (broadcastInDim S8x4097x1024 ![] bcast_S_S8x4097x1024 (constant (F := Ideal) S_ .f32 0x00000000#32))
    (Spec.idx2 4097#32 (Spec.seid a1) (Spec.posC a1)) (Spec.xg (F := Ideal) a0 (Spec.stok a1))

/-- Every expert's feed-forward on its rows of the buffer. -/
def refEO (a0 : FVec Ideal S8192x1024 .f32) (a1 : IVec S8192x2 32) (a3 a4 : FVec Ideal S8x1024x4096 .f32)
    (a5 : FVec Ideal S8x4096x1024 .f32) : FVec Ideal S8x4097x1024 .f32 :=
  Host.dotGeneral dot_S8x4097x4096_S8x4096x1024_S8x4097x1024_2_1_1_2_0_0 none
    (mulf (Cert.RefFFN.refSilu bcast_S_S8x4097x4096 (Host.dotGeneral dot_S8x4097x1024_S8x1024x4096_S8x4097x4096_2_1_1_2_0_0 none (refP a0 a1) a3))
      (Host.dotGeneral dot_S8x4097x1024_S8x1024x4096_S8x4097x4096_2_1_1_2_0_0 none (refP a0 a1) a4)) a5

/-- The reference's result. -/
def refOut (a0 : FVec Ideal S8192x1024 .f32) (a1 : IVec S8192x2 32) (a2 : FVec Ideal S8192x2 .f32)
    (a3 a4 : FVec Ideal S8x1024x4096 .f32) (a5 : FVec Ideal S8x4096x1024 .f32) : FVec Ideal S8192x1024 .f32 :=
  Spec.tail (F := Ideal) (Spec.stok a1) (Spec.wsel (F := Ideal) (Spec.valid a1) (Spec.swts (F := Ideal) a1 a2))
    (Host.gather gather_S8x4097x1024_S16384x2_S16384x1024_1_01_n_n_01_1_111024 (refEO a0 a1 a3 a4 a5)
      (Spec.idx2 4097#32 (Spec.seid a1) (Spec.posC a1)))

/-- Two lines run one after the other: the second starts from what the first leaves. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A concatenation of two operands depends on them only through their values. -/
theorem concat2_eq {α : Type} {t : Shape} {a : Fin t.rank} {s₁ s₂ : Shape} {x x' : s₁.Idx → α} {y y' : s₂.Idx → α}
    {h : Shape.Concatenates [s₁, s₂] t a} {h' : Shape.Concatenates [s₁, s₂] t a} (hx : x = x') (hy : y = y') :
    concatenate t a [⟨s₁, x⟩, ⟨s₂, y⟩] h = concatenate t a [⟨s₁, x'⟩, ⟨s₂, y'⟩] h' := by
  subst hx hy; rfl

/-! ## Segment A: the sorted assignments

Each operation's result at its own buffer is its function of its operands' contents, at any other buffer what was
there; what is left is the shared definition's term over the argument read, the dimension records and shape relations
equal by unfolding and proof irrelevance. -/

attribute [local irreducible] Host.sort2 Host.gather Host.scatter Host.scatterAdd Host.reduceWindow concatenate in
/-- The flattened expert ids. -/
theorem A_v0 (W : Valuation τ sig (Elt Ideal)) :
    after (RefOps.opsA (F := Ideal)) W (main_v0 : DevRef τ sig)
      = Spec.flatE (W (main_arg1 : DevRef τ sig)) := by
  after_results_simp
  rfl

attribute [local irreducible] Host.sort2 Host.gather Host.scatter Host.scatterAdd Host.reduceWindow concatenate in
/-- The token at each sorted position: the token table gathered at the wrapped sorting permutation. -/
theorem A_v12 (W : Valuation τ sig (Elt Ideal)) :
    after (RefOps.opsA (F := Ideal)) W (main_v12 : DevRef τ sig)
      = Spec.stok (W (main_arg1 : DevRef τ sig)) := by
  after_results_simp
  rfl

attribute [local irreducible] Host.sort2 Host.gather Host.scatter Host.scatterAdd Host.reduceWindow concatenate in
/-- The expert at each sorted position. -/
theorem A_v19 (W : Valuation τ sig (Elt Ideal)) :
    after (RefOps.opsA (F := Ideal)) W (main_v19 : DevRef τ sig)
      = Spec.seid (W (main_arg1 : DevRef τ sig)) := by
  after_results_simp
  rfl

attribute [local irreducible] Host.sort2 Host.gather Host.scatter Host.scatterAdd Host.reduceWindow concatenate in
/-- The weight at each sorted position. -/
theorem A_v26 (W : Valuation τ sig (Elt Ideal)) :
    after (RefOps.opsA (F := Ideal)) W (main_v26 : DevRef τ sig)
      = Spec.swts (F := Ideal) (W (main_arg1 : DevRef τ sig)) (W (main_arg2 : DevRef τ sig)) := by
  after_results_simp
  rfl

/-- The references segment A's operations write, in order. -/
abbrev A_W : List (Ref sig .tc) :=
  [main_v0, main_v1, main_v2, main_v3, main_v4, main_call0.v0.ref, main_call0.v1_0.ref, main_call0.v1_1.ref,
   main_c, main_v6, main_v7, main_c_0, main_v8, main_v9, main_v10, main_v11, main_v12, main_c_1, main_v13,
   main_v14, main_c_2, main_v15, main_v16, main_v17, main_v18, main_v19, main_c_3, main_v20, main_v21, main_c_4,
   main_v22, main_v23, main_v24, main_v25, main_v26]

/-- Each operation of the segment writes one buffer, and its reference is in the list. -/
theorem A_writes : (RefOps.opsA (F := Ideal)).Forall fun op =>
    op.writes ⊆ (A_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- Segment A keeps every buffer it does not write. -/
theorem A_keep (W : Valuation τ sig (Elt Ideal)) (r : Ref sig .tc) (h : r ∉ A_W) :
    after (RefOps.opsA (F := Ideal)) W (Proc.devRef .tc r) = W (Proc.devRef .tc r) :=
  after_of_writes_sub _ W A_writes h

/-! ## Segment B: the slot of each sorted position -/

/-- Where each expert's segment starts, from the flattened ids: the counts of the clipped ids, their inclusive
    cumulative sums, shifted by one place behind a leading zero. -/
def segStartsF (e0 : IVec S16384 32) : IVec S8 32 :=
  concatenate S8 0
    [⟨S1, broadcastInDim S1 ![] Spec.bc_S_1 (constantI S_ 32 0#32)⟩,
     ⟨S7, extractStridedSlice S7 ![0]
        (Host.reduceWindow IntOp.addi ![8] ![1] ![7] ![0]
          (Host.scatter Spec.sd8 IntOp.addi (broadcastInDim S8 ![] Spec.bc_S_8 (constantI S_ 32 0#32))
            (Spec.col (Spec.wrapV 8#32 (maxsi (broadcastInDim S16384 ![] Spec.bc_S_16384 (constantI S_ 32 0#32)) e0)))
            (broadcastInDim S16384 ![] Spec.bc_S_16384 (constantI S_ 32 1#32)))
          (broadcastInDim S_ ![] Spec.bc_S_S (constantI S_ 32 0#32)) Spec.rw8 Spec.hS_) Spec.sl87⟩] Spec.cat178

/-- The slot of each sorted position: its index less its expert's segment start. -/
def positionsF (e0 se : IVec S16384 32) : IVec S16384 32 :=
  subi (iotaInDim S16384 32 0) (Host.gather Spec.gd8 (segStartsF e0) (Spec.col (Spec.wrapV 8#32 se)))

attribute [local irreducible] Host.sort2 Host.gather Host.scatter Host.scatterAdd Host.reduceWindow concatenate in
/-- The shared definition of the slots is that function of the flattened and the sorted ids (by unfolding). -/
theorem positions_eq (a1 : IVec S8192x2 32) : Spec.positions a1 = positionsF (Spec.flatE a1) (Spec.seid a1) := rfl

/-! Segment B1 cut at its two calls: the clip's three lines with the three lines before them, the plain lines up to the
    cumulative sum, the cumulative sum's three lines, the rest. Each stretch is read from an arbitrary valuation, its
    operands plain reads of it. -/

abbrev B1a : List (HloOp τ sig (Elt Ideal)) := (RefOps.opsB1 (F := Ideal)).take 6
abbrev B1b : List (HloOp τ sig (Elt Ideal)) := ((RefOps.opsB1 (F := Ideal)).drop 6).take 13
abbrev B1c : List (HloOp τ sig (Elt Ideal)) := ((RefOps.opsB1 (F := Ideal)).drop 19).take 3
abbrev B1d : List (HloOp τ sig (Elt Ideal)) := (RefOps.opsB1 (F := Ideal)).drop 22

/-- The four stretches in order are the segment. -/
theorem B1_cut : RefOps.opsB1 (F := Ideal) = B1a ++ (B1b ++ (B1c ++ B1d)) := rfl

attribute [local irreducible] Host.sort2 Host.gather Host.scatter Host.scatterAdd Host.reduceWindow concatenate in
/-- The zero counts the scatter starts from. -/
theorem B1a_v27 (W : Valuation τ sig (Elt Ideal)) :
    after B1a W (main_v27 : DevRef τ sig)
      = (broadcastInDim S8 ![] Spec.bc_S_8 (constantI S_ 32 0#32) : IVec S8 32) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The clip: the ids with the negative ones raised to zero. -/
theorem B1a_v28 (W : Valuation τ sig (Elt Ideal)) :
    after B1a W (main_v28 : DevRef τ sig)
      = maxsi (broadcastInDim S16384 ![] Spec.bc_S_16384 (constantI S_ 32 0#32)) (W (main_v0 : DevRef τ sig) : IVec S16384 32) := by
  simp only [B1a, B1b, B1c, B1d, RefOps.opsB1, List.take_succ_cons, List.take_zero, List.drop_succ_cons,
    List.drop_zero]
  after_results_simp
  rfl

/-- The stretch does not write this buffer. -/
theorem B1a_k19 (W : Valuation τ sig (Elt Ideal)) :
    after B1a W (main_v19 : DevRef τ sig) = W (main_v19 : DevRef τ sig) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The counts: a one added at each clipped id's wrapped place. -/
theorem B1b_v36 (W : Valuation τ sig (Elt Ideal)) :
    after B1b W (main_v36 : DevRef τ sig)
      = Host.scatter Spec.sd8 IntOp.addi (W (main_v27 : DevRef τ sig) : IVec S8 32)
          (Spec.col (Spec.wrapV 8#32 (W (main_v28 : DevRef τ sig)))) (broadcastInDim S16384 ![] Spec.bc_S_16384 (constantI S_ 32 1#32)) := by
  simp only [B1a, B1b, B1c, B1d, RefOps.opsB1, List.take_succ_cons, List.take_zero, List.drop_succ_cons,
    List.drop_zero]
  after_results_simp
  rfl

attribute [local irreducible] Host.sort2 Host.gather Host.scatter Host.scatterAdd Host.reduceWindow concatenate in
/-- The leading zero of the exclusive sums. -/
theorem B1b_v37 (W : Valuation τ sig (Elt Ideal)) :
    after B1b W (main_v37 : DevRef τ sig)
      = (broadcastInDim S1 ![] Spec.bc_S_1 (constantI S_ 32 0#32) : IVec S1 32) := by
  simp only [B1a, B1b, B1c, B1d, RefOps.opsB1, List.take_succ_cons, List.take_zero, List.drop_succ_cons,
    List.drop_zero]
  after_results_simp

/-- The stretch does not write this buffer. -/
theorem B1b_k19 (W : Valuation τ sig (Elt Ideal)) :
    after B1b W (main_v19 : DevRef τ sig) = W (main_v19 : DevRef τ sig) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The inclusive cumulative sums: a window of eight padded seven low. -/
theorem B1c_v38 (W : Valuation τ sig (Elt Ideal)) :
    after B1c W (main_v38 : DevRef τ sig)
      = Host.reduceWindow IntOp.addi ![8] ![1] ![7] ![0] (W (main_v36 : DevRef τ sig) : IVec S8 32)
          (broadcastInDim S_ ![] Spec.bc_S_S (constantI S_ 32 0#32)) Spec.rw8 Spec.hS_ := by
  simp only [B1a, B1b, B1c, B1d, RefOps.opsB1, List.take_succ_cons, List.take_zero, List.drop_succ_cons,
    List.drop_zero]
  after_results_simp
  rfl

/-- The stretch does not write this buffer. -/
theorem B1c_k37 (W : Valuation τ sig (Elt Ideal)) :
    after B1c W (main_v37 : DevRef τ sig) = W (main_v37 : DevRef τ sig) := by
  simp only [B1a, B1b, B1c, B1d, RefOps.opsB1, List.take_succ_cons, List.take_zero, List.drop_succ_cons,
    List.drop_zero]
  after_results_simp

/-- The stretch does not write this buffer. -/
theorem B1c_k19 (W : Valuation τ sig (Elt Ideal)) :
    after B1c W (main_v19 : DevRef τ sig) = W (main_v19 : DevRef τ sig) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The exclusive sums: the leading zero, then the first seven inclusive sums. -/
theorem B1d_v40 (W : Valuation τ sig (Elt Ideal)) :
    after B1d W (main_v40 : DevRef τ sig)
      = concatenate S8 0 [⟨S1, (W (main_v37 : DevRef τ sig) : IVec S1 32)⟩,
          ⟨S7, extractStridedSlice S7 ![0] (W (main_v38 : DevRef τ sig) : IVec S8 32) Spec.sl87⟩] Spec.cat178 := by
  simp only [B1a, B1b, B1c, B1d, RefOps.opsB1, List.take_succ_cons, List.take_zero, List.drop_succ_cons,
    List.drop_zero]
  after_results_simp
  refine concat2_eq ?_ ?_
  · after_results_simp
  · after_results_simp

attribute [local irreducible] Host.sort2 Host.gather Host.scatter Host.scatterAdd Host.reduceWindow concatenate in
/-- The sorted positions' indices. -/
theorem B1d_v41 (W : Valuation τ sig (Elt Ideal)) :
    after B1d W (main_v41 : DevRef τ sig)
      = (iotaInDim S16384 32 0 : IVec S16384 32) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The sign test of the sorted ids' wrap. -/
theorem B1d_v43 (W : Valuation τ sig (Elt Ideal)) :
    after B1d W (main_v43 : DevRef τ sig)
      = cmpi .slt (W (main_v19 : DevRef τ sig) : IVec S16384 32) (broadcastInDim S16384 ![] Spec.bc_S_16384 (constantI S_ 32 0#32)) := by
  simp only [B1a, B1b, B1c, B1d, RefOps.opsB1, List.take_succ_cons, List.take_zero, List.drop_succ_cons,
    List.drop_zero]
  after_results_simp

attribute [local irreducible] Host.sort2 Host.gather Host.scatter Host.scatterAdd Host.reduceWindow concatenate in
/-- The raised branch of the sorted ids' wrap. -/
theorem B1d_v45 (W : Valuation τ sig (Elt Ideal)) :
    after B1d W (main_v45 : DevRef τ sig)
      = addi (W (main_v19 : DevRef τ sig) : IVec S16384 32) (broadcastInDim S16384 ![] Spec.bc_S_16384 (constantI S_ 32 8#32)) := by
  simp only [B1a, B1b, B1c, B1d, RefOps.opsB1, List.take_succ_cons, List.take_zero, List.drop_succ_cons,
    List.drop_zero]
  after_results_simp

/-- Segment B1 whole: the segment starts, from the flattened ids (the four stretches chained). -/
theorem B1_v40 (W : Valuation τ sig (Elt Ideal)) :
    after (RefOps.opsB1 (F := Ideal)) W (main_v40 : DevRef τ sig) = segStartsF (W (main_v0 : DevRef τ sig)) := by
  rw [B1_cut, after_append, after_append, after_append]
  rw [B1d_v40, B1c_k37, B1c_v38, B1b_v37, B1b_v36, B1a_v27, B1a_v28]
  rfl

/-- Segment B1 whole: the sorted positions' indices. -/
theorem B1_v41 (W : Valuation τ sig (Elt Ideal)) :
    after (RefOps.opsB1 (F := Ideal)) W (main_v41 : DevRef τ sig) = (iotaInDim S16384 32 0 : IVec S16384 32) := by
  rw [B1_cut, after_append, after_append, after_append]
  rw [B1d_v41]

/-- Segment B1 whole: the sign test of the sorted ids' wrap. -/
theorem B1_v43 (W : Valuation τ sig (Elt Ideal)) :
    after (RefOps.opsB1 (F := Ideal)) W (main_v43 : DevRef τ sig)
      = cmpi .slt (W (main_v19 : DevRef τ sig) : IVec S16384 32) (broadcastInDim S16384 ![] Spec.bc_S_16384 (constantI S_ 32 0#32)) := by
  rw [B1_cut, after_append, after_append, after_append]
  rw [B1d_v43, B1c_k19, B1b_k19, B1a_k19]

/-- Segment B1 whole: the raised branch of the sorted ids' wrap. -/
theorem B1_v45 (W : Valuation τ sig (Elt Ideal)) :
    after (RefOps.opsB1 (F := Ideal)) W (main_v45 : DevRef τ sig)
      = addi (W (main_v19 : DevRef τ sig) : IVec S16384 32) (broadcastInDim S16384 ![] Spec.bc_S_16384 (constantI S_ 32 8#32)) := by
  rw [B1_cut, after_append, after_append, after_append]
  rw [B1d_v45, B1c_k19, B1b_k19, B1a_k19]

/-- The references segment B1's operations write, in order. -/
abbrev B1_W : List (Ref sig .tc) :=
  [main_c_5, main_v27, main_c_6, main_call1.v0.ref, main_call1.v1.ref, main_call1.v2.ref, main_c_7, main_v29,
   main_v30, main_c_8, main_v31, main_v32, main_v33, main_v34, main_c_9, main_v35, main_v36, main_c_10,
   main_v37, main_call2.call0.c.ref, main_call2.call0.v0.ref, main_call2.call0.v1.ref, main_v39, main_v40,
   main_v41, main_c_11, main_v42, main_v43, main_c_12, main_v44, main_v45]

/-- Each operation of the segment writes one buffer, and its reference is in the list. -/
theorem B1_writes : (RefOps.opsB1 (F := Ideal)).Forall fun op =>
    op.writes ⊆ (B1_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- Segment B1 keeps every buffer it does not write. -/
theorem B1_keep (W : Valuation τ sig (Elt Ideal)) (r : Ref sig .tc) (h : r ∉ B1_W) :
    after (RefOps.opsB1 (F := Ideal)) W (Proc.devRef .tc r) = W (Proc.devRef .tc r) :=
  after_of_writes_sub _ W B1_writes h

attribute [local irreducible] Host.sort2 Host.gather Host.scatter Host.scatterAdd Host.reduceWindow concatenate in
/-- The validity of each slot, from the buffers segment B1 leaves. -/
theorem B2_v51 (W : Valuation τ sig (Elt Ideal)) :
    after (RefOps.opsB2 (F := Ideal)) W (main_v51 : DevRef τ sig)
      = cmpi .slt (subi (W (main_v41 : DevRef τ sig) : IVec S16384 32)
          (Host.gather Spec.gd8 (W (main_v40 : DevRef τ sig))
            (Spec.col (select (W (main_v43 : DevRef τ sig) : IVec S16384 1) (W (main_v45 : DevRef τ sig) : IVec S16384 32) (W (main_v19 : DevRef τ sig)))))) (broadcastInDim S16384 ![] Spec.bc_S_16384 (constantI S_ 32 4096#32)) := by
  after_results_simp
  rfl

attribute [local irreducible] Host.sort2 Host.gather Host.scatter Host.scatterAdd Host.reduceWindow concatenate in
/-- The clamped slot, from the buffers segment B1 leaves. -/
theorem B2_v53 (W : Valuation τ sig (Elt Ideal)) :
    after (RefOps.opsB2 (F := Ideal)) W (main_v53 : DevRef τ sig)
      = minsi (subi (W (main_v41 : DevRef τ sig) : IVec S16384 32)
          (Host.gather Spec.gd8 (W (main_v40 : DevRef τ sig))
            (Spec.col (select (W (main_v43 : DevRef τ sig) : IVec S16384 1) (W (main_v45 : DevRef τ sig) : IVec S16384 32) (W (main_v19 : DevRef τ sig)))))) (broadcastInDim S16384 ![] Spec.bc_S_16384 (constantI S_ 32 4096#32)) := by
  after_results_simp
  rfl

/-- The references segment B2's operations write, in order. -/
abbrev B2_W : List (Ref sig .tc) :=
  [main_v46, main_v47, main_v48, main_v49, main_c_13, main_v50, main_v51, main_c_14, main_v52, main_v53]

/-- Each operation of the segment writes one buffer, and its reference is in the list. -/
theorem B2_writes : (RefOps.opsB2 (F := Ideal)).Forall fun op =>
    op.writes ⊆ (B2_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- Segment B2 keeps every buffer it does not write. -/
theorem B2_keep (W : Valuation τ sig (Elt Ideal)) (r : Ref sig .tc) (h : r ∉ B2_W) :
    after (RefOps.opsB2 (F := Ideal)) W (Proc.devRef .tc r) = W (Proc.devRef .tc r) :=
  after_of_writes_sub _ W B2_writes h

/-- Segment B whole: the validity of each slot, from the flattened and the sorted ids (the select of the sign test
    between the raised and the plain id is the wrap, by unfolding). -/
theorem B_v51 (W : Valuation τ sig (Elt Ideal)) :
    after (RefOps.opsB2 (F := Ideal)) (after (RefOps.opsB1 (F := Ideal)) W) (main_v51 : DevRef τ sig)
      = cmpi .slt (positionsF (W (main_v0 : DevRef τ sig)) (W (main_v19 : DevRef τ sig))) (broadcastInDim S16384 ![] Spec.bc_S_16384 (constantI S_ 32 4096#32)) := by
  rw [B2_v51, B1_v40, B1_v41, B1_v43, B1_v45, B1_keep W main_v19 (by decide)]
  rfl

/-- Segment B whole: the clamped slot. -/
theorem B_v53 (W : Valuation τ sig (Elt Ideal)) :
    after (RefOps.opsB2 (F := Ideal)) (after (RefOps.opsB1 (F := Ideal)) W) (main_v53 : DevRef τ sig)
      = minsi (positionsF (W (main_v0 : DevRef τ sig)) (W (main_v19 : DevRef τ sig))) (broadcastInDim S16384 ![] Spec.bc_S_16384 (constantI S_ 32 4096#32)) := by
  rw [B2_v53, B1_v40, B1_v41, B1_v43, B1_v45, B1_keep W main_v19 (by decide)]
  rfl

/-! ## The composition

The buffers after each prefix of the line, and what each buffer a later segment reads holds there, as a function of the
arguments. A buffer a segment does not write is as the prefix before left it. -/

/-- The buffers after the sorted assignments' segment. -/
def X1 (V : Valuation τ sig (Elt Ideal)) : Valuation τ sig (Elt Ideal) := after (RefOps.opsA (F := Ideal)) V

/-- The buffers after the slots' segment. -/
def X3 (V : Valuation τ sig (Elt Ideal)) : Valuation τ sig (Elt Ideal) := after (RefOps.opsB2 (F := Ideal)) (after (RefOps.opsB1 (F := Ideal)) (X1 V))

/-- The buffers after the dispatch. -/
def X4 (V : Valuation τ sig (Elt Ideal)) : Valuation τ sig (Elt Ideal) := after (RefOps.opsC (F := Ideal)) (X3 V)

/-- The buffers after the feed-forward. -/
def X5 (V : Valuation τ sig (Elt Ideal)) : Valuation τ sig (Elt Ideal) := after (RefOps.opsD (F := Ideal)) (X4 V)

/-- The buffers after the gather of the expert outputs' rows. -/
def X6 (V : Valuation τ sig (Elt Ideal)) : Valuation τ sig (Elt Ideal) := after (RefOps.opsE1 (F := Ideal) ++ RefOps.opsE2 (F := Ideal)) (X5 V)

/-- The whole line, cut at its segments: appending is associative, and a concatenation runs its parts in order. -/
theorem after_ops (V : Valuation τ sig (Elt Ideal)) :
    after (RefOps.ops (F := Ideal)) V = after (RefOps.opsF (F := Ideal)) (X6 V) := by
  have cut : RefOps.ops (F := Ideal)
      = RefOps.opsA (F := Ideal) ++ (RefOps.opsB1 (F := Ideal) ++ (RefOps.opsB2 (F := Ideal) ++ (RefOps.opsC (F := Ideal)
          ++ (RefOps.opsD (F := Ideal)
            ++ ((RefOps.opsE1 (F := Ideal) ++ RefOps.opsE2 (F := Ideal)) ++ RefOps.opsF (F := Ideal)))))) := by
    simp only [RefOps.ops, RefOps.opsP0, RefOps.opsP1, RefOps.opsP2, List.append_assoc]
  rw [cut, after_append (RefOps.opsA (F := Ideal)), after_append (RefOps.opsB1 (F := Ideal)),
    after_append (RefOps.opsB2 (F := Ideal)), after_append (RefOps.opsC (F := Ideal)),
    after_append (RefOps.opsD (F := Ideal)), after_append (RefOps.opsE1 (F := Ideal) ++ RefOps.opsE2 (F := Ideal))]
  rfl

/-! ### After segment A -/

theorem X1_v0 (V : Valuation τ sig (Elt Ideal)) : X1 V (main_v0 : DevRef τ sig) = Spec.flatE (V (main_arg1 : DevRef τ sig)) := A_v0 V

theorem X1_v12 (V : Valuation τ sig (Elt Ideal)) : X1 V (main_v12 : DevRef τ sig) = Spec.stok (V (main_arg1 : DevRef τ sig)) := A_v12 V

theorem X1_v19 (V : Valuation τ sig (Elt Ideal)) : X1 V (main_v19 : DevRef τ sig) = Spec.seid (V (main_arg1 : DevRef τ sig)) := A_v19 V

theorem X1_v26 (V : Valuation τ sig (Elt Ideal)) : X1 V (main_v26 : DevRef τ sig) = Spec.swts (F := Ideal) (V (main_arg1 : DevRef τ sig)) (V (main_arg2 : DevRef τ sig)) := A_v26 V

theorem X1_arg0 (V : Valuation τ sig (Elt Ideal)) : X1 V (main_arg0 : DevRef τ sig) = (V (main_arg0 : DevRef τ sig)) := A_keep V main_arg0 (by decide)

theorem X1_arg3 (V : Valuation τ sig (Elt Ideal)) : X1 V (main_arg3 : DevRef τ sig) = (V (main_arg3 : DevRef τ sig)) := A_keep V main_arg3 (by decide)

theorem X1_arg4 (V : Valuation τ sig (Elt Ideal)) : X1 V (main_arg4 : DevRef τ sig) = (V (main_arg4 : DevRef τ sig)) := A_keep V main_arg4 (by decide)

theorem X1_arg5 (V : Valuation τ sig (Elt Ideal)) : X1 V (main_arg5 : DevRef τ sig) = (V (main_arg5 : DevRef τ sig)) := A_keep V main_arg5 (by decide)

/-! ### After segment B -/

attribute [local irreducible] Host.sort2 Host.gather Host.scatter Host.scatterAdd Host.reduceWindow concatenate in
/-- The slots' validity is the shared definition's: the slots are that function of the flattened and sorted ids. -/
theorem X3_v51 (V : Valuation τ sig (Elt Ideal)) : X3 V (main_v51 : DevRef τ sig) = Spec.valid (V (main_arg1 : DevRef τ sig)) := by
  unfold X3
  rw [B_v51, X1_v0, X1_v19, ← positions_eq]
  rfl

attribute [local irreducible] Host.sort2 Host.gather Host.scatter Host.scatterAdd Host.reduceWindow concatenate in
/-- The clamped slots are the shared definition's. -/
theorem X3_v53 (V : Valuation τ sig (Elt Ideal)) : X3 V (main_v53 : DevRef τ sig) = Spec.posC (V (main_arg1 : DevRef τ sig)) := by
  unfold X3
  rw [B_v53, X1_v0, X1_v19, ← positions_eq]
  rfl

/-- Kept: the sorted tokens. -/
theorem X3_v12 (V : Valuation τ sig (Elt Ideal)) : X3 V (main_v12 : DevRef τ sig) = Spec.stok (V (main_arg1 : DevRef τ sig)) := by
  unfold X3
  rw [B2_keep _ main_v12 (by decide), B1_keep _ main_v12 (by decide)]
  exact X1_v12 V

/-- Kept: the sorted experts. -/
theorem X3_v19 (V : Valuation τ sig (Elt Ideal)) : X3 V (main_v19 : DevRef τ sig) = Spec.seid (V (main_arg1 : DevRef τ sig)) := by
  unfold X3
  rw [B2_keep _ main_v19 (by decide), B1_keep _ main_v19 (by decide)]
  exact X1_v19 V

/-- Kept: the sorted weights. -/
theorem X3_v26 (V : Valuation τ sig (Elt Ideal)) : X3 V (main_v26 : DevRef τ sig) = Spec.swts (F := Ideal) (V (main_arg1 : DevRef τ sig)) (V (main_arg2 : DevRef τ sig)) := by
  unfold X3
  rw [B2_keep _ main_v26 (by decide), B1_keep _ main_v26 (by decide)]
  exact X1_v26 V

/-- Kept: the token features. -/
theorem X3_arg0 (V : Valuation τ sig (Elt Ideal)) : X3 V (main_arg0 : DevRef τ sig) = (V (main_arg0 : DevRef τ sig)) := by
  unfold X3
  rw [B2_keep _ main_arg0 (by decide), B1_keep _ main_arg0 (by decide)]
  exact X1_arg0 V

/-- Kept: the gate weights. -/
theorem X3_arg3 (V : Valuation τ sig (Elt Ideal)) : X3 V (main_arg3 : DevRef τ sig) = (V (main_arg3 : DevRef τ sig)) := by
  unfold X3
  rw [B2_keep _ main_arg3 (by decide), B1_keep _ main_arg3 (by decide)]
  exact X1_arg3 V

/-- Kept: the up weights. -/
theorem X3_arg4 (V : Valuation τ sig (Elt Ideal)) : X3 V (main_arg4 : DevRef τ sig) = (V (main_arg4 : DevRef τ sig)) := by
  unfold X3
  rw [B2_keep _ main_arg4 (by decide), B1_keep _ main_arg4 (by decide)]
  exact X1_arg4 V

/-- Kept: the down weights. -/
theorem X3_arg5 (V : Valuation τ sig (Elt Ideal)) : X3 V (main_arg5 : DevRef τ sig) = (V (main_arg5 : DevRef τ sig)) := by
  unfold X3
  rw [B2_keep _ main_arg5 (by decide), B1_keep _ main_arg5 (by decide)]
  exact X1_arg5 V

/-! ### After segment C -/

/-- The padded buffer: the scatter of the sorted tokens' rows at the (expert, slot) table. -/
theorem X4_v75 (V : Valuation τ sig (Elt Ideal)) : X4 V (main_v75 : DevRef τ sig) = refP (V (main_arg0 : DevRef τ sig)) (V (main_arg1 : DevRef τ sig)) := by
  unfold X4
  rw [C_v75, X3_v19, X3_v53, X3_arg0, X3_v12]
  rfl

/-- Kept: the sorted tokens. -/
theorem X4_v12 (V : Valuation τ sig (Elt Ideal)) : X4 V (main_v12 : DevRef τ sig) = Spec.stok (V (main_arg1 : DevRef τ sig)) := by
  unfold X4
  rw [C_keep _ main_v12 (by decide)]
  exact X3_v12 V

/-- Kept: the sorted experts. -/
theorem X4_v19 (V : Valuation τ sig (Elt Ideal)) : X4 V (main_v19 : DevRef τ sig) = Spec.seid (V (main_arg1 : DevRef τ sig)) := by
  unfold X4
  rw [C_keep _ main_v19 (by decide)]
  exact X3_v19 V

/-- Kept: the sorted weights. -/
theorem X4_v26 (V : Valuation τ sig (Elt Ideal)) : X4 V (main_v26 : DevRef τ sig) = Spec.swts (F := Ideal) (V (main_arg1 : DevRef τ sig)) (V (main_arg2 : DevRef τ sig)) := by
  unfold X4
  rw [C_keep _ main_v26 (by decide)]
  exact X3_v26 V

/-- Kept: the slots' validity. -/
theorem X4_v51 (V : Valuation τ sig (Elt Ideal)) : X4 V (main_v51 : DevRef τ sig) = Spec.valid (V (main_arg1 : DevRef τ sig)) := by
  unfold X4
  rw [C_keep _ main_v51 (by decide)]
  exact X3_v51 V

/-- Kept: the clamped slots. -/
theorem X4_v53 (V : Valuation τ sig (Elt Ideal)) : X4 V (main_v53 : DevRef τ sig) = Spec.posC (V (main_arg1 : DevRef τ sig)) := by
  unfold X4
  rw [C_keep _ main_v53 (by decide)]
  exact X3_v53 V

/-- Kept: the gate weights. -/
theorem X4_arg3 (V : Valuation τ sig (Elt Ideal)) : X4 V (main_arg3 : DevRef τ sig) = (V (main_arg3 : DevRef τ sig)) := by
  unfold X4
  rw [C_keep _ main_arg3 (by decide)]
  exact X3_arg3 V

/-- Kept: the up weights. -/
theorem X4_arg4 (V : Valuation τ sig (Elt Ideal)) : X4 V (main_arg4 : DevRef τ sig) = (V (main_arg4 : DevRef τ sig)) := by
  unfold X4
  rw [C_keep _ main_arg4 (by decide)]
  exact X3_arg4 V

/-- Kept: the down weights. -/
theorem X4_arg5 (V : Valuation τ sig (Elt Ideal)) : X4 V (main_arg5 : DevRef τ sig) = (V (main_arg5 : DevRef τ sig)) := by
  unfold X4
  rw [C_keep _ main_arg5 (by decide)]
  exact X3_arg5 V

/-! ### After segment D -/

/-- Every expert's feed-forward on the padded buffer. -/
theorem X5_v80 (V : Valuation τ sig (Elt Ideal)) : X5 V (main_v80 : DevRef τ sig) = refEO (V (main_arg0 : DevRef τ sig)) (V (main_arg1 : DevRef τ sig)) (V (main_arg3 : DevRef τ sig)) (V (main_arg4 : DevRef τ sig)) (V (main_arg5 : DevRef τ sig)) := by
  unfold X5
  rw [D_v80, X4_v75, X4_arg3, X4_arg4, X4_arg5]
  rfl

/-- Kept: the sorted tokens. -/
theorem X5_v12 (V : Valuation τ sig (Elt Ideal)) : X5 V (main_v12 : DevRef τ sig) = Spec.stok (V (main_arg1 : DevRef τ sig)) := by
  unfold X5
  rw [D_keep _ main_v12 (by decide)]
  exact X4_v12 V

/-- Kept: the sorted experts. -/
theorem X5_v19 (V : Valuation τ sig (Elt Ideal)) : X5 V (main_v19 : DevRef τ sig) = Spec.seid (V (main_arg1 : DevRef τ sig)) := by
  unfold X5
  rw [D_keep _ main_v19 (by decide)]
  exact X4_v19 V

/-- Kept: the sorted weights. -/
theorem X5_v26 (V : Valuation τ sig (Elt Ideal)) : X5 V (main_v26 : DevRef τ sig) = Spec.swts (F := Ideal) (V (main_arg1 : DevRef τ sig)) (V (main_arg2 : DevRef τ sig)) := by
  unfold X5
  rw [D_keep _ main_v26 (by decide)]
  exact X4_v26 V

/-- Kept: the slots' validity. -/
theorem X5_v51 (V : Valuation τ sig (Elt Ideal)) : X5 V (main_v51 : DevRef τ sig) = Spec.valid (V (main_arg1 : DevRef τ sig)) := by
  unfold X5
  rw [D_keep _ main_v51 (by decide)]
  exact X4_v51 V

/-- Kept: the clamped slots. -/
theorem X5_v53 (V : Valuation τ sig (Elt Ideal)) : X5 V (main_v53 : DevRef τ sig) = Spec.posC (V (main_arg1 : DevRef τ sig)) := by
  unfold X5
  rw [D_keep _ main_v53 (by decide)]
  exact X4_v53 V

/-! ### After segment E -/

/-- The expert outputs' rows gathered at the (expert, slot) table. -/
theorem X6_v94 (V : Valuation τ sig (Elt Ideal)) : X6 V (main_v94 : DevRef τ sig)
      = Host.gather gather_S8x4097x1024_S16384x2_S16384x1024_1_01_n_n_01_1_111024 (refEO (V (main_arg0 : DevRef τ sig)) (V (main_arg1 : DevRef τ sig)) (V (main_arg3 : DevRef τ sig)) (V (main_arg4 : DevRef τ sig)) (V (main_arg5 : DevRef τ sig)))
          (Spec.idx2 4097#32 (Spec.seid (V (main_arg1 : DevRef τ sig))) (Spec.posC (V (main_arg1 : DevRef τ sig)))) := by
  unfold X6
  rw [E_v94, X5_v80, X5_v19, X5_v53]

/-- Kept: the sorted tokens. -/
theorem X6_v12 (V : Valuation τ sig (Elt Ideal)) : X6 V (main_v12 : DevRef τ sig) = Spec.stok (V (main_arg1 : DevRef τ sig)) := by
  unfold X6
  rw [E_keep _ main_v12 (by decide)]
  exact X5_v12 V

/-- Kept: the sorted weights. -/
theorem X6_v26 (V : Valuation τ sig (Elt Ideal)) : X6 V (main_v26 : DevRef τ sig) = Spec.swts (F := Ideal) (V (main_arg1 : DevRef τ sig)) (V (main_arg2 : DevRef τ sig)) := by
  unfold X6
  rw [E_keep _ main_v26 (by decide)]
  exact X5_v26 V

/-- Kept: the slots' validity. -/
theorem X6_v51 (V : Valuation τ sig (Elt Ideal)) : X6 V (main_v51 : DevRef τ sig) = Spec.valid (V (main_arg1 : DevRef τ sig)) := by
  unfold X6
  rw [E_keep _ main_v51 (by decide)]
  exact X5_v51 V

/-! ## The result, and the arguments -/

/-- The reference's result buffer holds `refOut` of the arguments: the last segment's combine of the buffers the
    prefixes leave. -/
theorem out_eq (V : Valuation τ sig (Elt Ideal)) :
    after (RefOps.ops (F := Ideal)) V (main_v106 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops, F_v106, X6_v12, X6_v51, X6_v26, X6_v94]
  rfl

/-- A buffer no segment writes is, after the whole line, as it was. -/
theorem ops_keep (V : Valuation τ sig (Elt Ideal)) (r : Ref sig .tc) (hA : r ∉ A_W) (hB1 : r ∉ B1_W) (hB2 : r ∉ B2_W) (hC : r ∉ C_W)
    (hD : r ∉ D_W) (hE : r ∉ E_W) (hF : r ∉ F_W) :
    after (RefOps.ops (F := Ideal)) V (Proc.devRef .tc r) = V (Proc.devRef .tc r) := by
  rw [after_ops, F_keep _ r hF]
  unfold X6 X5 X4 X3 X1
  rw [E_keep _ r hE, D_keep _ r hD, C_keep _ r hC, B2_keep _ r hB2, B1_keep _ r hB1, A_keep _ r hA]

theorem arg0_eq (V : Valuation τ sig (Elt Ideal)) :
    after (RefOps.ops (F := Ideal)) V (main_arg0 : DevRef τ sig) = V (main_arg0 : DevRef τ sig) :=
  ops_keep V main_arg0 (by decide) (by decide) (by decide) (by decide) (by decide) (by decide) (by decide)

theorem arg1_eq (V : Valuation τ sig (Elt Ideal)) :
    after (RefOps.ops (F := Ideal)) V (main_arg1 : DevRef τ sig) = V (main_arg1 : DevRef τ sig) :=
  ops_keep V main_arg1 (by decide) (by decide) (by decide) (by decide) (by decide) (by decide) (by decide)

theorem arg2_eq (V : Valuation τ sig (Elt Ideal)) :
    after (RefOps.ops (F := Ideal)) V (main_arg2 : DevRef τ sig) = V (main_arg2 : DevRef τ sig) :=
  ops_keep V main_arg2 (by decide) (by decide) (by decide) (by decide) (by decide) (by decide) (by decide)

theorem arg3_eq (V : Valuation τ sig (Elt Ideal)) :
    after (RefOps.ops (F := Ideal)) V (main_arg3 : DevRef τ sig) = V (main_arg3 : DevRef τ sig) :=
  ops_keep V main_arg3 (by decide) (by decide) (by decide) (by decide) (by decide) (by decide) (by decide)

theorem arg4_eq (V : Valuation τ sig (Elt Ideal)) :
    after (RefOps.ops (F := Ideal)) V (main_arg4 : DevRef τ sig) = V (main_arg4 : DevRef τ sig) :=
  ops_keep V main_arg4 (by decide) (by decide) (by decide) (by decide) (by decide) (by decide) (by decide)

theorem arg5_eq (V : Valuation τ sig (Elt Ideal)) :
    after (RefOps.ops (F := Ideal)) V (main_arg5 : DevRef τ sig) = V (main_arg5 : DevRef τ sig) :=
  ops_keep V main_arg5 (by decide) (by decide) (by decide) (by decide) (by decide) (by decide) (by decide)

end Cert.ReferenceIdeal.RRead

end
-- ==== Proof.Equal.lean ====
/-
  The kernel program's result is the reference's result, as extended reals, when the expert ids are non-negative.

  Both results are the same combine of the same sorted tokens, weights and validity, applied to a gather of
  per-expert outputs at the table of (expert, slot) pairs; the slots lie in [0, 4096] (the precondition, through
  the sorting argument), so the two gathers read corresponding rows of their arrays. The kernel's array holds, at
  row `r` of expert `a`, the SwiGLU feed-forward of row `r` of the kernel's padded buffer; the reference's
  holds the same function of row `r` of its own padded buffer; the two buffers are the same overwriting scatter
  of the same rows at the same (expert, slot) pairs into zeros, so they agree at corresponding rows; and the
  kernel's narrowing of the rows and of the weights to bf16 is the identity on the extended reals.
-/
import proofs.«110229_j18451179504175_1_alg».proof.Proof.Bridge
import proofs.«110229_j18451179504175_1_alg».proof.Proof.PosNonneg
import proofs.«110229_j18451179504175_1_alg».proof.Proof.KValue
import proofs.«110229_j18451179504175_1_alg».proof.Proof.KHost
import proofs.«110229_j18451179504175_1_alg».proof.Proof.KTail
import proofs.«110229_j18451179504175_1_alg».proof.Proof.RefRunB
import proofs.«110229_j18451179504175_1_alg».proof.Proof.RefFFN
import Idealize.ShloMosaic.Lib.IdealHost
import Idealize.ShloMosaic.PureOps.Ideal.Laws

noncomputable section

namespace Cert.Equal

open Idealize.ShloMosaic Idealize.ShloMosaic.ValueIdx Idealize.ShloMosaic.TcCoe Idealize.SL.Sem
open Cert.KernelIdeal Cert.KernelIdeal.Gen Cert.KernelIdeal.KHost Cert.KernelIdeal.KTail
open Cert.ReferenceIdeal.RRead Cert.FFNSpec

variable (m : (ℓ : Loc Cert.KernelIdeal.nD Cert.KernelIdeal.τ Cert.KernelIdeal.sig) → Buf (Elt Ideal) ℓ)
  (c : Dev Cert.KernelIdeal.nD)

/-- The two padded buffers agree at corresponding rows. -/
theorem padded_corr (hp0 : ∀ i : Fin 16384, 0 ≤ (Spec.posC (A1 m c) (ix1 i)).toInt)
    (a : Fin 8) (r : Fin 4224) (r' : Fin 4097) (hr : r.val = r'.val) (k : Fin 1024) :
    (V m c main_v76 : S8x4224x1024.Idx → EReal) (ix3 a r k) = refP (A0 m c) (A1 m c) (ix3 a r' k) := by
  rw [V_v76]
  unfold refP
  rw [Bridge.idx2_congr 4224#32 4097#32 _ _ hp0]
  have hz : (broadcastInDim S8x4224x1024 ![] bcast_S_S8x4224x1024 (constant (F := Ideal) S_ .bf16 0x0000#16)
      : S8x4224x1024.Idx → EReal) = fun _ => (0 : EReal) := by
    funext j
    rw [broadcastInDim_scalar_apply]
    exact Ideal.ofBits_zero_bf16
  have hz' : (broadcastInDim Cert.ReferenceIdeal.S8x4097x1024 ![] Cert.ReferenceIdeal.Facts₀.bcast_S_S8x4097x1024
      (constant (F := Ideal) Cert.ReferenceIdeal.S_ .f32 0x00000000#32)
      : Cert.ReferenceIdeal.S8x4097x1024.Idx → EReal) = fun _ => (0 : EReal) := by
    funext j
    rw [broadcastInDim_scalar_apply]
    exact Ideal.ofBits_zero_f32
  rw [hz, hz']
  exact Rank3.scatterSet3_corr _ _ rfl rfl rfl rfl rfl rfl rfl rfl (0 : EReal) _ _ a r r' hr k

/-- The two arrays of per-expert outputs agree at corresponding rows. -/
theorem eo_corr (hp0 : ∀ i : Fin 16384, 0 ≤ (Spec.posC (A1 m c) (ix1 i)).toInt)
    (a : Fin 8) (r : Fin 4224) (r' : Fin 4097) (hr : r.val = r'.val) (d : Fin 1024) :
    ((dats (F := Ideal) m 0 c).arrAt 4 cfg0.N : S8x4224x1024.Idx → EReal) (ix3 a r d)
      = refEO (A0 m c) (A1 m c) (A3 m c) (A4 m c) (A5 m c) (ix3 a r' d) := by
  rw [Cert.KernelIdeal.KValue.arrAt4_apply m c a r d]
  unfold refEO
  rw [Cert.RefFFN.refFFN_apply _ _ ⟨rfl, rfl, rfl, rfl, rfl, rfl⟩ ⟨rfl, rfl, rfl, rfl, rfl, rfl⟩ _ _ _ _ _ a r' d]
  have e0 : (fun k => (V m c main_v76 : S8x4224x1024.Idx → EReal) (ix3 a r k))
      = fun k => refP (A0 m c) (A1 m c) (ix3 a r' k) := funext fun k => padded_corr m c hp0 a r r' hr k
  rw [e0, V_v77, V_v78, V_v79]
  rfl

/-- The kernel program's result is the reference's. -/
theorem kout_eq (h : ∀ j : Spec.S8192x2.Idx, 0 ≤ (A1 m c j).toInt) :
    KOut m c = refOut (A0 m c) (A1 m c) (A2 m c) (A3 m c) (A4 m c) (A5 m c) := by
  have hp0 := Cert.PosNonneg.posC_nonneg (A1 m c) h
  have hp1 := Cert.PosNonneg.posC_le (A1 m c)
  unfold KOut refOut
  rw [V_v12, V_v51, V_v26, V_v19, V_v53]
  exact congrArg
    (Spec.tail (F := Ideal) (Spec.stok (A1 m c))
      (Spec.wsel (F := Ideal) (Spec.valid (A1 m c)) (Spec.swts (F := Ideal) (A1 m c) (A2 m c))))
    (Bridge.gathered_eq _ _ ⟨rfl, rfl, rfl, rfl, rfl⟩ ⟨rfl, rfl, rfl, rfl, rfl⟩ _ _ _ _ hp0 hp1
      (fun a r r' hr d => eo_corr m c hp0 a r r' hr d))

end Cert.Equal

end
-- ==== Proof.RefRunA.lean ====
/-
  The reference program's run. Its @main, printed in three windows, is one straight line of 154 host operations:
  each module-local function's body, unfolded at its call over that call's buffers, contributes its operations in
  place, and sequencing is associative. Every operation touches TensorCore buffers only and the signature scopes
  nothing, so every weakly fair execution terminates with each buffer at the fold of the operations' results over
  the launch contents.
-/
import proofs.«110229_j18451179504175_1_alg».proof.Proof.RefOps
import proofs.«110229_j18451179504175_1_alg».proof.Proof.Gen.ReferenceIdeal
import Idealize.ShloMosaic.Lib.StableHlo.Run

noncomputable section

namespace Cert.ReferenceIdeal.RRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## @main is the line of its operations -/

-- sixty-six binds re-associated: the rewrite under the chain recurses once per statement
set_option maxRecDepth 4096 in
/-- The first window: its own statements, with the argsort's three operations, the clip's three and the cumulative
    sum's three standing at their calls. -/
theorem part0_eq (c : Dev nD) : main_part0 (F := F) c = seq (opsP0 (F := F)) := by
  rw [show (opsP0 (F := F)) = opsA ++ opsB1 from rfl, seq_append]
  simp only [main_part0, fn_argsort.body, fn_clip.body, fn_cumsum.body, fn_cumsum_0.body, seq, bind_assoc, pure_bind]
  rfl

set_option maxRecDepth 4096 in
/-- The second window: silu's nine operations stand at its call. -/
theorem part1_eq (c : Dev nD) : main_part1 (F := F) c = seq (opsP1 (F := F)) := by
  rw [show (opsP1 (F := F)) = opsB2 ++ opsC ++ opsD ++ opsE1 from rfl, seq_append, seq_append, seq_append]
  simp only [main_part1, fn_silu.body, seq, bind_assoc, pure_bind]
  rfl

set_option maxRecDepth 4096 in
/-- The third window: the select's three operations stand at its call. -/
theorem part2_eq (c : Dev nD) : main_part2 (F := F) c = seq (opsP2 (F := F)) := by
  rw [show (opsP2 (F := F)) = opsE2 ++ opsF from rfl, seq_append]
  simp only [main_part2, fn_where.body, seq, bind_assoc, pure_bind]

/-- @main runs its three windows in order, and two lines run one after the other are their concatenation. -/
theorem main_eq (c : Dev nD) : main (F := F) c = seq (RefOps.ops (F := F)) := by
  rw [show (RefOps.ops (F := F)) = opsP0 ++ opsP1 ++ opsP2 from rfl, seq_append, seq_append, ← part0_eq c, ← part1_eq c,
    ← part2_eq c]
  simp only [main, bind_assoc]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, segment by segment -/

theorem opsA_sub : (opsA : List (HloOp τ sig (Elt F))).Forall fun op => op.bufs ⊆ tcRefs τ sig :=
  ⟨reshape_bufs_sub .., reshape_bufs_sub .., nullary_bufs_sub .., unary_bufs_sub .., reshape_bufs_sub .., nullary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

theorem opsB1_sub : (opsB1 : List (HloOp τ sig (Elt F))).Forall fun op => op.bufs ⊆ tcRefs τ sig :=
  ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., nullary_bufs_sub .., unary_bufs_sub .., binary_bufs_sub .., unary_bufs_sub .., binary_bufs_sub ..,
    nullary_bufs_sub .., nullary_bufs_sub .., unary_bufs_sub .., binary_bufs_sub .., nullary_bufs_sub .., unary_bufs_sub ..,
    binary_bufs_sub ..⟩

theorem opsB2_sub : (opsB2 : List (HloOp τ sig (Elt F))).Forall fun op => op.bufs ⊆ tcRefs τ sig :=
  ⟨ternary_bufs_sub .., unary_bufs_sub .., binary_bufs_sub .., binary_bufs_sub .., nullary_bufs_sub .., unary_bufs_sub ..,
    binary_bufs_sub .., nullary_bufs_sub .., unary_bufs_sub .., binary_bufs_sub ..⟩

theorem opsC_sub : (opsC : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., ternary_bufs_sub ..⟩

theorem opsD_sub : (opsD : List (HloOp τ sig (Elt F))).Forall fun op => op.bufs ⊆ tcRefs τ sig :=
  ⟨binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., binary_bufs_sub ..,
    binary_bufs_sub ..⟩

theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub ..⟩

theorem opsE2_sub : (opsE2 : List (HloOp τ sig (Elt F))).Forall fun op => op.bufs ⊆ tcRefs τ sig :=
  ⟨binary_bufs_sub .., binary_bufs_sub ..⟩

theorem opsF_sub : (opsF : List (HloOp τ sig (Elt F))).Forall fun op => op.bufs ⊆ tcRefs τ sig :=
  ⟨nullary_bufs_sub .., unary_bufs_sub .., unary_bufs_sub .., ternary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- Over a concatenation the property is the conjunction of the segments'. -/
theorem ops_sub : (RefOps.ops : List (HloOp τ sig (Elt F))).Forall fun op => op.bufs ⊆ tcRefs τ sig := by
  show ((opsA ++ opsB1) ++ (opsB2 ++ opsC ++ opsD ++ opsE1) ++ (opsE2 ++ opsF) : List (HloOp τ sig (Elt F))).Forall _
  simp only [List.forall_append]
  exact ⟨⟨⟨opsA_sub, opsB1_sub⟩, ⟨⟨⟨opsB2_sub, opsC_sub⟩, opsD_sub⟩, opsE1_sub⟩⟩, ⟨opsE2_sub, opsF_sub⟩⟩

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (RefOps.ops (F := F)) (launchContents m c) (b : DevRef τ sig) :=
  run_seq scopedRefs_eq scopedSems_eq defs main (fun _ => RefOps.ops) main_eq (fun _ => ops_sub) m ρ

end Cert.ReferenceIdeal.RRun

end
-- ==== Proof.RefRun.lean ====
/-
  The reference's run with its result named: every weakly fair execution of the reference program terminates with
  the result buffer at `refOut` of the argument arrays and the arguments unchanged — the run of its operation
  list read at the result buffer and at each argument.
-/
import proofs.«110229_j18451179504175_1_alg».proof.Proof.RefRunA
import proofs.«110229_j18451179504175_1_alg».proof.Proof.RefRunB

noncomputable section

namespace Cert.ReferenceIdeal.RRun

open Cert.ReferenceIdeal Cert.ReferenceIdeal.Gen Cert.ReferenceIdeal.RRead
open Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v106).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c))⟩)
    (run_main m ρ)

end Cert.ReferenceIdeal.RRun

end
-- ==== Proof.PreDecode.lean ====
import proofs.«110229_j18451179504175_1_alg».proof.Pre_finite_inputs
import proofs.«110229_j18451179504175_1_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

/-!
  The precondition read back. The precondition is the conjunction (the and of one-bit words) of six
  all-reductions: five say that every entry of a float input is finite, the last that every expert index e
  satisfies 0 ≤ e, the compare signed. From "the conjunction is 1" only the last conjunct is kept: an and of two
  bits is 1 only when both are, an all-reduction by and that is 1 met a 1 at every index, and a signed compare
  that is 1 is the order of the signed values. The bound is a scalar constant broadcast over the [8192, 2] index
  array, so at every index it is the word 0.
-/

noncomputable section

namespace Cert.PreDecode

open Idealize.ShloMosaic Idealize.ShloMosaic.ValueIdx
open scoped BigOperators

open Cert.Pre_finite_inputs in
/-- Every expert index is non-negative: the last conjunct of the precondition, read at index j. -/
theorem idx_nonneg [Cert.Pre_finite_inputs.Facts]
    (a0 : FVec Ideal S8192x1024 .f32) (a1 : IVec S8192x2 32) (a2 : FVec Ideal S8192x2 .f32)
    (a3 a4 : FVec Ideal S8x1024x4096 .f32) (a5 : FVec Ideal S8x4096x1024 .f32)
    (h : Cert.Pre_finite_inputs.fn (F := Ideal) a0 a1 a2 a3 a4 a5 = fun _ => 1#1) :
    ∀ j : S8192x2.Idx, 0 ≤ (a1 j).toInt := by
  intro j
  -- the scalar shape has one index
  haveI : Subsingleton S_.Idx := ⟨fun a b => funext fun d => d.elim0⟩
  -- the conjunction read at that index
  have e := congrFun h ix0
  unfold Cert.Pre_finite_inputs.fn Cert.Pre_finite_inputs.fn_part1 at e
  -- the outermost and: keep its second operand, the all-reduction over the expert indices
  have e2 := (IntOp.andi_eq_one.1 e).2
  -- an all-reduction by and that is 1 met a 1 at index j
  have ej := Host.reduce_andi_all _ _ _ _ _ e2 j
  -- the element at j is the compare of a1 j with the constant 0; a signed compare that is 1 is the order of the
  -- signed values, and the constant's signed value is 0
  exact IntOp.cmpi_sge.1 ej

end Cert.PreDecode

end
-- ==== Proof.lean ====
/-
  The certificate of the mixture-of-experts kernel against its reference.

  The three frames: the two kernel programs' are the generated frame certificates; the reference's is its run with
  the result dropped. The kernel's idealization rewrote nothing. The value claim: under the precondition every
  expert id is non-negative; the kernel program ends with its result at the combine of the gathered per-expert
  feed-forward outputs, the reference with its result at the same function of the same arguments (module Equal),
  the arguments of the two runs agreeing.
-/
import proofs.«110229_j18451179504175_1_alg».proof.Defs
import proofs.«110229_j18451179504175_1_alg».proof.Proof.Gen.Kernel
import proofs.«110229_j18451179504175_1_alg».proof.Proof.Gen.Kernel.Frame
import proofs.«110229_j18451179504175_1_alg».proof.Proof.Gen.KernelIdeal
import proofs.«110229_j18451179504175_1_alg».proof.Proof.Gen.KernelIdeal.Frame
import proofs.«110229_j18451179504175_1_alg».proof.Proof.Gen.ReferenceIdeal
import proofs.«110229_j18451179504175_1_alg».proof.Proof.Gen.Pre_finite_inputs
import proofs.«110229_j18451179504175_1_alg».proof.Proof.Equal
import proofs.«110229_j18451179504175_1_alg».proof.Proof.RefRun
import proofs.«110229_j18451179504175_1_alg».proof.Proof.PreDecode
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RRun.run m ρ)

theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.ReferenceIdeal.RRead.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)), ?_,
    Cert.ReferenceIdeal.RRun.run m' ρ'⟩
  refine (θ_run Cert.KernelIdeal.defs _ _).mono (fun _ h c => ⟨(h c).1.trans ?_, (h c).2⟩)
    (Cert.KernelIdeal.KTail.run_value m ρ)
  beta_reduce
  rw [(hagree c).1, (hagree c).2.1, (hagree c).2.2.1, (hagree c).2.2.2.1, (hagree c).2.2.2.2.1, (hagree c).2.2.2.2.2]
  exact Cert.Equal.kout_eq m c (Cert.PreDecode.idx_nonneg _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
